-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000x1 : Shape := ⟨2, ![800000, 1]⟩
abbrev S129x128 : Shape := ⟨2, ![129, 128]⟩
abbrev S128 : Shape := ⟨1, ![128]⟩
abbrev S257x64 : Shape := ⟨2, ![257, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x1 : S_.BroadcastsInDim S800000x1 (![] : Fin 0 → Fin S800000x1.rank)
  reducesTo_S800000x1_S_d0_1 : S800000x1.ReducesTo [0, 1] S_
  bcast_S_S129x128 : S_.BroadcastsInDim S129x128 (![] : Fin 0 → Fin S129x128.rank)
  reducesTo_S129x128_S_d0_1 : S129x128.ReducesTo [0, 1] S_
  bcast_S_S128 : S_.BroadcastsInDim S128 (![] : Fin 0 → Fin S128.rank)
  reducesTo_S128_S_d0 : S128.ReducesTo [0] S_
  bcast_S_S257x64 : S_.BroadcastsInDim S257x64 (![] : Fin 0 → Fin S257x64.rank)
  reducesTo_S257x64_S_d0_1 : S257x64.ReducesTo [0, 1] S_
  bcast_S_S64 : S_.BroadcastsInDim S64 (![] : Fin 0 → Fin S64.rank)
  reducesTo_S64_S_d0 : S64.ReducesTo [0] S_
  bcast_S_S2x800000 : S_.BroadcastsInDim S2x800000 (![] : Fin 0 → Fin S2x800000.rank)
  reducesTo_S2x800000_S_d0_1 : S2x800000.ReducesTo [0, 1] S_

variable [Facts]

def fn_part2 {F : FTy → Type} [FloatOps F] (main_v28 : IVec S_ 1) (main_v33 : IVec S2x800000 1) : IVec S_ 1 :=
  let main_c_12 : IVec S_ 1 := constantI S_ 1 1#1
  let main_v34 : IVec S_ 1 := (fun x v => Host.reduce IntOp.andi x v reducesTo_S2x800000_S_d0_1 h_S_) main_v33 main_c_12
  let main_v35 : IVec S_ 1 := andi main_v28 main_v34
  main_v35

def fn_part1 {F : FTy → Type} [FloatOps F] (main_arg1 : IVec S2x800000 32) (main_arg5 : FVec F S257x64 .f32) (main_arg6 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S257x64 .f32 := Host.absf main_arg5
  let main_cst_6 : FVec F S_ .f32 := constant S_ .f32 0x7F800000#32
  let main_v20 : FVec F S257x64 .f32 := broadcastInDim S257x64 ![] bcast_S_S257x64 main_cst_6
  let main_v21 : IVec S257x64 1 := cmpf .olt main_v19 main_v20
  let main_c_7 : IVec S_ 1 := constantI S_ 1 1#1
  let main_v22 : IVec S_ 1 := (fun x v => Host.reduce IntOp.andi x v reducesTo_S257x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_c_10 : IVec S_ 32 := constantI S_ 32 0#32
  let main_v29 : IVec S2x800000 32 := broadcastInDim S2x800000 ![] bcast_S_S2x800000 main_c_10
  let main_v30 : IVec S2x800000 1 := cmpi .sge main_arg1 main_v29
  let main_c_11 : IVec S_ 32 := constantI S_ 32 50000#32
  let main_v31 : IVec S2x800000 32 := broadcastInDim S2x800000 ![] bcast_S_S2x800000 main_c_11
  let main_v32 : IVec S2x800000 1 := cmpi .slt main_arg1 main_v31
  let main_v33 : IVec S2x800000 1 := andi main_v30 main_v32
  fn_part2 (F := F) main_v28 main_v33

def fn {F : FTy → Type} [FloatOps F] (main_arg0 : FVec F S50000x64 .f32) (main_arg1 : IVec S2x800000 32) (main_arg2 : FVec F S800000x1 .f32) (main_arg3 : FVec F S129x128 .f32) (main_arg4 : FVec F S128 .f32) (main_arg5 : FVec F S257x64 .f32) (main_arg6 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x1 .f32 := Host.absf main_arg2
  let main_cst_0 : FVec F S_ .f32 := constant S_ .f32 0x7F800000#32
  let main_v5 : FVec F S800000x1 .f32 := broadcastInDim S800000x1 ![] bcast_S_S800000x1 main_cst_0
  let main_v6 : IVec S800000x1 1 := cmpf .olt main_v4 main_v5
  let main_c_1 : IVec S_ 1 := constantI S_ 1 1#1
  let main_v7 : IVec S_ 1 := (fun x v => Host.reduce IntOp.andi x v reducesTo_S800000x1_S_d0_1 h_S_) main_v6 main_c_1
  let main_v8 : IVec S_ 1 := andi main_v3 main_v7
  let main_v9 : FVec F S129x128 .f32 := Host.absf main_arg3
  let main_cst_2 : FVec F S_ .f32 := constant S_ .f32 0x7F800000#32
  let main_v10 : FVec F S129x128 .f32 := broadcastInDim S129x128 ![] bcast_S_S129x128 main_cst_2
  let main_v11 : IVec S129x128 1 := cmpf .olt main_v9 main_v10
  let main_c_3 : IVec S_ 1 := constantI S_ 1 1#1
  let main_v12 : IVec S_ 1 := (fun x v => Host.reduce IntOp.andi x v reducesTo_S129x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_v13 main_v16
-- ==== Kernel.lean ====
abbrev S50000x64 : Shape := ⟨2, ![50000, 64]⟩
abbrev S2x800000 : Shape := ⟨2, ![2, 800000]⟩
abbrev S800000x1 : Shape := ⟨2, ![800000, 1]⟩
abbrev S129x128 : Shape := ⟨2, ![129, 128]⟩
abbrev S128 : Shape := ⟨1, ![128]⟩
abbrev S257x64 : Shape := ⟨2, ![257, 64]⟩
abbrev S64 : Shape := ⟨1, ![64]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S50000x1 : Shape := ⟨2, ![50000, 1]⟩
abbrev S850000x1 : Shape := ⟨2, ![850000, 1]⟩
abbrev S1 : Shape := ⟨1, ![1]⟩
abbrev S1x1 : Shape := ⟨2, ![1, 1]⟩
abbrev S850000x64 : Shape := ⟨2, ![850000, 64]⟩
abbrev S850000x65 : Shape := ⟨2, ![850000, 65]⟩
abbrev S64x128 : Shape := ⟨2, ![64, 128]⟩
abbrev S1x128 : Shape := ⟨2, ![1, 128]⟩
abbrev S65x128 : Shape := ⟨2, ![65, 128]⟩
abbrev S851968x64 : Shape := ⟨2, ![851968, 64]⟩
abbrev S851968x65 : Shape := ⟨2, ![851968, 65]⟩
abbrev S851968x128 : Shape := ⟨2, ![851968, 128]⟩
abbrev S4096x64 : Shape := ⟨2, ![4096, 64]⟩
abbrev S4096x65 : Shape := ⟨2, ![4096, 65]⟩
abbrev S4096x128 : Shape := ⟨2, ![4096, 128]⟩
abbrev S850000x128 : Shape := ⟨2, ![850000, 128]⟩
abbrev S50000x128 : Shape := ⟨2, ![50000, 128]⟩
abbrev S850000x129 : Shape := ⟨2, ![850000, 129]⟩
abbrev S128x64 : Shape := ⟨2, ![128, 64]⟩
abbrev S1x64 : Shape := ⟨2, ![1, 64]⟩
abbrev S129x64 : Shape := ⟨2, ![129, 64]⟩
abbrev S851968x129 : Shape := ⟨2, ![851968, 129]⟩
abbrev S4096x129 : Shape := ⟨2, ![4096, 129]⟩

abbrev nBuf : Space → Nat
  | .hbm => 177
  | .vmem => 18
  | .smem => 0
  | _ => 0

abbrev hbmTy0_0 (i : Nat) : BufTy := match i % 128 with
  | 0 => ⟨S50000x64, .f32⟩
  | 1 => ⟨S2x800000, .i32⟩
  | 2 => ⟨S800000x1, .f32⟩
  | 3 => ⟨S129x128, .f32⟩
  | 4 => ⟨S128, .f32⟩
  | 5 => ⟨S257x64, .f32⟩
  | 6 => ⟨S64, .f32⟩
  | 7 => ⟨S1x800000, .i32⟩
  | 8 => ⟨S800000, .i32⟩
  | 9 => ⟨S1x800000, .i32⟩
  | 10 => ⟨S800000, .i32⟩
  | 11 => ⟨S50000, .i32⟩
  | 12 => ⟨S850000, .i32⟩
  | 13 => ⟨S850000, .i32⟩
  | 14 => ⟨S_, .f32⟩
  | 15 => ⟨S50000x1, .f32⟩
  | 16 => ⟨S850000x1, .f32⟩
  | 17 => ⟨S_, .i32⟩
  | 18 => ⟨S850000, .i32⟩
  | 19 => ⟨S850000, .i1⟩
  | 20 => ⟨S_, .i32⟩
  | 21 => ⟨S850000, .i32⟩
  | 22 => ⟨S850000, .i32⟩
  | 23 => ⟨S850000, .i32⟩
  | 24 => ⟨S850000x1, .i32⟩
  | 25 => ⟨S1, .i32⟩
  | 26 => ⟨S_, .i32⟩
  | 27 => ⟨S850000x1, .i32⟩
  | 28 => ⟨S850000x1, .i1⟩
  | 29 => ⟨S1x1, .i32⟩
  | 30 => ⟨S850000x1, .i32⟩
  | 31 => ⟨S850000x1, .i1⟩
  | 32 => ⟨S850000x1, .i1⟩
  | 33 => ⟨S_, .i1⟩
  | 34 => ⟨S850000, .i1⟩
  | 35 => ⟨S850000x64, .f32⟩
  | 36 => ⟨S850000x64, .i1⟩
  | 37 => ⟨S_, .f32⟩
  | 38 => ⟨S850000x64, .f32⟩
  | 39 => ⟨S850000x64, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S1, .i32⟩
  | 49 => ⟨S_, .i32⟩
  | 50 => ⟨S850000x1, .i32⟩
  | 51 => ⟨S850000x1, .i1⟩
  | 52 => ⟨S1x1, .i32⟩
  | 53 => ⟨S850000x1, .i32⟩
  | 54 => ⟨S850000x1, .i1⟩
  | 55 => ⟨S850000x1, .i1⟩
  | 56 => ⟨S_, .i1⟩
  | 57 => ⟨S850000, .i1⟩
  | 58 => ⟨S850000x64, .f32⟩
  | 59 => ⟨S850000x64, .i1⟩
  | 60 => ⟨S_, .f32⟩
  | 61 => ⟨S850000x64, .f32⟩
  | 62 => ⟨S850000x64, .f32⟩
  | 63 => ⟨S850000x65, .f32⟩
  | 64 => ⟨S64x128, .f32⟩
  | 65 => ⟨S64x128, .f32⟩
  | 66 => ⟨S1x128, .f32⟩
  | 67 => ⟨S65x128, .f32⟩
  | 68 => ⟨S_, .i32⟩
  | 69 => ⟨S_, .f32⟩
  | 70 => ⟨S851968x64, .f32⟩
  | 71 => ⟨S_, .i32⟩
  | 72 => ⟨S_, .f32⟩
  | 73 => ⟨S851968x65, .f32⟩
  | 74 => ⟨S851968x64, .bf16⟩
  | 75 => ⟨S851968x65, .bf16⟩
  | 76 => ⟨S64x128, .bf16⟩
  | 77 => ⟨S65x128, .bf16⟩
  | 78 => ⟨S1x128, .f32⟩
  | 79 => ⟨S851968x128, .f32⟩
  | 80 => ⟨S850000x128, .f32⟩
  | 81 => ⟨S_, .f32⟩
  | 82 => ⟨S50000x128, .f32⟩
  | 83 => ⟨S850000x1, .i32⟩
  | 84 => ⟨S50000x128, .f32⟩
  | 85 => ⟨S_, .f32⟩
  | 86 => ⟨S50000x128, .f32⟩
  | 87 => ⟨S50000x128, .f32⟩
  | 88 => ⟨S_, .f32⟩
  | 89 => ⟨S50000x128, .f32⟩
  | 90 => ⟨S50000x128, .f32⟩
  | 91 => ⟨S_, .i32⟩
  | 92 => ⟨S850000, .i32⟩
  | 93 => ⟨S850000, .i1⟩
  | 94 => ⟨S_, .i32⟩
  | 95 => ⟨S850000, .i32⟩
  | 96 => ⟨S850000, .i32⟩
  | 97 => ⟨S850000, .i32⟩
  | 98 => ⟨S850000x1, .i32⟩
  | 99 => ⟨S1, .i32⟩
  | 100 => ⟨S_, .i32⟩
  | 101 => ⟨S850000x1, .i32⟩
  | 102 => ⟨S850000x1, .i1⟩
  | 103 => ⟨S1x1, .i32⟩
  | 104 => ⟨S850000x1, .i32⟩
  | 105 => ⟨S850000x1, .i1⟩
  | 106 => ⟨S850000x1, .i1⟩
  | 107 => ⟨S_, .i1⟩
  | 108 => ⟨S850000, .i1⟩
  | 109 => ⟨S850000x128, .f32⟩
  | 110 => ⟨S850000x128, .i1⟩
  | 111 => ⟨S_, .f32⟩
  | 112 => ⟨S850000x128, .f32⟩
  | 113 => ⟨S850000x128, .f32⟩
  | 114 => ⟨S_, .i32⟩
  | 115 => ⟨S850000, .i32⟩
  | 116 => ⟨S850000, .i1⟩
  | 117 => ⟨S_, .i32⟩
  | 118 => ⟨S850000, .i32⟩
  | 119 => ⟨S850000, .i32⟩
  | 120 => ⟨S850000, .i32⟩
  | 121 => ⟨S850000x1, .i32⟩
  | 122 => ⟨S1, .i32⟩
  | 123 => ⟨S_, .i32⟩
  | 124 => ⟨S850000x1, .i32⟩
  | 125 => ⟨S850000x1, .i1⟩
  | 126 => ⟨S1x1, .i32⟩
  | 127 => ⟨S850000x1, .i32⟩
  | _ => ⟨S50000x64, .f32⟩

abbrev hbmTy0_1 (i : Nat) : BufTy := match i % 128 with
  | 0 => ⟨S850000x1, .i1⟩
  | 1 => ⟨S850000x1, .i1⟩
  | 2 => ⟨S_, .i1⟩
  | 3 => ⟨S850000, .i1⟩
  | 4 => ⟨S850000x128, .f32⟩
  | 5 => ⟨S850000x128, .i1⟩
  | 6 => ⟨S_, .f32⟩
  | 7 => ⟨S850000x128, .f32⟩
  | 8 => ⟨S850000x128, .f32⟩
  | 9 => ⟨S850000x129, .f32⟩
  | 10 => ⟨S128x64, .f32⟩
  | 11 => ⟨S128x64, .f32⟩
  | 12 => ⟨S1x64, .f32⟩
  | 13 => ⟨S129x64, .f32⟩
  | 14 => ⟨S_, .i32⟩
  | 15 => ⟨S_, .f32⟩
  | 16 => ⟨S851968x128, .f32⟩
  | 17 => ⟨S_, .i32⟩
  | 18 => ⟨S_, .f32⟩
  | 19 => ⟨S851968x129, .f32⟩
  | 20 => ⟨S851968x128, .bf16⟩
  | 21 => ⟨S851968x129, .bf16⟩
  | 22 => ⟨S128x64, .bf16⟩
  | 23 => ⟨S129x64, .bf16⟩
  | 24 => ⟨S1x64, .f32⟩
  | 25 => ⟨S851968x64, .f32⟩
  | 26 => ⟨S850000x64, .f32⟩
  | 27 => ⟨S_, .f32⟩
  | 28 => ⟨S50000x64, .f32⟩
  | 29 => ⟨S850000x1, .i32⟩
  | 30 => ⟨S50000x64, .f32⟩
  | 31 => ⟨S_, .f32⟩
  | 32 => ⟨S50000x64, .f32⟩
  | 33 => ⟨S50000x64, .f32⟩
  | 34 => ⟨S_, .f32⟩
  | 35 => ⟨S50000, .f32⟩
  | 36 => ⟨S_, .f32⟩
  | 37 => ⟨S50000, .f32⟩
  | 38 => ⟨S50000, .f32⟩
  | 39 => ⟨S50000x1, .f32⟩
  | 40 => ⟨S50000x64, .f32⟩
  | 41 => ⟨S50000x64, .f32⟩
  | 42 => ⟨S50000x64, .f32⟩
  | 43 => ⟨S_, .f32⟩
  | 44 => ⟨S50000, .f32⟩
  | 45 => ⟨S50000x1, .f32⟩
  | 46 => ⟨S50000x1, .f32⟩
  | 47 => ⟨S50000x64, .f32⟩
  | 48 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S4096x64, .bf16⟩
  | .local _ .vmem, ⟨1, _⟩ => ⟨S4096x64, .bf16⟩
  | .local _ .vmem, ⟨2, _⟩ => ⟨S4096x65, .bf16⟩
  | .local _ .vmem, ⟨3, _⟩ => ⟨S4096x65, .bf16⟩
  | .local _ .vmem, ⟨4, _⟩ => ⟨S64x128, .bf16⟩
  | .local _ .vmem, ⟨5, _⟩ => ⟨S65x128, .bf16⟩
  | .local _ .vmem, ⟨6, _⟩ => ⟨S1x128, .f32⟩
  | .local _ .vmem, ⟨7, _⟩ => ⟨S4096x128, .f32⟩
  | .local _ .vmem, ⟨8, _⟩ => ⟨S4096x128, .f32⟩
  | .local _ .vmem, ⟨9, _⟩ => ⟨S4096x128, .bf16⟩
  | .local _ .vmem, ⟨10, _⟩ => ⟨S4096x128, .bf16⟩
  | .local _ .vmem, ⟨11, _⟩ => ⟨S4096x129, .bf16⟩
  | .local _ .vmem, ⟨12, _⟩ => ⟨S4096x129, .bf16⟩
  | .local _ .vmem, ⟨13, _⟩ => ⟨S128x64, .bf16⟩
  | .local _ .vmem, ⟨14, _⟩ => ⟨S129x64, .bf16⟩
  | .local _ .vmem, ⟨15, _⟩ => ⟨S1x64, .f32⟩
  | .local _ .vmem, ⟨16, _⟩ => ⟨S4096x64, .f32⟩
  | .local _ .vmem, ⟨17, _⟩ => ⟨S4096x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v9 : Ref sig .tc := ⟨.hbm, 39, rfl⟩
abbrev main_call1_c : Ref sig .tc := ⟨.hbm, 40, rfl⟩
abbrev main_call1_v0 : Ref sig .tc := ⟨.hbm, 41, rfl⟩
abbrev main_call1_v1 : Ref sig .tc := ⟨.hbm, 42, rfl⟩
abbrev main_call1_c_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_c_1 : Ref sig .tc := ⟨.hbm, 48, rfl⟩
abbrev main_call1_c_2 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_3 : Ref sig .tc := ⟨.hbm, 56, rfl⟩
abbrev main_call1_v12 : Ref sig .tc := ⟨.hbm, 57, rfl⟩
abbrev main_call1_v13 : Ref sig .tc := ⟨.hbm, 58, rfl⟩
abbrev main_call1_v14 : Ref sig .tc := ⟨.hbm, 59, rfl⟩
abbrev main_call1_cst : Ref sig .tc := ⟨.hbm, 60, rfl⟩
abbrev main_call1_v15 : Ref sig .tc := ⟨.hbm, 61, rfl⟩
abbrev main_v10 : Ref sig .tc := ⟨.hbm, 62, rfl⟩
abbrev main_v11 : Ref sig .tc := ⟨.hbm, 63, rfl⟩
abbrev main_v12 : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩
abbrev main_c : Ref sig .tc := ⟨.hbm, 68, rfl⟩
abbrev main_call2_v0 : Ref sig .tc := ⟨.hbm, 69, rfl⟩
abbrev main_v16 : Ref sig .tc := ⟨.hbm, 70, rfl⟩
abbrev main_c_0 : Ref sig .tc := ⟨.hbm, 71, rfl⟩
abbrev main_call3_v0 : Ref sig .tc := ⟨.hbm, 72, rfl⟩
abbrev main_v17 : Ref sig .tc := ⟨.hbm, 73, rfl⟩
abbrev main_v18 : Ref sig .tc := ⟨.hbm, 74, rfl⟩
abbrev main_v19 : Ref sig .tc := ⟨.hbm, 75, rfl⟩
abbrev main_v20 : Ref sig .tc := ⟨.hbm, 76, rfl⟩
abbrev main_v21 : Ref sig .tc := ⟨.hbm, 77, rfl⟩
abbrev main_v22 : Ref sig .tc := ⟨.hbm, 78, rfl⟩
abbrev main_v23 : Ref sig .tc := ⟨.hbm, 79, rfl⟩
abbrev main_v24 : Ref sig .tc := ⟨.hbm, 80, rfl⟩
abbrev main_cst_1 : Ref sig .tc := ⟨.hbm, 81, rfl⟩
abbrev main_v25 : Ref sig .tc := ⟨.hbm, 82, rfl⟩
abbrev main_v26 : Ref sig .tc := ⟨.hbm, 83, rfl⟩
abbrev main_v27 : Ref sig .tc := ⟨.hbm, 84, rfl⟩
abbrev main_call4_cst : Ref sig .tc := ⟨.hbm, 85, rfl⟩
abbrev main_call4_v0 : Ref sig .tc := ⟨.hbm, 86, rfl⟩
abbrev main_v28 : Ref sig .tc := ⟨.hbm, 87, rfl⟩
abbrev main_call5_cst : Ref sig .tc := ⟨.hbm, 88, rfl⟩
abbrev main_call5_v0 : Ref sig .tc := ⟨.hbm, 89, rfl⟩
abbrev main_v29 : Ref sig .tc := ⟨.hbm, 90, rfl⟩
abbrev main_call6_c : Ref sig .tc := ⟨.hbm, 91, rfl⟩
abbrev main_call6_v0 : Ref sig .tc := ⟨.hbm, 92, rfl⟩
abbrev main_call6_v1 : Ref sig .tc := ⟨.hbm, 93, rfl⟩
abbrev main_call6_c_0 : Ref sig .tc := ⟨.hbm, 94, rfl⟩
abbrev main_call6_v2 : Ref sig .tc := ⟨.hbm, 95, rfl⟩
abbrev main_call6_v3 : Ref sig .tc := ⟨.hbm, 96, rfl⟩
abbrev main_call6_v4 : Ref sig .tc := ⟨.hbm, 97, rfl⟩
abbrev main_call6_v5 : Ref sig .tc := ⟨.hbm, 98, rfl⟩
abbrev main_call6_c_1 : Ref sig .tc := ⟨.hbm, 99, rfl⟩
abbrev main_call6_c_2 : Ref sig .tc := ⟨.hbm, 100, rfl⟩
abbrev main_call6_v6 : Ref sig .tc := ⟨.hbm, 101, rfl⟩
abbrev main_call6_v7 : Ref sig .tc := ⟨.hbm, 102, rfl⟩
abbrev main_call6_v8 : Ref sig .tc := ⟨.hbm, 103, rfl⟩
abbrev main_call6_v9 : Ref sig .tc := ⟨.hbm, 104, rfl⟩
abbrev main_call6_v10 : Ref sig .tc := ⟨.hbm, 105, rfl⟩
abbrev main_call6_v11 : Ref sig .tc := ⟨.hbm, 106, rfl⟩
abbrev main_call6_c_3 : Ref sig .tc := ⟨.hbm, 107, rfl⟩
abbrev main_call6_v12 : Ref sig .tc := ⟨.hbm, 108, rfl⟩
abbrev main_call6_v13 : Ref sig .tc := ⟨.hbm, 109, rfl⟩
abbrev main_call6_v14 : Ref sig .tc := ⟨.hbm, 110, rfl⟩
abbrev main_call6_cst : Ref sig .tc := ⟨.hbm, 111, rfl⟩
abbrev main_call6_v15 : Ref sig .tc := ⟨.hbm, 112, rfl⟩
abbrev main_v30 : Ref sig .tc := ⟨.hbm, 113, rfl⟩
abbrev main_call7_c : Ref sig .tc := ⟨.hbm, 114, rfl⟩
abbrev main_call7_v0 : Ref sig .tc := ⟨.hbm, 115, rfl⟩
abbrev main_call7_v1 : Ref sig .tc := ⟨.hbm, 116, rfl⟩
abbrev main_call7_c_0 : Ref sig .tc := ⟨.hbm, 117, rfl⟩
abbrev main_call7_v2 : Ref sig .tc := ⟨.hbm, 118, rfl⟩
abbrev main_call7_v3 : Ref sig .tc := ⟨.hbm, 119, rfl⟩
abbrev main_call7_v4 : Ref sig .tc := ⟨.hbm, 120, rfl⟩
abbrev main_call7_v5 : Ref sig .tc := ⟨.hbm, 121, rfl⟩
abbrev main_call7_c_1 : Ref sig .tc := ⟨.hbm, 122, rfl⟩
abbrev main_call7_c_2 : Ref sig .tc := ⟨.hbm, 123, rfl⟩
abbrev main_call7_v6 : Ref sig .tc := ⟨.hbm, 124, rfl⟩
abbrev main_call7_v7 : Ref sig .tc := ⟨.hbm, 125, rfl⟩
abbrev main_call7_v8 : Ref sig .tc := ⟨.hbm, 126, rfl⟩
abbrev main_call7_v9 : Ref sig .tc := ⟨.hbm, 127, rfl⟩
abbrev main_call7_v10 : Ref sig .tc := ⟨.hbm, 128, rfl⟩
abbrev main_call7_v11 : Ref sig .tc := ⟨.hbm, 129, rfl⟩
abbrev main_call7_c_3 : Ref sig .tc := ⟨.hbm, 130, rfl⟩
abbrev main_call7_v12 : Ref sig .tc := ⟨.hbm, 131, rfl⟩
abbrev main_call7_v13 : Ref sig .tc := ⟨.hbm, 132, rfl⟩
abbrev main_call7_v14 : Ref sig .tc := ⟨.hbm, 133, rfl⟩
abbrev main_call7_cst : Ref sig .tc := ⟨.hbm, 134, rfl⟩
abbrev main_call7_v15 : Ref sig .tc := ⟨.hbm, 135, rfl⟩
abbrev main_v31 : Ref sig .tc := ⟨.hbm, 136, rfl⟩
abbrev main_v32 : Ref sig .tc := ⟨.hbm, 137, rfl⟩
abbrev main_v33 : Ref sig .tc := ⟨.hbm, 138, rfl⟩
abbrev main_v34 : Ref sig .tc := ⟨.hbm, 139, rfl⟩
abbrev main_v35 : Ref sig .tc := ⟨.hbm, 140, rfl⟩
abbrev main_v36 : Ref sig .tc := ⟨.hbm, 141, rfl⟩
abbrev main_c_2 : Ref sig .tc := ⟨.hbm, 142, rfl⟩
abbrev main_call8_v0 : Ref sig .tc := ⟨.hbm, 143, rfl⟩
abbrev main_v37 : Ref sig .tc := ⟨.hbm, 144, rfl⟩
abbrev main_c_3 : Ref sig .tc := ⟨.hbm, 145, rfl⟩
abbrev main_call9_v0 : Ref sig .tc := ⟨.hbm, 146, rfl⟩
abbrev main_v38 : Ref sig .tc := ⟨.hbm, 147, rfl⟩
abbrev main_v39 : Ref sig .tc := ⟨.hbm, 148, rfl⟩
abbrev main_v40 : Ref sig .tc := ⟨.hbm, 149, rfl⟩
abbrev main_v41 : Ref sig .tc := ⟨.hbm, 150, rfl⟩
abbrev main_v42 : Ref sig .tc := ⟨.hbm, 151, rfl⟩
abbrev main_v43 : Ref sig .tc := ⟨.hbm, 152, rfl⟩
abbrev main_v44 : Ref sig .tc := ⟨.hbm, 153, rfl⟩
abbrev main_v45 : Ref sig .tc := ⟨.hbm, 154, rfl⟩
abbrev main_cst_4 : Ref sig .tc := ⟨.hbm, 155, rfl⟩
abbrev main_v46 : Ref sig .tc := ⟨.hbm, 156, rfl⟩
abbrev main_v47 : Ref sig .tc := ⟨.hbm, 157, rfl⟩
abbrev main_v48 : Ref sig .tc := ⟨.hbm, 158, rfl⟩
abbrev main_call10_cst : Ref sig .tc := ⟨.hbm, 159, rfl⟩
abbrev main_call10_v0 : Ref sig .tc := ⟨.hbm, 160, rfl⟩
abbrev main_v49 : Ref sig .tc := ⟨.hbm, 161, rfl⟩
abbrev main_call11_cst : Ref sig .tc := ⟨.hbm, 162, rfl⟩
abbrev main_call11_v0 : Ref sig .tc := ⟨.hbm, 163, rfl⟩
abbrev main_call11_cst_0 : Ref sig .tc := ⟨.hbm, 164, rfl⟩
abbrev main_call11_v1 : Ref sig .tc := ⟨.hbm, 165, rfl⟩
abbrev main_call11_v2 : Ref sig .tc := ⟨.hbm, 166, rfl⟩
abbrev main_call11_v3 : Ref sig .tc := ⟨.hbm, 167, rfl⟩
abbrev main_call11_v4 : Ref sig .tc := ⟨.hbm, 168, rfl⟩
abbrev main_call11_v5 : Ref sig .tc := ⟨.hbm, 169, rfl⟩
abbrev main_call11_v6 : Ref sig .tc := ⟨.hbm, 170, rfl⟩
abbrev main_call11_cst_1 : Ref sig .tc := ⟨.hbm, 171, rfl⟩
abbrev main_call11_v7 : Ref sig .tc := ⟨.hbm, 172, rfl⟩
abbrev main_call11_v8 : Ref sig .tc := ⟨.hbm, 173, rfl⟩
abbrev main_call11_v9 : Ref sig .tc := ⟨.hbm, 174, rfl⟩
abbrev main_call11_v10 : Ref sig .tc := ⟨.hbm, 175, rfl⟩
abbrev main_v50 : Ref sig .tc := ⟨.hbm, 176, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![208], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x65 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S65x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![208], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x129 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S129x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4096x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000x1 : S_.BroadcastsInDim S50000x1 (![] : Fin 0 → Fin S50000x1.rank)
  concatenates_S800000x1_S50000x1_S850000x1_d0 : Shape.Concatenates [S800000x1, S50000x1] S850000x1 0
  bcast_S_S850000 : S_.BroadcastsInDim S850000 (![] : Fin 0 → Fin S850000.rank)
  bcast_S850000_S850000x1_0 : S850000.BroadcastsInDim S850000x1 (![0] : Fin 1 → Fin S850000x1.rank)
  bcast_S_S850000x1 : S_.BroadcastsInDim S850000x1 (![] : Fin 0 → Fin S850000x1.rank)
  bcast_S1_S1x1_1 : S1.BroadcastsInDim S1x1 (![1] : Fin 1 → Fin S1x1.rank)
  bcast_S1x1_S850000x1_0_1 : S1x1.BroadcastsInDim S850000x1 (![0, 1] : Fin 2 → Fin S850000x1.rank)
  reducesTo_S850000x1_S850000_d1 : S850000x1.ReducesTo [1] S850000
  h_S_ : 0 < S_.numel
  bcast_S850000_S850000x64_0 : S850000.BroadcastsInDim S850000x64 (![0] : Fin 1 → Fin S850000x64.rank)
  bcast_S_S850000x64 : S_.BroadcastsInDim S850000x64 (![] : Fin 0 → Fin S850000x64.rank)
  concatenates_S850000x64_S850000x1_S850000x65_d1 : Shape.Concatenates [S850000x64, S850000x1] S850000x65 1
  slices_S129x128_S64x128_0_0 : S129x128.Slices ![0, 0] S64x128
  slices_S129x128_S64x128_64_0 : S129x128.Slices ![64, 0] S64x128
  slices_S129x128_S1x128_128_0 : S129x128.Slices ![128, 0] S1x128
  concatenates_S64x128_S1x128_S65x128_d0 : Shape.Concatenates [S64x128, S1x128] S65x128 0
  pads_S850000x64_S851968x64_019680_000 : S850000x64.Pads (![0, 0] : Fin 2 → Nat) ![1968, 0] ![0, 0] S851968x64
  pads_S850000x65_S851968x65_019680_000 : S850000x65.Pads (![0, 0] : Fin 2 → Nat) ![1968, 0] ![0, 0] S851968x65
  bitsLt_bf16_f32 : FTy.bits .bf16 < FTy.bits .f32
  shapeCasts_S128_S1x128 : S128.ShapeCasts S1x128
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S4096x65_S4096x65_0_0 : ∀ a, (![0, 0] : Fin 2 → Nat) a + S4096x65.size a ≤ S4096x65.size a
  h_S4096x65 : 0 < S4096x65.numel
  shapeCasts_S4096x65_S4096x65 : S4096x65.ShapeCasts S4096x65
  inb_S65x128_S65x128_0_0 : ∀ a, (![0, 0] : Fin 2 → Nat) a + S65x128.size a ≤ S65x128.size a
  h_S65x128 : 0 < S65x128.numel
  shapeCasts_S65x128_S65x128 : S65x128.ShapeCasts S65x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S4096x128_S4096x128_0_0 : ∀ a, (![0, 0] : Fin 2 → Nat) a + S4096x128.size a ≤ S4096x128.size a
  h_S4096x128 : 0 < S4096x128.numel
  slices_S851968x128_S850000x128_0_0 : S851968x128.Slices ![0, 0] S850000x128
  bcast_S_S50000x128 : S_.BroadcastsInDim S50000x128 (![] : Fin 0 → Fin S50000x128.rank)
  bcast_S850000_S850000x128_0 : S850000.BroadcastsInDim S850000x128 (![0] : Fin 1 → Fin S850000x128.rank)
  bcast_S_S850000x128 : S_.BroadcastsInDim S850000x128 (![] : Fin 0 → Fin S850000x128.rank)
  concatenates_S850000x128_S850000x1_S850000x129_d1 : Shape.Concatenates [S850000x128, S850000x1] S850000x129 1
  slices_S257x64_S128x64_0_0 : S257x64.Slices ![0, 0] S128x64
  slices_S257x64_S128x64_128_0 : S257x64.Slices ![128, 0] S128x64
  slices_S257x64_S1x64_256_0 : S257x64.Slices ![256, 0] S1x64
  concatenates_S128x64_S1x64_S129x64_d0 : Shape.Concatenates [S128x64, S1x64] S129x64 0
  pads_S850000x128_S851968x128_019680_000 : S850000x128.Pads (![0, 0] : Fin 2 → Nat) ![1968, 0] ![0, 0] S851968x128
  pads_S850000x129_S851968x129_019680_000 : S850000x129.Pads (![0, 0] : Fin 2 → Nat) ![1968, 0] ![0, 0] S851968x129
  shapeCasts_S64_S1x64 : S64.ShapeCasts S1x64
  shapeCasts_S4096x128_S4096x128 : S4096x128.ShapeCasts S4096x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S4096x129_S4096x129_0_0 : ∀ a, (![0, 0] : Fin 2 → Nat) a + S4096x129.size a ≤ S4096x129.size a
  h_S4096x129 : 0 < S4096x129.numel
  shapeCasts_S4096x129_S4096x129 : S4096x129.ShapeCasts S4096x129
  inb_S129x64_S129x64_0_0 : ∀ a, (![0, 0] : Fin 2 → Nat) a + S129x64.size a ≤ S129x64.size a
  h_S129x64 : 0 < S129x64.numel
  shapeCasts_S129x64_S129x64 : S129x64.ShapeCasts S129x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  slices_S851968x64_S850000x64_0_0 : S851968x64.Slices ![0, 0] S850000x64
  bcast_S_S50000x64 : S_.BroadcastsInDim S50000x64 (![] : Fin 0 → Fin S50000x64.rank)
  reducesTo_S50000x64_S50000_d1 : S50000x64.ReducesTo [1] S50000
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  gather_S50000x64_S850000x1_S850000x64_1_0_n_n_0_1_164_wf : GatherDims.WF S50000x64 S850000x1 S850000x64 [1] [0] [] [0] [] 1 ![1, 64]
  dot_S4096x64_S64x128_S4096x128_1_0_0_1_n_n_wf : DotDims.WF S4096x64 S64x128 S4096x128 [1] [0] [0] [1] [] []
  dot_S4096x65_S65x128_S4096x128_1_0_0_1_n_n_wf : DotDims.WF S4096x65 S65x128 S4096x128 [1] [0] [0] [1] [] []
  scatter_S50000x128_S850000x1_S850000x128_1_0_0_1_wf : ScatterDims.WF S50000x128 S850000x1 S850000x128 [1] [0] [0] 1
  gather_S50000x128_S850000x1_S850000x128_1_0_n_n_0_1_1128_wf : GatherDims.WF S50000x128 S850000x1 S850000x128 [1] [0] [] [0] [] 1 ![1, 128]
  dot_S4096x128_S128x64_S4096x64_1_0_0_1_n_n_wf : DotDims.WF S4096x128 S128x64 S4096x64 [1] [0] [0] [1] [] []
  dot_S4096x129_S129x64_S4096x64_1_0_0_1_n_n_wf : DotDims.WF S4096x129 S129x64 S4096x64 [1] [0] [0] [1] [] []
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S851968x64.size a
  hwx0_0 : ∀ i : grid0.Coords, EltTy.bits .bf16 = 32 ∨ (Rect.block (s := S851968x64) S4096x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x65.size a ≤ S851968x65.size a
  hwx0_1 : ∀ i : grid0.Coords, EltTy.bits .bf16 = 32 ∨ (Rect.block (s := S851968x65) S4096x65.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .bf16 = 32 ∨ (Rect.block (s := S64x128) S64x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S65x128.size a ≤ S65x128.size a
  hwx0_3 : ∀ i : grid0.Coords, EltTy.bits .bf16 = 32 ∨ (Rect.block (s := S65x128) S65x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x128.size a ≤ S851968x128.size a
  hwx0_5 : ∀ i : grid0.Coords, EltTy.bits .f32 = 32 ∨ (Rect.block (s := S851968x128) S4096x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S851968x128.size a
  hwx1_0 : ∀ i : grid1.Coords, EltTy.bits .bf16 = 32 ∨ (Rect.block (s := S851968x128) S4096x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x129.size a ≤ S851968x129.size a
  hwx1_1 : ∀ i : grid1.Coords, EltTy.bits .bf16 = 32 ∨ (Rect.block (s := S851968x129) S4096x129.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .bf16 = 32 ∨ (Rect.block (s := S128x64) S128x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S129x64.size a ≤ S129x64.size a
  hwx1_3 : ∀ i : grid1.Coords, EltTy.bits .bf16 = 32 ∨ (Rect.block (s := S129x64) S129x64.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4096x64.size a ≤ S851968x64.size a
  hwx1_5 : ∀ i : grid1.Coords, EltTy.bits .f32 = 32 ∨ (Rect.block (s := S851968x64) S4096x64.size (cc1_transform_5 i) (hinb1_5 i)).WholeWords (EltTy.packing .f32)

variable [Facts₀]

def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def dot_S4096x64_S64x128_S4096x128_1_0_0_1_n_n : DotDims S4096x64 S64x128 S4096x128 where
  lhsContracting := [1]
  rhsContracting := [0]
  lhsNonContracting := [0]
  rhsNonContracting := [1]
  lhsBatch := []
  rhsBatch := []
  wf := dot_S4096x64_S64x128_S4096x128_1_0_0_1_n_n_wf
def dot_S4096x65_S65x128_S4096x128_1_0_0_1_n_n : DotDims S4096x65 S65x128 S4096x128 where
  lhsContracting := [1]
  rhsContracting := [0]
  lhsNonContracting := [0]
  rhsNonContracting := [1]
  lhsBatch := []
  rhsBatch := []
  wf := dot_S4096x65_S65x128_S4096x128_1_0_0_1_n_n_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S4096x129_S129x64_S4096x64_1_0_0_1_n_n : DotDims S4096x129 S129x64 S4096x64 where
  lhsContracting := [1]
  rhsContracting := [0]
  lhsNonContracting := [0]
  rhsNonContracting := [1]
  lhsBatch := []
  rhsBatch := []
  wf := dot_S4096x129_S129x64_S4096x64_1_0_0_1_n_n_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_v18) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S4096x65.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S65x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S4096x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S4096x129.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S129x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S4096x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000x1 : Shape := ⟨2, ![800000, 1]⟩
abbrev S129x128 : Shape := ⟨2, ![129, 128]⟩
abbrev S128 : Shape := ⟨1, ![128]⟩
abbrev S257x64 : Shape := ⟨2, ![257, 64]⟩
abbrev S64 : Shape := ⟨1, ![64]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S50000x1 : Shape := ⟨2, ![50000, 1]⟩
abbrev S850000x1 : Shape := ⟨2, ![850000, 1]⟩
abbrev S850000x64 : Shape := ⟨2, ![850000, 64]⟩
abbrev S850000x129 : Shape := ⟨2, ![850000, 129]⟩
abbrev S850000x128 : Shape := ⟨2, ![850000, 128]⟩
abbrev S1x128 : Shape := ⟨2, ![1, 128]⟩
abbrev S50000x128 : Shape := ⟨2, ![50000, 128]⟩
abbrev S850000x257 : Shape := ⟨2, ![850000, 257]⟩
abbrev S1x64 : Shape := ⟨2, ![1, 64]⟩

abbrev nBuf : Space → Nat
  | .hbm => 101
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x1, .f32⟩
  | .hbm, ⟨3, _⟩ => ⟨S129x128, .f32⟩
  | .hbm, ⟨4, _⟩ => ⟨S128, .f32⟩
  | .hbm, ⟨5, _⟩ => ⟨S257x64, .f32⟩
  | .hbm, ⟨6, _⟩ => ⟨S64, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S50000, .i32⟩
  | .hbm, ⟨12, _⟩ => ⟨S850000, .i32⟩
  | .hbm, ⟨13, _⟩ => ⟨S850000, .i32⟩
  | .hbm, ⟨14, _⟩ => ⟨S_, .f32⟩
  | .hbm, ⟨15, _⟩ => ⟨S50000x1, .f32⟩
  | .hbm, ⟨16, _⟩ => ⟨S850000x1, .f32⟩
  | .hbm, ⟨17, _⟩ => ⟨S_, .i32⟩
  | .hbm, ⟨18, _⟩ => ⟨S850000, .i32⟩
  | .hbm, ⟨19, _⟩ => ⟨S850000, .i1⟩
  | .hbm, ⟨20, _⟩ => ⟨S_, .i32⟩
  | .hbm, ⟨21, _⟩ => ⟨S850000, .i32⟩
  | .hbm, ⟨22, _⟩ => ⟨S850000, .i32⟩
  | .hbm, ⟨23, _⟩ => ⟨S850000, .i32⟩
  | .hbm, ⟨24, _⟩ => ⟨S850000x1, .i32⟩
  | .hbm, ⟨25, _⟩ => ⟨S850000x64, .f32⟩
  | .hbm, ⟨26, _⟩ => ⟨S_, .i32⟩
  | .hbm, ⟨27, _⟩ => ⟨S850000, .i32⟩
  | .hbm, ⟨28, _⟩ => ⟨S850000, .i1⟩
  | .hbm, ⟨29, _⟩ => ⟨S_, .i32⟩
  | .hbm, ⟨30, _⟩ => ⟨S850000, .i32⟩
  | .hbm, ⟨31, _⟩ => ⟨S850000, .i32⟩
  | .hbm, ⟨32, _⟩ => ⟨S850000, .i32⟩
  | .hbm, ⟨33, _⟩ => ⟨S850000x1, .i32⟩
  | .hbm, ⟨34, _⟩ => ⟨S850000x64, .f32⟩
  | .hbm, ⟨35, _⟩ => ⟨S850000x129, .f32⟩
  | .hbm, ⟨36, _⟩ => ⟨S850000x128, .f32⟩
  | .hbm, ⟨37, _⟩ => ⟨S1x128, .f32⟩
  | .hbm, ⟨38, _⟩ => ⟨S850000x128, .f32⟩
  | .hbm, ⟨39, _⟩ => ⟨S850000x128, .f32⟩
  | .hbm, ⟨40, _⟩ => ⟨S_, .f32⟩
  | .hbm, ⟨41, _⟩ => ⟨S50000x128, .f32⟩
  | .hbm, ⟨42, _⟩ => ⟨S850000x1, .i32⟩
  | .hbm, ⟨43, _⟩ => ⟨S50000x128, .f32⟩
  | .hbm, ⟨44, _⟩ => ⟨S_, .f32⟩
  | .hbm, ⟨45, _⟩ => ⟨S50000x128, .f32⟩
  | .hbm, ⟨46, _⟩ => ⟨S50000x128, .f32⟩
  | .hbm, ⟨47, _⟩ => ⟨S_, .f32⟩
  | .hbm, ⟨48, _⟩ => ⟨S50000x128, .f32⟩
  | .hbm, ⟨49, _⟩ => ⟨S50000x128, .f32⟩
  | .hbm, ⟨50, _⟩ => ⟨S50000, .i32⟩
  | .hbm, ⟨51, _⟩ => ⟨S850000, .i32⟩
  | .hbm, ⟨52, _⟩ => ⟨S850000, .i32⟩
  | .hbm, ⟨53, _⟩ => ⟨S_, .f32⟩
  | .hbm, ⟨54, _⟩ => ⟨S50000x1, .f32⟩
  | .hbm, ⟨55, _⟩ => ⟨S850000x1, .f32⟩
  | .hbm, ⟨56, _⟩ => ⟨S_, .i32⟩
  | .hbm, ⟨57, _⟩ => ⟨S850000, .i32⟩
  | .hbm, ⟨58, _⟩ => ⟨S850000, .i1⟩
  | .hbm, ⟨59, _⟩ => ⟨S_, .i32⟩
  | .hbm, ⟨60, _⟩ => ⟨S850000, .i32⟩
  | .hbm, ⟨61, _⟩ => ⟨S850000, .i32⟩
  | .hbm, ⟨62, _⟩ => ⟨S850000, .i32⟩
  | .hbm, ⟨63, _⟩ => ⟨S850000x1, .i32⟩
  | .hbm, ⟨64, _⟩ => ⟨S850000x128, .f32⟩
  | .hbm, ⟨65, _⟩ => ⟨S_, .i32⟩
  | .hbm, ⟨66, _⟩ => ⟨S850000, .i32⟩
  | .hbm, ⟨67, _⟩ => ⟨S850000, .i1⟩
  | .hbm, ⟨68, _⟩ => ⟨S_, .i32⟩
  | .hbm, ⟨69, _⟩ => ⟨S850000, .i32⟩
  | .hbm, ⟨70, _⟩ => ⟨S850000, .i32⟩
  | .hbm, ⟨71, _⟩ => ⟨S850000, .i32⟩
  | .hbm, ⟨72, _⟩ => ⟨S850000x1, .i32⟩
  | .hbm, ⟨73, _⟩ => ⟨S850000x128, .f32⟩
  | .hbm, ⟨74, _⟩ => ⟨S850000x257, .f32⟩
  | .hbm, ⟨75, _⟩ => ⟨S850000x64, .f32⟩
  | .hbm, ⟨76, _⟩ => ⟨S1x64, .f32⟩
  | .hbm, ⟨77, _⟩ => ⟨S850000x64, .f32⟩
  | .hbm, ⟨78, _⟩ => ⟨S850000x64, .f32⟩
  | .hbm, ⟨79, _⟩ => ⟨S_, .f32⟩
  | .hbm, ⟨80, _⟩ => ⟨S50000x64, .f32⟩
  | .hbm, ⟨81, _⟩ => ⟨S850000x1, .i32⟩
  | .hbm, ⟨82, _⟩ => ⟨S50000x64, .f32⟩
  | .hbm, ⟨83, _⟩ => ⟨S_, .f32⟩
  | .hbm, ⟨84, _⟩ => ⟨S50000x64, .f32⟩
  | .hbm, ⟨85, _⟩ => ⟨S50000x64, .f32⟩
  | .hbm, ⟨86, _⟩ => ⟨S_, .f32⟩
  | .hbm, ⟨87, _⟩ => ⟨S50000, .f32⟩
  | .hbm, ⟨88, _⟩ => ⟨S_, .f32⟩
  | .hbm, ⟨89, _⟩ => ⟨S50000, .f32⟩
  | .hbm, ⟨90, _⟩ => ⟨S50000, .f32⟩
  | .hbm, ⟨91, _⟩ => ⟨S50000x1, .f32⟩
  | .hbm, ⟨92, _⟩ => ⟨S50000x64, .f32⟩
  | .hbm, ⟨93, _⟩ => ⟨S50000x64, .f32⟩
  | .hbm, ⟨94, _⟩ => ⟨S50000x64, .f32⟩
  | .hbm, ⟨95, _⟩ => ⟨S_, .f32⟩
  | .hbm, ⟨96, _⟩ => ⟨S50000, .f32⟩
  | .hbm, ⟨97, _⟩ => ⟨S50000x1, .f32⟩
  | .hbm, ⟨98, _⟩ => ⟨S50000x1, .f32⟩
  | .hbm, ⟨99, _⟩ => ⟨S50000x64, .f32⟩
  | .hbm, ⟨100, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_v9 : Ref sig .tc := ⟨.hbm, 18, rfl⟩
abbrev main_v10 : Ref sig .tc := ⟨.hbm, 19, rfl⟩
abbrev main_c_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_1 : Ref sig .tc := ⟨.hbm, 26, rfl⟩
abbrev main_v16 : Ref sig .tc := ⟨.hbm, 27, rfl⟩
abbrev main_v17 : Ref sig .tc := ⟨.hbm, 28, rfl⟩
abbrev main_c_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_call0_cst : Ref sig .tc := ⟨.hbm, 44, rfl⟩
abbrev main_call0_v0 : Ref sig .tc := ⟨.hbm, 45, rfl⟩
abbrev main_v31 : Ref sig .tc := ⟨.hbm, 46, rfl⟩
abbrev main_call1_cst : Ref sig .tc := ⟨.hbm, 47, rfl⟩
abbrev main_call1_v0 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_4 : Ref sig .tc := ⟨.hbm, 53, rfl⟩
abbrev main_v36 : Ref sig .tc := ⟨.hbm, 54, rfl⟩
abbrev main_v37 : Ref sig .tc := ⟨.hbm, 55, rfl⟩
abbrev main_c_5 : Ref sig .tc := ⟨.hbm, 56, rfl⟩
abbrev main_v38 : Ref sig .tc := ⟨.hbm, 57, rfl⟩
abbrev main_v39 : Ref sig .tc := ⟨.hbm, 58, rfl⟩
abbrev main_c_6 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_c_7 : Ref sig .tc := ⟨.hbm, 65, rfl⟩
abbrev main_v45 : Ref sig .tc := ⟨.hbm, 66, rfl⟩
abbrev main_v46 : Ref sig .tc := ⟨.hbm, 67, rfl⟩
abbrev main_c_8 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_9 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_call2_cst : Ref sig .tc := ⟨.hbm, 83, rfl⟩
abbrev main_call2_v0 : Ref sig .tc := ⟨.hbm, 84, rfl⟩
abbrev main_v60 : Ref sig .tc := ⟨.hbm, 85, rfl⟩
abbrev main_call3_cst : Ref sig .tc := ⟨.hbm, 86, rfl⟩
abbrev main_call3_v0 : Ref sig .tc := ⟨.hbm, 87, rfl⟩
abbrev main_call3_cst_0 : Ref sig .tc := ⟨.hbm, 88, rfl⟩
abbrev main_call3_v1 : Ref sig .tc := ⟨.hbm, 89, rfl⟩
abbrev main_call3_v2 : Ref sig .tc := ⟨.hbm, 90, rfl⟩
abbrev main_call3_v3 : Ref sig .tc := ⟨.hbm, 91, rfl⟩
abbrev main_call3_v4 : Ref sig .tc := ⟨.hbm, 92, rfl⟩
abbrev main_call3_v5 : Ref sig .tc := ⟨.hbm, 93, rfl⟩
abbrev main_call3_v6 : Ref sig .tc := ⟨.hbm, 94, rfl⟩
abbrev main_call3_cst_1 : Ref sig .tc := ⟨.hbm, 95, rfl⟩
abbrev main_call3_v7 : Ref sig .tc := ⟨.hbm, 96, rfl⟩
abbrev main_call3_v8 : Ref sig .tc := ⟨.hbm, 97, rfl⟩
abbrev main_call3_v9 : Ref sig .tc := ⟨.hbm, 98, rfl⟩
abbrev main_call3_v10 : Ref sig .tc := ⟨.hbm, 99, rfl⟩
abbrev main_v61 : Ref sig .tc := ⟨.hbm, 100, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000x1 : S_.BroadcastsInDim S50000x1 (![] : Fin 0 → Fin S50000x1.rank)
  concatenates_S800000x1_S50000x1_S850000x1_d0 : Shape.Concatenates [S800000x1, S50000x1] S850000x1 0
  bcast_S_S850000 : S_.BroadcastsInDim S850000 (![] : Fin 0 → Fin S850000.rank)
  bcast_S850000_S850000x1_0 : S850000.BroadcastsInDim S850000x1 (![0] : Fin 1 → Fin S850000x1.rank)
  concatenates_S850000x64_S850000x64_S850000x1_S850000x129_d1 : Shape.Concatenates [S850000x64, S850000x64, S850000x1] S850000x129 1
  bcast_S128_S1x128_1 : S128.BroadcastsInDim S1x128 (![1] : Fin 1 → Fin S1x128.rank)
  bcast_S1x128_S850000x128_0_1 : S1x128.BroadcastsInDim S850000x128 (![0, 1] : Fin 2 → Fin S850000x128.rank)
  bcast_S_S50000x128 : S_.BroadcastsInDim S50000x128 (![] : Fin 0 → Fin S50000x128.rank)
  concatenates_S850000x128_S850000x128_S850000x1_S850000x257_d1 : Shape.Concatenates [S850000x128, S850000x128, S850000x1] S850000x257 1
  bcast_S64_S1x64_1 : S64.BroadcastsInDim S1x64 (![1] : Fin 1 → Fin S1x64.rank)
  bcast_S1x64_S850000x64_0_1 : S1x64.BroadcastsInDim S850000x64 (![0, 1] : Fin 2 → Fin S850000x64.rank)
  bcast_S_S50000x64 : S_.BroadcastsInDim S50000x64 (![] : Fin 0 → Fin S50000x64.rank)
  reducesTo_S50000x64_S50000_d1 : S50000x64.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  gather_S50000x64_S850000x1_S850000x64_1_0_n_n_0_1_164_wf : GatherDims.WF S50000x64 S850000x1 S850000x64 [1] [0] [] [0] [] 1 ![1, 64]
  dot_S850000x129_S129x128_S850000x128_1_0_0_1_n_n_wf : DotDims.WF S850000x129 S129x128 S850000x128 [1] [0] [0] [1] [] []
  scatter_S50000x128_S850000x1_S850000x128_1_0_0_1_wf : ScatterDims.WF S50000x128 S850000x1 S850000x128 [1] [0] [0] 1
  gather_S50000x128_S850000x1_S850000x128_1_0_n_n_0_1_1128_wf : GatherDims.WF S50000x128 S850000x1 S850000x128 [1] [0] [] [0] [] 1 ![1, 128]
  dot_S850000x257_S257x64_S850000x64_1_0_0_1_n_n_wf : DotDims.WF S850000x257 S257x64 S850000x64 [1] [0] [0] [1] [] []
  scatter_S50000x64_S850000x1_S850000x64_1_0_0_1_wf : ScatterDims.WF S50000x64 S850000x1 S850000x64 [1] [0] [0] 1

variable [Facts₀]

def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def dot_S850000x129_S129x128_S850000x128_1_0_0_1_n_n : DotDims S850000x129 S129x128 S850000x128 where
  lhsContracting := [1]
  rhsContracting := [0]
  lhsNonContracting := [0]
  rhsNonContracting := [1]
  lhsBatch := []
  rhsBatch := []
  wf := dot_S850000x129_S129x128_S850000x128_1_0_0_1_n_n_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def dot_S850000x257_S257x64_S850000x64_1_0_0_1_n_n : DotDims S850000x257 S257x64 S850000x64 where
  lhsContracting := [1]
  rhsContracting := [0]
  lhsNonContracting := [0]
  rhsNonContracting := [1]
  lhsBatch := []
  rhsBatch := []
  wf := dot_S850000x257_S257x64_S850000x64_1_0_0_1_n_n_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.RefHost.lean ====
/- The reference program's result as a function of its arguments, read back through its 94 host operations in nine stages.
   Each stage computes a few values from the ones before it (the lists of who sends to whom; the rows looked up in the node
   table; a layer's messages; their sum at every target node, cut off at zero; and, last, the log-softmax), and keeps the
   rest; stage by stage every value a later stage reads is the corresponding stage function of the arguments. -/
import proofs.«415574_j15994458211317_1_alg».proof.Proof.RefRun
import proofs.«415574_j15994458211317_1_alg».proof.Proof.RefRead
import Idealize.ShloMosaic.Lib.StableHlo.Run

set_option maxRecDepth 16384

noncomputable section

namespace Cert.ReferenceIdeal.RefHost

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-! ## The operations' results in order -/

/-- The contents after two runs of operations in a row are the second's from the first's. -/
theorem after_append (l₁ l₂ : List (HloOp τ sig (Elt F))) (V : Valuation τ sig (Elt F)) :
    after (l₁ ++ l₂) V = after l₂ (after l₁ V) := by
  induction l₁ generalizing V with
  | nil => rfl
  | cons a l ih => simp only [List.cons_append, after_cons, ih]

/-! ## A buffer's contents at its own type

A called function's operations read and write the caller's buffers through a change of type that, at each of these buffers,
changes nothing: the buffer's type IS the tensor's. Two such changes in a row undo each other whatever the buffer. -/

/-- Two changes of type that undo each other change nothing. -/
theorem cast_cast_cancel {α β : Type} (h1 : β = α) (h2 : α = β) (a : α) : cast h1 (cast h2 a) = a := by
  subst h2; rfl

theorem read_main_v30 (h) (v : (main_v30 : Ref sig .tc).ty.Contents (Elt F)) :
    @cast ((main_v30 : Ref sig .tc).ty.Contents (Elt F)) ((⟨S50000x128, .f32⟩ : BufTy).Contents (Elt F)) h v = v := rfl
theorem write_main_v32 (h) (v : (⟨S50000x128, .f32⟩ : BufTy).Contents (Elt F)) :
    @cast ((⟨S50000x128, .f32⟩ : BufTy).Contents (Elt F)) ((main_v32 : Ref sig .tc).ty.Contents (Elt F)) h v = v := rfl
theorem read_main_v59 (h) (v : (main_v59 : Ref sig .tc).ty.Contents (Elt F)) :
    @cast ((main_v59 : Ref sig .tc).ty.Contents (Elt F)) ((⟨S50000x64, .f32⟩ : BufTy).Contents (Elt F)) h v = v := rfl
theorem write_main_v60 (h) (v : (⟨S50000x64, .f32⟩ : BufTy).Contents (Elt F)) :
    @cast ((⟨S50000x64, .f32⟩ : BufTy).Contents (Elt F)) ((main_v60 : Ref sig .tc).ty.Contents (Elt F)) h v = v := rfl
theorem read_main_v60 (h) (v : (main_v60 : Ref sig .tc).ty.Contents (Elt F)) :
    @cast ((main_v60 : Ref sig .tc).ty.Contents (Elt F)) ((⟨S50000x64, .f32⟩ : BufTy).Contents (Elt F)) h v = v := rfl
theorem write_main_v61 (h) (v : (⟨S50000x64, .f32⟩ : BufTy).Contents (Elt F)) :
    @cast ((⟨S50000x64, .f32⟩ : BufTy).Contents (Elt F)) ((main_v61 : Ref sig .tc).ty.Contents (Elt F)) h v = v := rfl

/-- Reads a buffer back through a run of host operations: each operation's result at its own buffer, every other buffer kept;
    then the changes of type dropped; what is left is the named value, by unfolding its definition. -/
macro "host_read" : tactic =>
  `(tactic| (after_results_simp
             all_goals (try simp only [TRef.toBuf, TRef.ofBuf, cast_cast_cancel, read_main_v30, write_main_v32, read_main_v59, write_main_v60, read_main_v60, write_main_v61])
             all_goals (try rfl)))

/-! ## Two values the stages are stated with -/

/-- A list of node numbers as the row lookup reads it: a negative one counts from the table's end. As a column. -/
def wrapCol (v : IVec S850000 32) : IVec S850000x1 32 :=
  broadcastInDim S850000x1 ![0] Facts₀.bcast_S850000_S850000x1_0
    (select (cmpi .slt v (broadcastInDim S850000 ![] Facts₀.bcast_S_S850000 (constantI S_ 32 0#32)))
      (addi v (broadcastInDim S850000 ![] Facts₀.bcast_S_S850000 (constantI S_ 32 50000#32))) v)

/-- A row's scores less the row's greatest score. -/
def shiftedR (z : FVec F S50000x64 .f32) : FVec F S50000x64 .f32 :=
  subf z (broadcastInDim S50000x64 ![0, 1] Facts₀.bcast_S50000x1_S50000x64_0_1 (broadcastInDim S50000x1 ![0] Facts₀.bcast_S50000_S50000x1_0
    (maximumf (broadcastInDim S50000 ![] Facts₀.bcast_S_S50000 (constant S_ .f32 0xFF800000#32))
      (Host.reduce FloatOps.maximumf z (constant S_ .f32 0xFF800000#32) Facts₀.reducesTo_S50000x64_S50000_d1 Facts₀.h_S_))))

/-- The shifted scores less the logarithm of the row's sum of their exponentials. -/
def logSoftmaxR (z : FVec F S50000x64 .f32) : FVec F S50000x64 .f32 :=
  subf (shiftedR z) (broadcastInDim S50000x64 ![0, 1] Facts₀.bcast_S50000x1_S50000x64_0_1
    (Host.log (broadcastInDim S50000x1 ![0] Facts₀.bcast_S50000_S50000x1_0
      (Host.reduceAdd (Host.exp (shiftedR z)) (constant S_ .f32 0x00000000#32) Facts₀.reducesTo_S50000x64_S50000_d1 Facts₀.h_S_))))

/-! ## The nine stages, each from any contents `X` -/

section Stages

-- a reduction, a row lookup and a scatter are compared operand by operand, never opened
attribute [local irreducible] Host.reduce Host.reduceAdd Host.gather Host.scatterAdd

variable (X : Valuation τ sig (Elt F))

/-! ### Stage 1 (operations 1 … 10): the edge list's two rows, and from them the messages' source list, target list and attribute column -/
theorem s1_v1 : after opsS1 X (Proc.devRef .tc main_v1)
    = val_main_v1 (F := F) (X (Proc.devRef .tc main_arg1)) := by
  host_read
theorem s1_v3 : after opsS1 X (Proc.devRef .tc main_v3)
    = val_main_v3 (F := F) (X (Proc.devRef .tc main_arg1)) := by
  host_read
theorem s1_v5 : after opsS1 X (Proc.devRef .tc main_v5)
    = val_main_v5 (F := F) (X (Proc.devRef .tc main_arg1)) := by
  host_read
theorem s1_v6 : after opsS1 X (Proc.devRef .tc main_v6)
    = val_main_v6 (F := F) (X (Proc.devRef .tc main_arg1)) := by
  host_read
theorem s1_v8 : after opsS1 X (Proc.devRef .tc main_v8)
    = val_main_v8 (F := F) (X (Proc.devRef .tc main_arg2)) := by
  host_read
theorem s1_keep_main_arg0 : after opsS1 X (Proc.devRef .tc main_arg0) = X (Proc.devRef .tc main_arg0) := by
  host_read
theorem s1_keep_main_arg2 : after opsS1 X (Proc.devRef .tc main_arg2) = X (Proc.devRef .tc main_arg2) := by
  host_read
theorem s1_keep_main_arg3 : after opsS1 X (Proc.devRef .tc main_arg3) = X (Proc.devRef .tc main_arg3) := by
  host_read
theorem s1_keep_main_arg4 : after opsS1 X (Proc.devRef .tc main_arg4) = X (Proc.devRef .tc main_arg4) := by
  host_read
theorem s1_keep_main_arg5 : after opsS1 X (Proc.devRef .tc main_arg5) = X (Proc.devRef .tc main_arg5) := by
  host_read
theorem s1_keep_main_arg6 : after opsS1 X (Proc.devRef .tc main_arg6) = X (Proc.devRef .tc main_arg6) := by
  host_read

/-! ### Stage 2 (11 … 28): the target rows and the source rows of the node table -/
theorem s2_v15 : after opsS2 X (Proc.devRef .tc main_v15)
    = Host.gather gather_S50000x64_S850000x1_S850000x64_1_0_n_n_0_1_164 (X (Proc.devRef .tc main_arg0)) (wrapCol (X (Proc.devRef .tc main_v6))) := by
  host_read
theorem s2_v22 : after opsS2 X (Proc.devRef .tc main_v22)
    = Host.gather gather_S50000x64_S850000x1_S850000x64_1_0_n_n_0_1_164 (X (Proc.devRef .tc main_arg0)) (wrapCol (X (Proc.devRef .tc main_v5))) := by
  host_read
theorem s2_keep_main_v6 : after opsS2 X (Proc.devRef .tc main_v6) = X (Proc.devRef .tc main_v6) := by
  host_read
theorem s2_keep_main_v8 : after opsS2 X (Proc.devRef .tc main_v8) = X (Proc.devRef .tc main_v8) := by
  host_read
theorem s2_keep_main_v1 : after opsS2 X (Proc.devRef .tc main_v1) = X (Proc.devRef .tc main_v1) := by
  host_read
theorem s2_keep_main_v3 : after opsS2 X (Proc.devRef .tc main_v3) = X (Proc.devRef .tc main_v3) := by
  host_read
theorem s2_keep_main_arg2 : after opsS2 X (Proc.devRef .tc main_arg2) = X (Proc.devRef .tc main_arg2) := by
  host_read
theorem s2_keep_main_arg3 : after opsS2 X (Proc.devRef .tc main_arg3) = X (Proc.devRef .tc main_arg3) := by
  host_read
theorem s2_keep_main_arg4 : after opsS2 X (Proc.devRef .tc main_arg4) = X (Proc.devRef .tc main_arg4) := by
  host_read
theorem s2_keep_main_arg5 : after opsS2 X (Proc.devRef .tc main_arg5) = X (Proc.devRef .tc main_arg5) := by
  host_read
theorem s2_keep_main_arg6 : after opsS2 X (Proc.devRef .tc main_arg6) = X (Proc.devRef .tc main_arg6) := by
  host_read

/-! ### Stage 3 (29 … 33): layer 1's messages -/
theorem s3_v27 : after opsS3 X (Proc.devRef .tc main_v27)
    = addf (Host.dotGeneral dot_S850000x129_S129x128_S850000x128_1_0_0_1_n_n none
        (concatenate S850000x129 1 [⟨S850000x64, X (Proc.devRef .tc main_v15)⟩, ⟨S850000x64, X (Proc.devRef .tc main_v22)⟩, ⟨S850000x1, X (Proc.devRef .tc main_v8)⟩] Facts₀.concatenates_S850000x64_S850000x64_S850000x1_S850000x129_d1)
        (X (Proc.devRef .tc main_arg3)))
      (broadcastInDim S850000x128 ![0, 1] Facts₀.bcast_S1x128_S850000x128_0_1 (broadcastInDim S1x128 ![1] Facts₀.bcast_S128_S1x128_1 (X (Proc.devRef .tc main_arg4)))) := by
  host_read
theorem s3_keep_main_v6 : after opsS3 X (Proc.devRef .tc main_v6) = X (Proc.devRef .tc main_v6) := by
  host_read
theorem s3_keep_main_v1 : after opsS3 X (Proc.devRef .tc main_v1) = X (Proc.devRef .tc main_v1) := by
  host_read
theorem s3_keep_main_v3 : after opsS3 X (Proc.devRef .tc main_v3) = X (Proc.devRef .tc main_v3) := by
  host_read
theorem s3_keep_main_arg2 : after opsS3 X (Proc.devRef .tc main_arg2) = X (Proc.devRef .tc main_arg2) := by
  host_read
theorem s3_keep_main_arg5 : after opsS3 X (Proc.devRef .tc main_arg5) = X (Proc.devRef .tc main_arg5) := by
  host_read
theorem s3_keep_main_arg6 : after opsS3 X (Proc.devRef .tc main_arg6) = X (Proc.devRef .tc main_arg6) := by
  host_read

/-! ### Stage 4 (34 … 43): the messages summed at their targets, cut off below at zero twice -/
theorem s4_v32 : after opsS4 X (Proc.devRef .tc main_v32)
    = maximumf (maximumf (Host.scatterAdd scatter_S50000x128_S850000x1_S850000x128_1_0_0_1 (broadcastInDim S50000x128 ![] Facts₀.bcast_S_S50000x128 (constant (F := F) S_ .f32 0x00000000#32)) (broadcastInDim S850000x1 ![0] Facts₀.bcast_S850000_S850000x1_0 (X (Proc.devRef .tc main_v6))) (X (Proc.devRef .tc main_v27))) (broadcastInDim S50000x128 ![] Facts₀.bcast_S_S50000x128 (constant (F := F) S_ .f32 0x00000000#32))) (broadcastInDim S50000x128 ![] Facts₀.bcast_S_S50000x128 (constant (F := F) S_ .f32 0x00000000#32)) := by
  host_read
theorem s4_keep_main_v1 : after opsS4 X (Proc.devRef .tc main_v1) = X (Proc.devRef .tc main_v1) := by
  host_read
theorem s4_keep_main_v3 : after opsS4 X (Proc.devRef .tc main_v3) = X (Proc.devRef .tc main_v3) := by
  host_read
theorem s4_keep_main_arg2 : after opsS4 X (Proc.devRef .tc main_arg2) = X (Proc.devRef .tc main_arg2) := by
  host_read
theorem s4_keep_main_arg5 : after opsS4 X (Proc.devRef .tc main_arg5) = X (Proc.devRef .tc main_arg5) := by
  host_read
theorem s4_keep_main_arg6 : after opsS4 X (Proc.devRef .tc main_arg6) = X (Proc.devRef .tc main_arg6) := by
  host_read

/-! ### Stage 5 (44 … 49): the three lists again, for layer 2 -/
theorem s5_v34 : after opsS5 X (Proc.devRef .tc main_v34)
    = concatenate S850000 0 [⟨S800000, X (Proc.devRef .tc main_v1)⟩, ⟨S50000, iotaInDim S50000 32 0⟩] Facts₀.concatenates_S800000_S50000_S850000_d0 := by
  host_read
theorem s5_v35 : after opsS5 X (Proc.devRef .tc main_v35)
    = concatenate S850000 0 [⟨S800000, X (Proc.devRef .tc main_v3)⟩, ⟨S50000, iotaInDim S50000 32 0⟩] Facts₀.concatenates_S800000_S50000_S850000_d0 := by
  host_read
theorem s5_v37 : after opsS5 X (Proc.devRef .tc main_v37)
    = concatenate S850000x1 0 [⟨S800000x1, X (Proc.devRef .tc main_arg2)⟩, ⟨S50000x1, broadcastInDim S50000x1 ![] Facts₀.bcast_S_S50000x1 (constant (F := F) S_ .f32 0x00000000#32)⟩] Facts₀.concatenates_S800000x1_S50000x1_S850000x1_d0 := by
  host_read
theorem s5_keep_main_v32 : after opsS5 X (Proc.devRef .tc main_v32) = X (Proc.devRef .tc main_v32) := by
  host_read
theorem s5_keep_main_arg5 : after opsS5 X (Proc.devRef .tc main_arg5) = X (Proc.devRef .tc main_arg5) := by
  host_read
theorem s5_keep_main_arg6 : after opsS5 X (Proc.devRef .tc main_arg6) = X (Proc.devRef .tc main_arg6) := by
  host_read

/-! ### Stage 6 (50 … 67): the target rows and the source rows of layer 1's node features -/
theorem s6_v44 : after opsS6 X (Proc.devRef .tc main_v44)
    = Host.gather gather_S50000x128_S850000x1_S850000x128_1_0_n_n_0_1_1128 (X (Proc.devRef .tc main_v32)) (wrapCol (X (Proc.devRef .tc main_v35))) := by
  host_read
theorem s6_v51 : after opsS6 X (Proc.devRef .tc main_v51)
    = Host.gather gather_S50000x128_S850000x1_S850000x128_1_0_n_n_0_1_1128 (X (Proc.devRef .tc main_v32)) (wrapCol (X (Proc.devRef .tc main_v34))) := by
  host_read
theorem s6_keep_main_v35 : after opsS6 X (Proc.devRef .tc main_v35) = X (Proc.devRef .tc main_v35) := by
  host_read
theorem s6_keep_main_v37 : after opsS6 X (Proc.devRef .tc main_v37) = X (Proc.devRef .tc main_v37) := by
  host_read
theorem s6_keep_main_arg5 : after opsS6 X (Proc.devRef .tc main_arg5) = X (Proc.devRef .tc main_arg5) := by
  host_read
theorem s6_keep_main_arg6 : after opsS6 X (Proc.devRef .tc main_arg6) = X (Proc.devRef .tc main_arg6) := by
  host_read

/-! ### Stage 7 (68 … 72): layer 2's messages -/
theorem s7_v56 : after opsS7 X (Proc.devRef .tc main_v56)
    = addf (Host.dotGeneral dot_S850000x257_S257x64_S850000x64_1_0_0_1_n_n none
        (concatenate S850000x257 1 [⟨S850000x128, X (Proc.devRef .tc main_v44)⟩, ⟨S850000x128, X (Proc.devRef .tc main_v51)⟩, ⟨S850000x1, X (Proc.devRef .tc main_v37)⟩] Facts₀.concatenates_S850000x128_S850000x128_S850000x1_S850000x257_d1)
        (X (Proc.devRef .tc main_arg5)))
      (broadcastInDim S850000x64 ![0, 1] Facts₀.bcast_S1x64_S850000x64_0_1 (broadcastInDim S1x64 ![1] Facts₀.bcast_S64_S1x64_1 (X (Proc.devRef .tc main_arg6)))) := by
  host_read
theorem s7_keep_main_v35 : after opsS7 X (Proc.devRef .tc main_v35) = X (Proc.devRef .tc main_v35) := by
  host_read

/-! ### Stage 8 (73 … 79): the messages summed at their targets, cut off below at zero -/
theorem s8_v60 : after opsS8 X (Proc.devRef .tc main_v60)
    = maximumf (Host.scatterAdd scatter_S50000x64_S850000x1_S850000x64_1_0_0_1 (broadcastInDim S50000x64 ![] Facts₀.bcast_S_S50000x64 (constant (F := F) S_ .f32 0x00000000#32)) (broadcastInDim S850000x1 ![0] Facts₀.bcast_S850000_S850000x1_0 (X (Proc.devRef .tc main_v35))) (X (Proc.devRef .tc main_v56))) (broadcastInDim S50000x64 ![] Facts₀.bcast_S_S50000x64 (constant (F := F) S_ .f32 0x00000000#32)) := by
  host_read

/-! ### Stage 9 (80 … 94): the log-softmax of every node's scores -/
theorem s9_v61 : after opsS9 X (Proc.devRef .tc main_v61)
    = logSoftmaxR (F := F) (X (Proc.devRef .tc main_v60)) := by
  host_read

/-! ## The stages in a row: every value the next stage reads, as Read's stage of the arguments -/

theorem c2_v15 : after opsS2 (after opsS1 X) (Proc.devRef .tc main_v15)
    = val_main_v15 (F := F) (X (Proc.devRef .tc main_arg0)) (X (Proc.devRef .tc main_arg1)) := by
  rw [s2_v15, s1_keep_main_arg0, s1_v6]
  rfl
theorem c2_v22 : after opsS2 (after opsS1 X) (Proc.devRef .tc main_v22)
    = val_main_v22 (F := F) (X (Proc.devRef .tc main_arg0)) (X (Proc.devRef .tc main_arg1)) := by
  rw [s2_v22, s1_keep_main_arg0, s1_v5]
  rfl
theorem c3_v27 : after opsS3 (after opsS2 (after opsS1 X)) (Proc.devRef .tc main_v27)
    = val_main_v27 (F := F) (X (Proc.devRef .tc main_arg0)) (X (Proc.devRef .tc main_arg1)) (X (Proc.devRef .tc main_arg2)) (X (Proc.devRef .tc main_arg3)) (X (Proc.devRef .tc main_arg4)) := by
  rw [s3_v27, c2_v15, c2_v22, s2_keep_main_v8, s1_v8, s2_keep_main_arg3, s1_keep_main_arg3, s2_keep_main_arg4, s1_keep_main_arg4]
  rfl
theorem c4_v32 : after opsS4 (after opsS3 (after opsS2 (after opsS1 X))) (Proc.devRef .tc main_v32)
    = val_main_v32 (F := F) (X (Proc.devRef .tc main_arg0)) (X (Proc.devRef .tc main_arg1)) (X (Proc.devRef .tc main_arg2)) (X (Proc.devRef .tc main_arg3)) (X (Proc.devRef .tc main_arg4)) := by
  rw [s4_v32, c3_v27, s3_keep_main_v6, s2_keep_main_v6, s1_v6]
  rfl
theorem c5_v34 : after opsS5 (after opsS4 (after opsS3 (after opsS2 (after opsS1 X)))) (Proc.devRef .tc main_v34)
    = val_main_v34 (F := F) (X (Proc.devRef .tc main_arg1)) := by
  rw [s5_v34, s4_keep_main_v1, s3_keep_main_v1, s2_keep_main_v1, s1_v1]
  rfl
theorem c5_v35 : after opsS5 (after opsS4 (after opsS3 (after opsS2 (after opsS1 X)))) (Proc.devRef .tc main_v35)
    = val_main_v35 (F := F) (X (Proc.devRef .tc main_arg1)) := by
  rw [s5_v35, s4_keep_main_v3, s3_keep_main_v3, s2_keep_main_v3, s1_v3]
  rfl
theorem c5_v37 : after opsS5 (after opsS4 (after opsS3 (after opsS2 (after opsS1 X)))) (Proc.devRef .tc main_v37)
    = val_main_v37 (F := F) (X (Proc.devRef .tc main_arg2)) := by
  rw [s5_v37, s4_keep_main_arg2, s3_keep_main_arg2, s2_keep_main_arg2, s1_keep_main_arg2]
  rfl
theorem c5_v32 : after opsS5 (after opsS4 (after opsS3 (after opsS2 (after opsS1 X)))) (Proc.devRef .tc main_v32)
    = val_main_v32 (F := F) (X (Proc.devRef .tc main_arg0)) (X (Proc.devRef .tc main_arg1)) (X (Proc.devRef .tc main_arg2)) (X (Proc.devRef .tc main_arg3)) (X (Proc.devRef .tc main_arg4)) := by
  rw [s5_keep_main_v32, c4_v32]
theorem c5_w : after opsS5 (after opsS4 (after opsS3 (after opsS2 (after opsS1 X)))) (Proc.devRef .tc main_arg5)
    = X (Proc.devRef .tc main_arg5) := by
  rw [s5_keep_main_arg5, s4_keep_main_arg5, s3_keep_main_arg5, s2_keep_main_arg5, s1_keep_main_arg5]
theorem c5_b : after opsS5 (after opsS4 (after opsS3 (after opsS2 (after opsS1 X)))) (Proc.devRef .tc main_arg6)
    = X (Proc.devRef .tc main_arg6) := by
  rw [s5_keep_main_arg6, s4_keep_main_arg6, s3_keep_main_arg6, s2_keep_main_arg6, s1_keep_main_arg6]
theorem c6_v44 : after opsS6 (after opsS5 (after opsS4 (after opsS3 (after opsS2 (after opsS1 X))))) (Proc.devRef .tc main_v44)
    = val_main_v44 (F := F) (X (Proc.devRef .tc main_arg0)) (X (Proc.devRef .tc main_arg1)) (X (Proc.devRef .tc main_arg2)) (X (Proc.devRef .tc main_arg3)) (X (Proc.devRef .tc main_arg4)) := by
  rw [s6_v44, c5_v32, c5_v35]
  rfl
theorem c6_v51 : after opsS6 (after opsS5 (after opsS4 (after opsS3 (after opsS2 (after opsS1 X))))) (Proc.devRef .tc main_v51)
    = val_main_v51 (F := F) (X (Proc.devRef .tc main_arg0)) (X (Proc.devRef .tc main_arg1)) (X (Proc.devRef .tc main_arg2)) (X (Proc.devRef .tc main_arg3)) (X (Proc.devRef .tc main_arg4)) := by
  rw [s6_v51, c5_v32, c5_v34]
  rfl
theorem c6_v37 : after opsS6 (after opsS5 (after opsS4 (after opsS3 (after opsS2 (after opsS1 X))))) (Proc.devRef .tc main_v37)
    = val_main_v37 (F := F) (X (Proc.devRef .tc main_arg2)) := by
  rw [s6_keep_main_v37, c5_v37]
theorem c6_v35 : after opsS6 (after opsS5 (after opsS4 (after opsS3 (after opsS2 (after opsS1 X))))) (Proc.devRef .tc main_v35)
    = val_main_v35 (F := F) (X (Proc.devRef .tc main_arg1)) := by
  rw [s6_keep_main_v35, c5_v35]
theorem c6_w : after opsS6 (after opsS5 (after opsS4 (after opsS3 (after opsS2 (after opsS1 X))))) (Proc.devRef .tc main_arg5)
    = X (Proc.devRef .tc main_arg5) := by
  rw [s6_keep_main_arg5, c5_w]
theorem c6_b : after opsS6 (after opsS5 (after opsS4 (after opsS3 (after opsS2 (after opsS1 X))))) (Proc.devRef .tc main_arg6)
    = X (Proc.devRef .tc main_arg6) := by
  rw [s6_keep_main_arg6, c5_b]
theorem c7_v56 : after opsS7 (after opsS6 (after opsS5 (after opsS4 (after opsS3 (after opsS2 (after opsS1 X)))))) (Proc.devRef .tc main_v56)
    = val_main_v56 (F := F) (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) := by
  rw [s7_v56, c6_v44, c6_v51, c6_v37, c6_w, c6_b]
  rfl
theorem c7_v35 : after opsS7 (after opsS6 (after opsS5 (after opsS4 (after opsS3 (after opsS2 (after opsS1 X)))))) (Proc.devRef .tc main_v35)
    = val_main_v35 (F := F) (X (Proc.devRef .tc main_arg1)) := by
  rw [s7_keep_main_v35, c6_v35]
theorem c8_v60 : after opsS8 (after opsS7 (after opsS6 (after opsS5 (after opsS4 (after opsS3 (after opsS2 (after opsS1 X))))))) (Proc.devRef .tc main_v60)
    = val_main_v60 (F := F) (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) := by
  rw [s8_v60, c7_v35, c7_v56]
  rfl
theorem c9_v61 : after opsS9 (after opsS8 (after opsS7 (after opsS6 (after opsS5 (after opsS4 (after opsS3 (after opsS2 (after opsS1 X)))))))) (Proc.devRef .tc main_v61)
    = val_main_v61 (F := F) (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) := by
  rw [s9_v61, c8_v60]
  rfl

/-- THE RESULT BUFFER after all of @main's operations, from any contents: Read's last stage of the argument buffers. -/
theorem read_result : after (ops (F := F)) X (Proc.devRef .tc main_v61)
    = val_main_v61 (F := F) (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) := by
  rw [ops_split, after_append, after_append, after_append, after_append, after_append, after_append, after_append, after_append]
  exact c9_v61 X

end Stages

/-- The same at the launch contents of device `c`, the arguments read where the run's statement reads them. -/
theorem read_result_launch (m : (ℓ : Loc nD τ sig) → Buf (Elt F) ℓ) (c : Dev nD) :
    after (ops (F := F)) (launchContents m c) (Proc.devRef .tc main_v61)
      = val_main_v61 (F := F) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) :=
  read_result (launchContents m c)

end Cert.ReferenceIdeal.RefHost

end
-- ==== Proof.KStages.lean ====
/- The kernel program's host-side values, named: what each stretch of host operations computes, as a function of the
   arrays it reads. A graph layer sends along every edge, and along a self loop at every node, one message: a linear map of the
   target node's features, the source node's features and the edge's attribute; a node's new features are the sum of the
   messages it receives, cut off below at zero. The messages themselves are computed on the accelerator from five arrays that
   the host prepares; these definitions are those arrays, the aggregation after each layer, and the closing log-softmax. -/
import proofs.«415574_j15994458211317_1_alg».proof.KernelIdeal

noncomputable section

namespace Cert.KernelIdeal.Stages

open Cert.KernelIdeal Idealize.ShloMosaic

variable {F : FTy → Type} [FloatOps F] [Facts]
open Facts₀ Facts

/-! ## Who sends to whom -/

/-- The source node of every message: the edges' sources, then every node once (its self loop). -/
def srcIdx (ei : IVec S2x800000 32) : IVec S850000 32 :=
  concatenate S850000 0 [⟨S800000, shapeCast S800000 (extractStridedSlice S1x800000 ![0, 0] ei slices_S2x800000_S1x800000_0_0) shapeCasts_S1x800000_S800000⟩, ⟨S50000, iotaInDim S50000 32 0⟩] concatenates_S800000_S50000_S850000_d0

/-- The target node of every message: the edges' targets, then every node once. -/
def dstIdx (ei : IVec S2x800000 32) : IVec S850000 32 :=
  concatenate S850000 0 [⟨S800000, shapeCast S800000 (extractStridedSlice S1x800000 ![1, 0] ei slices_S2x800000_S1x800000_1_0) shapeCasts_S1x800000_S800000⟩, ⟨S50000, iotaInDim S50000 32 0⟩] concatenates_S800000_S50000_S850000_d0

/-- The attribute of every message: the edges' attributes, then zero for every self loop. -/
def attr2 (ea : FVec F S800000x1 .f32) : FVec F S850000x1 .f32 :=
  concatenate S850000x1 0 [⟨S800000x1, ea⟩, ⟨S50000x1, broadcastInDim S50000x1 ![] bcast_S_S50000x1 (constant S_ .f32 0x00000000#32)⟩] concatenates_S800000x1_S50000x1_S850000x1_d0

/-! ## Reading a row of a node table -/

/-- A node number as the row lookup reads it: a negative one counts from the table's end. As a column of start indices. -/
def wrapIdx (v : IVec S850000 32) : IVec S850000x1 32 :=
  broadcastInDim S850000x1 ![0] bcast_S850000_S850000x1_0
    (select (cmpi .slt v (broadcastInDim S850000 ![] bcast_S_S850000 (constantI S_ 32 0#32)))
      (addi v (broadcastInDim S850000 ![] bcast_S_S850000 (constantI S_ 32 50000#32))) v)

/-- Every node number is a node of the graph: `0 ≤ v < 50000`, read as signed words. -/
def InRange (v : IVec S850000 32) : Prop := ∀ i, 0 ≤ (v i).toInt ∧ (v i).toInt < 50000

/-- Per message: is the start index a row of the table, `0 ≤ w ≤ 49999`? -/
def rowOk (w : IVec S850000x1 32) : IVec S850000 1 :=
  Host.reduce IntOp.andi
    (andi (cmpi .sge w (broadcastInDim S850000x1 ![] bcast_S_S850000x1 (constantI S_ 32 0#32)))
      (cmpi .sle w (broadcastInDim S850000x1 ![0, 1] bcast_S1x1_S850000x1_0_1 (broadcastInDim S1x1 ![1] bcast_S1_S1x1_1 (constantI S1 32 49999#32)))))
    (constantI S_ 1 1#1) reducesTo_S850000x1_S850000_d1 h_S_

/-- The rows of a 64-column table at the given node numbers; a row whose number is no row of the table is filled. -/
def take64 (x : FVec F S50000x64 .f32) (v : IVec S850000 32) : FVec F S850000x64 .f32 :=
  select (broadcastInDim S850000x64 ![0] bcast_S850000_S850000x64_0 (rowOk (wrapIdx v)))
    (Host.gather gather_S50000x64_S850000x1_S850000x64_1_0_n_n_0_1_164 x (wrapIdx v))
    (broadcastInDim S850000x64 ![] bcast_S_S850000x64 (constant S_ .f32 0x7FC00000#32))

/-- The same for a 128-column table. -/
def take128 (x : FVec F S50000x128 .f32) (v : IVec S850000 32) : FVec F S850000x128 .f32 :=
  select (broadcastInDim S850000x128 ![0] bcast_S850000_S850000x128_0 (rowOk (wrapIdx v)))
    (Host.gather gather_S50000x128_S850000x1_S850000x128_1_0_n_n_0_1_1128 x (wrapIdx v))
    (broadcastInDim S850000x128 ![] bcast_S_S850000x128 (constant S_ .f32 0x7FC00000#32))

/-- The padding value: the integer zero as a float. -/
def padZero : FVec F S_ .f32 := sitofp .f32 (constantI S_ 32 0#32)

/-! ## Layer 1: the five arrays the accelerator reads -/

/-- The target nodes' features, one row per message, padded with zero rows to a whole number of row blocks. -/
def in1_xi (x : FVec F S50000x64 .f32) (dst : IVec S850000 32) : FVec F S851968x64 .bf16 :=
  truncf .bf16 (pad S851968x64 ![0, 0] ![1968, 0] ![0, 0] (take64 x dst) (padZero (F := F)) pads_S850000x64_S851968x64_019680_000 h_S_) bitsLt_bf16_f32

/-- The source nodes' features with the attribute as a last column, one row per message, padded. -/
def in1_xj (x : FVec F S50000x64 .f32) (src : IVec S850000 32) (e2 : FVec F S850000x1 .f32) : FVec F S851968x65 .bf16 :=
  truncf .bf16 (pad S851968x65 ![0, 0] ![1968, 0] ![0, 0]
    (concatenate S850000x65 1 [⟨S850000x64, take64 x src⟩, ⟨S850000x1, e2⟩] concatenates_S850000x64_S850000x1_S850000x65_d1)
    (padZero (F := F)) pads_S850000x65_S851968x65_019680_000 h_S_) bitsLt_bf16_f32

/-- The weight rows that meet the target's features. -/
def in1_wi (w : FVec F S129x128 .f32) : FVec F S64x128 .bf16 :=
  truncf .bf16 (extractStridedSlice S64x128 ![0, 0] w slices_S129x128_S64x128_0_0) bitsLt_bf16_f32

/-- The weight rows that meet the source's features, then the row that meets the attribute. -/
def in1_wj (w : FVec F S129x128 .f32) : FVec F S65x128 .bf16 :=
  truncf .bf16 (concatenate S65x128 0 [⟨S64x128, extractStridedSlice S64x128 ![64, 0] w slices_S129x128_S64x128_64_0⟩, ⟨S1x128, extractStridedSlice S1x128 ![128, 0] w slices_S129x128_S1x128_128_0⟩] concatenates_S64x128_S1x128_S65x128_d0) bitsLt_bf16_f32

/-- The bias as one row. -/
def in1_b (b : FVec F S128 .f32) : FVec F S1x128 .f32 := shapeCast S1x128 b shapeCasts_S128_S1x128

/-- Node features after layer 1, from the messages the accelerator returned (padding rows cut off): each node's sum of
    incoming messages, cut off below at zero (twice: the layer's own cut, then the model's). -/
def hidden (dst : IVec S850000 32) (msg : FVec F S851968x128 .f32) : FVec F S50000x128 .f32 :=
  maximumf (maximumf
    (Host.scatterAdd scatter_S50000x128_S850000x1_S850000x128_1_0_0_1
      (broadcastInDim S50000x128 ![] bcast_S_S50000x128 (constant S_ .f32 0x00000000#32))
      (broadcastInDim S850000x1 ![0] bcast_S850000_S850000x1_0 dst)
      (extractStridedSlice S850000x128 ![0, 0] msg slices_S851968x128_S850000x128_0_0))
    (broadcastInDim S50000x128 ![] bcast_S_S50000x128 (constant S_ .f32 0x00000000#32)))
    (broadcastInDim S50000x128 ![] bcast_S_S50000x128 (constant S_ .f32 0x00000000#32))

/-! ## Layer 2: the five arrays the accelerator reads -/

def in2_xi (h : FVec F S50000x128 .f32) (dst : IVec S850000 32) : FVec F S851968x128 .bf16 :=
  truncf .bf16 (pad S851968x128 ![0, 0] ![1968, 0] ![0, 0] (take128 h dst) (padZero (F := F)) pads_S850000x128_S851968x128_019680_000 h_S_) bitsLt_bf16_f32

def in2_xj (h : FVec F S50000x128 .f32) (src : IVec S850000 32) (e2 : FVec F S850000x1 .f32) : FVec F S851968x129 .bf16 :=
  truncf .bf16 (pad S851968x129 ![0, 0] ![1968, 0] ![0, 0]
    (concatenate S850000x129 1 [⟨S850000x128, take128 h src⟩, ⟨S850000x1, e2⟩] concatenates_S850000x128_S850000x1_S850000x129_d1)
    (padZero (F := F)) pads_S850000x129_S851968x129_019680_000 h_S_) bitsLt_bf16_f32

def in2_wi (w : FVec F S257x64 .f32) : FVec F S128x64 .bf16 :=
  truncf .bf16 (extractStridedSlice S128x64 ![0, 0] w slices_S257x64_S128x64_0_0) bitsLt_bf16_f32

def in2_wj (w : FVec F S257x64 .f32) : FVec F S129x64 .bf16 :=
  truncf .bf16 (concatenate S129x64 0 [⟨S128x64, extractStridedSlice S128x64 ![128, 0] w slices_S257x64_S128x64_128_0⟩, ⟨S1x64, extractStridedSlice S1x64 ![256, 0] w slices_S257x64_S1x64_256_0⟩] concatenates_S128x64_S1x64_S129x64_d0) bitsLt_bf16_f32

def in2_b (b : FVec F S64 .f32) : FVec F S1x64 .f32 := shapeCast S1x64 b shapeCasts_S64_S1x64

/-- Each node's sum of incoming layer-2 messages, cut off below at zero. -/
def agg2 (dst : IVec S850000 32) (msg : FVec F S851968x64 .f32) : FVec F S50000x64 .f32 :=
  maximumf
    (Host.scatterAdd scatter_S50000x64_S850000x1_S850000x64_1_0_0_1
      (broadcastInDim S50000x64 ![] bcast_S_S50000x64 (constant S_ .f32 0x00000000#32))
      (broadcastInDim S850000x1 ![0] bcast_S850000_S850000x1_0 dst)
      (extractStridedSlice S850000x64 ![0, 0] msg slices_S851968x64_S850000x64_0_0))
    (broadcastInDim S50000x64 ![] bcast_S_S50000x64 (constant S_ .f32 0x00000000#32))

/-! ## The closing log-softmax over each node's 64 scores -/

/-- A row's scores less the row's greatest score. -/
def shifted (z : FVec F S50000x64 .f32) : FVec F S50000x64 .f32 :=
  subf z (broadcastInDim S50000x64 ![0, 1] bcast_S50000x1_S50000x64_0_1 (broadcastInDim S50000x1 ![0] bcast_S50000_S50000x1_0
    (maximumf (broadcastInDim S50000 ![] bcast_S_S50000 (constant S_ .f32 0xFF800000#32))
      (Host.reduce FloatOps.maximumf z (constant S_ .f32 0xFF800000#32) reducesTo_S50000x64_S50000_d1 h_S_))))

/-- The shifted scores less the logarithm of the row's sum of their exponentials. -/
def logSoftmax (z : FVec F S50000x64 .f32) : FVec F S50000x64 .f32 :=
  subf (shifted z) (broadcastInDim S50000x64 ![0, 1] bcast_S50000x1_S50000x64_0_1
    (Host.log (broadcastInDim S50000x1 ![0] bcast_S50000_S50000x1_0
      (Host.reduceAdd (Host.exp (shifted z)) (constant S_ .f32 0x00000000#32) reducesTo_S50000x64_S50000_d1 h_S_))))

end Cert.KernelIdeal.Stages

end
-- ==== Proof.Spec.lean ====
/- One layer's messages as ONE function of the five arrays the accelerator reads: message `r`, output column `j` is the
   inner product of row `r` of the first array with column `j` of the first weight block, plus that of row `r` of the second
   array with column `j` of the second weight block, plus entry `j` of the bias row. Over the extended reals, index by index. -/
import Idealize.ShloMosaic.Lib.ValueIdx

noncomputable section

open scoped BigOperators

namespace Cert.Spec

open Idealize.ShloMosaic Idealize.ShloMosaic.ValueIdx

/-- `P` messages; `A` and `B` the widths of the two input arrays; `H` the width of a message. -/
def lin {P A B H : Nat} (a0 : (⟨2, ![P, A]⟩ : Shape).Idx → EReal) (a1 : (⟨2, ![P, B]⟩ : Shape).Idx → EReal)
    (w0 : (⟨2, ![A, H]⟩ : Shape).Idx → EReal) (w1 : (⟨2, ![B, H]⟩ : Shape).Idx → EReal)
    (b : (⟨2, ![1, H]⟩ : Shape).Idx → EReal) : (⟨2, ![P, H]⟩ : Shape).Idx → EReal :=
  fun i => ((∑ k : Fin A, a0 (ix2 ⟨(i 0).val, idx2_lt0 i⟩ k) * w0 (ix2 k ⟨(i 1).val, idx2_lt1 i⟩))
      + ∑ k : Fin B, a1 (ix2 ⟨(i 0).val, idx2_lt0 i⟩ k) * w1 (ix2 k ⟨(i 1).val, idx2_lt1 i⟩))
    + b (ix2 (0 : Fin 1) ⟨(i 1).val, idx2_lt1 i⟩)

/-- `lin` at an index given by its coordinates. -/
theorem lin_apply {P A B H : Nat} (a0 : (⟨2, ![P, A]⟩ : Shape).Idx → EReal) (a1 : (⟨2, ![P, B]⟩ : Shape).Idx → EReal)
    (w0 : (⟨2, ![A, H]⟩ : Shape).Idx → EReal) (w1 : (⟨2, ![B, H]⟩ : Shape).Idx → EReal)
    (b : (⟨2, ![1, H]⟩ : Shape).Idx → EReal) (r : Fin P) (j : Fin H) :
    lin a0 a1 w0 w1 b (ix2 r j) = ((∑ k : Fin A, a0 (ix2 r k) * w0 (ix2 k j)) + ∑ k : Fin B, a1 (ix2 r k) * w1 (ix2 k j))
      + b (ix2 (0 : Fin 1) j) := rfl

/-- One layer's messages written out over the weight's three row blocks: message `r`, column `j` is the target's
    features against weight rows `0 … C-1`, plus the source's features against rows `C … 2C-1`, plus the attribute times row
    `2C`, plus the bias. Both programs' messages are this function (the reference's one long inner product splits at the
    block borders; the accelerator's two inner products are its first block and its last two). `K = 2C + 1` rows of weight. -/
def msgs {R C H K : Nat} (hK : K = C + C + 1) (xi xj : (⟨2, ![R, C]⟩ : Shape).Idx → EReal)
    (e : (⟨2, ![R, 1]⟩ : Shape).Idx → EReal) (w : (⟨2, ![K, H]⟩ : Shape).Idx → EReal)
    (b : (⟨1, ![H]⟩ : Shape).Idx → EReal) : (⟨2, ![R, H]⟩ : Shape).Idx → EReal :=
  fun i => (((∑ k : Fin C, xi (ix2 ⟨(i 0).val, idx2_lt0 i⟩ k) * w (ix2 ⟨k.val, by omega⟩ ⟨(i 1).val, idx2_lt1 i⟩))
        + ∑ k : Fin C, xj (ix2 ⟨(i 0).val, idx2_lt0 i⟩ k) * w (ix2 ⟨C + k.val, by omega⟩ ⟨(i 1).val, idx2_lt1 i⟩))
      + e (ix2 ⟨(i 0).val, idx2_lt0 i⟩ (0 : Fin 1)) * w (ix2 ⟨C + C, by omega⟩ ⟨(i 1).val, idx2_lt1 i⟩))
    + b (ix1 ⟨(i 1).val, idx2_lt1 i⟩)

end Cert.Spec

end
-- ==== Proof.KResult.lean ====
/- The kernel program's result as ONE function of its seven arguments: two graph layers, then the log-softmax. -/
import proofs.«415574_j15994458211317_1_alg».proof.Proof.KStages
import proofs.«415574_j15994458211317_1_alg».proof.Proof.Spec

noncomputable section

namespace Cert.KernelIdeal.Stages

open Cert.KernelIdeal Idealize.ShloMosaic

variable [Facts]

/-- Node features after layer 1: the layer's messages (the accelerator's function of its five arrays) aggregated at their
    targets. -/
def hidden1 (x : FVec Ideal S50000x64 .f32) (ei : IVec S2x800000 32) (ea : FVec Ideal S800000x1 .f32)
    (w1 : FVec Ideal S129x128 .f32) (b1 : FVec Ideal S128 .f32) : FVec Ideal S50000x128 .f32 :=
  hidden (dstIdx ei) (Cert.Spec.lin (in1_xi x (dstIdx ei)) (in1_xj x (srcIdx ei) (attr2 ea)) (in1_wi w1) (in1_wj w1) (in1_b b1))

/-- The result: layer 2's messages from layer 1's features, aggregated, then the log-softmax of every node's scores. -/
def result (x : FVec Ideal S50000x64 .f32) (ei : IVec S2x800000 32) (ea : FVec Ideal S800000x1 .f32)
    (w1 : FVec Ideal S129x128 .f32) (b1 : FVec Ideal S128 .f32) (w2 : FVec Ideal S257x64 .f32) (b2 : FVec Ideal S64 .f32) :
    FVec Ideal S50000x64 .f32 :=
  logSoftmax (agg2 (dstIdx ei)
    (Cert.Spec.lin (in2_xi (hidden1 x ei ea w1 b1) (dstIdx ei)) (in2_xj (hidden1 x ei ea w1 b1) (srcIdx ei) (attr2 ea))
      (in2_wi w2) (in2_wj w2) (in2_b b2)))

end Cert.KernelIdeal.Stages

end
-- ==== Proof.Region0.lean ====
/- What the accelerator leaves in layer 1's output array: the messages as one function of the five arrays it read.
   The array is written back in 208 blocks of 4096 rows; block `t` holds rows `4096 t … 4096 t + 4095`, and each entry of a
   block is the row's inner product with the first weight block's column, plus the second array's row with the second
   weight block's column, plus the bias entry — the same function of the whole arrays at every block, so the blocks
   together are that function on the whole array. -/
import proofs.«415574_j15994458211317_1_alg».proof.Proof.Gen.KernelIdeal.Frame
import proofs.«415574_j15994458211317_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The two inner products at an index

Each product contracts the left operand's columns against the right operand's rows; the operand indices at output index
`(p, q)` and contraction index `k` are `(p, k)` and `(k, q)`, coordinate by coordinate. -/

theorem lhsA_row (i : S4096x128.Idx) (q : dot_S4096x64_S64x128_S4096x128_1_0_0_1_n_n.contr.Idx) :
    (dot_S4096x64_S64x128_S4096x128_1_0_0_1_n_n.lhsIdx i q 0).val = (i 0).val := by
  unfold DotDims.lhsIdx
  rw [dif_neg (show ¬(0 : Fin S4096x64.rank) ∈ dot_S4096x64_S64x128_S4096x128_1_0_0_1_n_n.lhsBatch by decide), dif_pos (show (0 : Fin S4096x64.rank) ∈ dot_S4096x64_S64x128_S4096x128_1_0_0_1_n_n.lhsNonContracting by decide)]
  rfl
theorem lhsA_col (i : S4096x128.Idx) (q : dot_S4096x64_S64x128_S4096x128_1_0_0_1_n_n.contr.Idx) :
    (dot_S4096x64_S64x128_S4096x128_1_0_0_1_n_n.lhsIdx i q 1).val = (q ⟨0, by decide⟩).val :=
  dot_S4096x64_S64x128_S4096x128_1_0_0_1_n_n.lhsIdx_val_of_single rfl i q
theorem rhsA_row (i : S4096x128.Idx) (q : dot_S4096x64_S64x128_S4096x128_1_0_0_1_n_n.contr.Idx) :
    (dot_S4096x64_S64x128_S4096x128_1_0_0_1_n_n.rhsIdx i q 0).val = (q ⟨0, by decide⟩).val :=
  dot_S4096x64_S64x128_S4096x128_1_0_0_1_n_n.rhsIdx_val_of_single rfl i q
theorem rhsA_col (i : S4096x128.Idx) (q : dot_S4096x64_S64x128_S4096x128_1_0_0_1_n_n.contr.Idx) :
    (dot_S4096x64_S64x128_S4096x128_1_0_0_1_n_n.rhsIdx i q 1).val = (i 1).val := by
  unfold DotDims.rhsIdx
  rw [dif_neg (show ¬(1 : Fin S64x128.rank) ∈ dot_S4096x64_S64x128_S4096x128_1_0_0_1_n_n.rhsBatch by decide), dif_pos (show (1 : Fin S64x128.rank) ∈ dot_S4096x64_S64x128_S4096x128_1_0_0_1_n_n.rhsNonContracting by decide)]
  rfl

/-- The first product into the zero accumulator, entry `(p, q)`: row `p` of the left block against column `q` of the
    first weight block. -/
theorem prodA_apply (x : FVec Ideal S4096x64 .bf16) (w : FVec Ideal S64x128 .bf16) (p : Fin 4096) (q : Fin 128) :
    matmul (F := Ideal) dot_S4096x64_S64x128_S4096x128_1_0_0_1_n_n none x w (constant (F := Ideal) S4096x128 .f32 0x00000000#32) (ix2 p q)
      = ∑ k : Fin 64, x (ix2 p k) * w (ix2 k q) := by
  show FloatOps.matmul dot_S4096x64_S64x128_S4096x128_1_0_0_1_n_n none x w (constant (F := Ideal) S4096x128 .f32 0x00000000#32) (ix2 p q) = _
  rw [Ideal.matmul_constant_zero_apply, ← Equiv.sum_comp (ValueIdx.contrEquiv1 dot_S4096x64_S64x128_S4096x128_1_0_0_1_n_n 64 rfl rfl).symm]
  refine Finset.sum_congr rfl fun k _ => ?_
  have hk := ValueIdx.contrEquiv1_symm_val dot_S4096x64_S64x128_S4096x128_1_0_0_1_n_n 64 rfl rfl k
  have el : dot_S4096x64_S64x128_S4096x128_1_0_0_1_n_n.lhsIdx (ix2 p q) ((ValueIdx.contrEquiv1 dot_S4096x64_S64x128_S4096x128_1_0_0_1_n_n 64 rfl rfl).symm k) = ix2 p k := funext fun a => Fin.ext (by
    match a with
    | ⟨0, _⟩ => exact lhsA_row _ _
    | ⟨1, _⟩ => exact (lhsA_col _ _).trans hk)
  have er : dot_S4096x64_S64x128_S4096x128_1_0_0_1_n_n.rhsIdx (ix2 p q) ((ValueIdx.contrEquiv1 dot_S4096x64_S64x128_S4096x128_1_0_0_1_n_n 64 rfl rfl).symm k) = ix2 k q := funext fun a => Fin.ext (by
    match a with
    | ⟨0, _⟩ => exact (rhsA_row _ _).trans hk
    | ⟨1, _⟩ => exact rhsA_col _ _)
  rw [el, er]

theorem lhsB_row (i : S4096x128.Idx) (q : dot_S4096x65_S65x128_S4096x128_1_0_0_1_n_n.contr.Idx) :
    (dot_S4096x65_S65x128_S4096x128_1_0_0_1_n_n.lhsIdx i q 0).val = (i 0).val := by
  unfold DotDims.lhsIdx
  rw [dif_neg (show ¬(0 : Fin S4096x65.rank) ∈ dot_S4096x65_S65x128_S4096x128_1_0_0_1_n_n.lhsBatch by decide), dif_pos (show (0 : Fin S4096x65.rank) ∈ dot_S4096x65_S65x128_S4096x128_1_0_0_1_n_n.lhsNonContracting by decide)]
  rfl
theorem lhsB_col (i : S4096x128.Idx) (q : dot_S4096x65_S65x128_S4096x128_1_0_0_1_n_n.contr.Idx) :
    (dot_S4096x65_S65x128_S4096x128_1_0_0_1_n_n.lhsIdx i q 1).val = (q ⟨0, by decide⟩).val :=
  dot_S4096x65_S65x128_S4096x128_1_0_0_1_n_n.lhsIdx_val_of_single rfl i q
theorem rhsB_row (i : S4096x128.Idx) (q : dot_S4096x65_S65x128_S4096x128_1_0_0_1_n_n.contr.Idx) :
    (dot_S4096x65_S65x128_S4096x128_1_0_0_1_n_n.rhsIdx i q 0).val = (q ⟨0, by decide⟩).val :=
  dot_S4096x65_S65x128_S4096x128_1_0_0_1_n_n.rhsIdx_val_of_single rfl i q
theorem rhsB_col (i : S4096x128.Idx) (q : dot_S4096x65_S65x128_S4096x128_1_0_0_1_n_n.contr.Idx) :
    (dot_S4096x65_S65x128_S4096x128_1_0_0_1_n_n.rhsIdx i q 1).val = (i 1).val := by
  unfold DotDims.rhsIdx
  rw [dif_neg (show ¬(1 : Fin S65x128.rank) ∈ dot_S4096x65_S65x128_S4096x128_1_0_0_1_n_n.rhsBatch by decide), dif_pos (show (1 : Fin S65x128.rank) ∈ dot_S4096x65_S65x128_S4096x128_1_0_0_1_n_n.rhsNonContracting by decide)]
  rfl

/-- The second product into the zero accumulator, entry `(p, q)`: row `p` of the second block against column `q` of the
    second weight block. -/
theorem prodB_apply (x : FVec Ideal S4096x65 .bf16) (w : FVec Ideal S65x128 .bf16) (p : Fin 4096) (q : Fin 128) :
    matmul (F := Ideal) dot_S4096x65_S65x128_S4096x128_1_0_0_1_n_n none x w (constant (F := Ideal) S4096x128 .f32 0x00000000#32) (ix2 p q)
      = ∑ k : Fin 65, x (ix2 p k) * w (ix2 k q) := by
  show FloatOps.matmul dot_S4096x65_S65x128_S4096x128_1_0_0_1_n_n none x w (constant (F := Ideal) S4096x128 .f32 0x00000000#32) (ix2 p q) = _
  rw [Ideal.matmul_constant_zero_apply, ← Equiv.sum_comp (ValueIdx.contrEquiv1 dot_S4096x65_S65x128_S4096x128_1_0_0_1_n_n 65 rfl rfl).symm]
  refine Finset.sum_congr rfl fun k _ => ?_
  have hk := ValueIdx.contrEquiv1_symm_val dot_S4096x65_S65x128_S4096x128_1_0_0_1_n_n 65 rfl rfl k
  have el : dot_S4096x65_S65x128_S4096x128_1_0_0_1_n_n.lhsIdx (ix2 p q) ((ValueIdx.contrEquiv1 dot_S4096x65_S65x128_S4096x128_1_0_0_1_n_n 65 rfl rfl).symm k) = ix2 p k := funext fun a => Fin.ext (by
    match a with
    | ⟨0, _⟩ => exact lhsB_row _ _
    | ⟨1, _⟩ => exact (lhsB_col _ _).trans hk)
  have er : dot_S4096x65_S65x128_S4096x128_1_0_0_1_n_n.rhsIdx (ix2 p q) ((ValueIdx.contrEquiv1 dot_S4096x65_S65x128_S4096x128_1_0_0_1_n_n 65 rfl rfl).symm k) = ix2 k q := funext fun a => Fin.ext (by
    match a with
    | ⟨0, _⟩ => exact (rhsB_row _ _).trans hk
    | ⟨1, _⟩ => exact rhsB_col _ _)
  rw [el, er]

/-! ## What the body stores, at an index -/

/-- The bias row copied down the rows: entry `(p, q)` is the bias entry `q`. -/
theorem bias_rows (b : FVec Ideal S1x128 .f32) (p : Fin 4096) (q : Fin 128) :
    broadcastTo S4096x128 b broadcasts_S1x128_S4096x128 (ix2 p q) = b (ix2 (0 : Fin 1) q) :=
  broadcastTo_apply b broadcasts_S1x128_S4096x128 (ix2 p q) (ix2 (0 : Fin 1) q) (fun a => match a with
    | ⟨0, _⟩ => by show (0 : Nat) = if (1 : Nat) = 1 then 0 else _; rw [if_pos rfl]
    | ⟨1, _⟩ => by show q.val = if (128 : Nat) = 1 then 0 else q.val; rw [if_neg (by decide)])

/-- Entry `(p, q)` of what the body stores: the two inner products and the bias entry. -/
theorem payload_apply (x0 : Vec Ideal S4096x64 .bf16) (w0 : Vec Ideal S64x128 .bf16) (x1 : Vec Ideal S4096x65 .bf16)
    (w1 : Vec Ideal S65x128 .bf16) (b : Vec Ideal S1x128 .f32) (p : Fin 4096) (q : Fin 128) :
    k0_pay1 (F := Ideal) x0 w0 x1 w1 b (ix2 p q)
      = ((∑ k : Fin 64, x0 (ix2 p k) * w0 (ix2 k q)) + ∑ k : Fin 65, x1 (ix2 p k) * w1 (ix2 k q)) + b (ix2 (0 : Fin 1) q) := by
  unfold k0_pay1
  simp only [shapeCast_self]
  rw [addf_apply, addf_apply, prodA_apply, prodB_apply, bias_rows]

/-! ## The blocks, as parts of the arrays -/

/-- Both offsets of a whole-buffer access are zero. -/
theorem zero_offsets : (![0, 0] : Fin 2 → Nat) = fun _ => 0 := funext fun a => by fin_cases a <;> rfl

/-- The index maps over the grid: at point `t` the two row-blocked inputs and the output are at block `(t, 0)`, the two
    weight blocks and the bias row at block `(0, 0)`. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of block `t` is row `4096 t + p` of the whole array. -/
def row (t : Fin cfg0.N) (p : Fin 4096) : Fin 851968 :=
  ⟨4096 * t.val + p.val, by have ht : t.val < 208 := lt_of_lt_of_eq t.isLt N_0; have hp := p.isLt; omega⟩

/-- Where block `t` of the first input sits in its array: a block's coordinate is the block index times the block's
    extent plus the coordinate inside the block. -/
theorem emb_left (t : Fin cfg0.N) (p : Fin 4096) (k : Fin 64) :
    ((cfg0.win 0).blk t).view.emb (ix2 p k) = (ix2 (row t p) k : S851968x64.Idx) := by
  obtain ⟨e0, e1, -⟩ := index_facts t
  funext a; apply Fin.ext
  match a with
  | ⟨0, _⟩ => show win0_0.index t (0 : Fin 2) * 4096 + 1 * p.val = 4096 * t.val + p.val; omega
  | ⟨1, _⟩ => show win0_0.index t (1 : Fin 2) * 64 + 1 * k.val = k.val; omega

/-- Where block `t` of the second input sits in its array. -/
theorem emb_right (t : Fin cfg0.N) (p : Fin 4096) (k : Fin 65) :
    ((cfg0.win 1).blk t).view.emb (ix2 p k) = (ix2 (row t p) k : S851968x65.Idx) := by
  obtain ⟨-, -, e0, e1, -⟩ := index_facts t
  funext a; apply Fin.ext
  match a with
  | ⟨0, _⟩ => show win0_1.index t (0 : Fin 2) * 4096 + 1 * p.val = 4096 * t.val + p.val; omega
  | ⟨1, _⟩ => show win0_1.index t (1 : Fin 2) * 65 + 1 * k.val = k.val; omega

/-- The first weight block is the whole of its array at every point. -/
theorem emb_weightA (t : Fin cfg0.N) (k : Fin 64) (q : Fin 128) :
    ((cfg0.win 2).blk t).view.emb (ix2 k q) = (ix2 k q : S64x128.Idx) := by
  obtain ⟨-, -, -, -, e0, e1, -⟩ := index_facts t
  funext a; apply Fin.ext
  match a with
  | ⟨0, _⟩ => show win0_2.index t (0 : Fin 2) * 64 + 1 * k.val = k.val; omega
  | ⟨1, _⟩ => show win0_2.index t (1 : Fin 2) * 128 + 1 * q.val = q.val; omega

/-- The second weight block is the whole of its array at every point. -/
theorem emb_weightB (t : Fin cfg0.N) (k : Fin 65) (q : Fin 128) :
    ((cfg0.win 3).blk t).view.emb (ix2 k q) = (ix2 k q : S65x128.Idx) := by
  obtain ⟨-, -, -, -, -, -, e0, e1, -⟩ := index_facts t
  funext a; apply Fin.ext
  match a with
  | ⟨0, _⟩ => show win0_3.index t (0 : Fin 2) * 65 + 1 * k.val = k.val; omega
  | ⟨1, _⟩ => show win0_3.index t (1 : Fin 2) * 128 + 1 * q.val = q.val; omega

/-- The bias row is the whole of its array at every point. -/
theorem emb_bias (t : Fin cfg0.N) (z : Fin 1) (q : Fin 128) :
    ((cfg0.win 4).blk t).view.emb (ix2 z q) = (ix2 z q : S1x128.Idx) := by
  obtain ⟨-, -, -, -, -, -, -, -, e0, e1, -⟩ := index_facts t
  funext a; apply Fin.ext
  match a with
  | ⟨0, _⟩ => show win0_4.index t (0 : Fin 2) * 1 + 1 * z.val = z.val; omega
  | ⟨1, _⟩ => show win0_4.index t (1 : Fin 2) * 128 + 1 * q.val = q.val; omega

/-- Where block `t` of the output sits in its array. -/
theorem emb_out (t : Fin cfg0.N) (p : Fin 4096) (q : Fin 128) :
    ((cfg0.win 5).blk t).view.emb (ix2 p q) = (ix2 (row t p) q : S851968x128.Idx) := by
  obtain ⟨-, -, -, -, -, -, -, -, -, -, e0, e1⟩ := index_facts t
  funext a; apply Fin.ext
  match a with
  | ⟨0, _⟩ => show win0_5.index t (0 : Fin 2) * 4096 + 1 * p.val = 4096 * t.val + p.val; omega
  | ⟨1, _⟩ => show win0_5.index t (1 : Fin 2) * 128 + 1 * q.val = q.val; omega

/-- The blocks the body reads at point `t`, entry by entry, as entries of the arrays the region finds. -/
theorem left_rows (c : Dev nD) (t : Fin cfg0.N) (p : Fin 4096) (k : Fin 64) :
    iblk0 V c 0 t (ix2 p k) = V c (Pipeline.arrRef spec0 0) (ix2 (row t p) k) :=
  congrArg (V c (Pipeline.arrRef spec0 0)) (emb_left t p k)
theorem right_rows (c : Dev nD) (t : Fin cfg0.N) (p : Fin 4096) (k : Fin 65) :
    iblk0 V c 1 t (ix2 p k) = V c (Pipeline.arrRef spec0 1) (ix2 (row t p) k) :=
  congrArg (V c (Pipeline.arrRef spec0 1)) (emb_right t p k)
theorem weightA_whole (c : Dev nD) (t : Fin cfg0.N) (k : Fin 64) (q : Fin 128) :
    iblk0 V c 2 t (ix2 k q) = V c (Pipeline.arrRef spec0 2) (ix2 k q) :=
  congrArg (V c (Pipeline.arrRef spec0 2)) (emb_weightA t k q)
theorem weightB_whole (c : Dev nD) (t : Fin cfg0.N) (k : Fin 65) (q : Fin 128) :
    iblk0 V c 3 t (ix2 k q) = V c (Pipeline.arrRef spec0 3) (ix2 k q) :=
  congrArg (V c (Pipeline.arrRef spec0 3)) (emb_weightB t k q)
theorem bias_whole (c : Dev nD) (t : Fin cfg0.N) (z : Fin 1) (q : Fin 128) :
    iblk0 V c 4 t (ix2 z q) = V c (Pipeline.arrRef spec0 4) (ix2 z q) :=
  congrArg (V c (Pipeline.arrRef spec0 4)) (emb_bias t z q)

/-! ## From the blocks to the array -/

/-- Entry `(p, q)` of what the body stores at point `t` is entry `(4096 t + p, q)` of the layer's messages. -/
theorem block_entry (c : Dev nD) (t : Fin cfg0.N) (p : Fin 4096) (q : Fin 128) :
    k0_pay1 (F := Ideal) (iblk0 V c 0 t) (iblk0 V c 2 t) (iblk0 V c 1 t) (iblk0 V c 3 t) (iblk0 V c 4 t) (ix2 p q)
      = Cert.Spec.lin (V c (Pipeline.arrRef spec0 0)) (V c (Pipeline.arrRef spec0 1)) (V c (Pipeline.arrRef spec0 2))
          (V c (Pipeline.arrRef spec0 3)) (V c (Pipeline.arrRef spec0 4)) (ix2 (row t p) q) := by
  rw [payload_apply, Cert.Spec.lin_apply, bias_whole V c t]
  refine congrArg₂ (· + ·) (congrArg₂ (· + ·) (Finset.sum_congr rfl fun k _ => ?_) (Finset.sum_congr rfl fun k _ => ?_)) rfl
  · rw [left_rows V c t, weightA_whole V c t]
  · rw [right_rows V c t, weightB_whole V c t]

/-- What point `t` writes back is block `t` of the layer's messages. -/
theorem block_written (c : Dev nD) (t : Fin cfg0.N) :
    (dat0 (F := Ideal) V c).flushed 5 t = ((cfg0.win 5).blk t).view.read (Elt Ideal)
      (Cert.Spec.lin (V c (Pipeline.arrRef spec0 0)) (V c (Pipeline.arrRef spec0 1)) (V c (Pipeline.arrRef spec0 2))
        (V c (Pipeline.arrRef spec0 3)) (V c (Pipeline.arrRef spec0 4))) := by
  show (cfg0.win 5).cut (grid0.coords t) ((dat0 (F := Ideal) V c).after 5 t) = _
  rw [after0_5]
  unfold out0_5
  rw [View.canon_unit_zero zero_offsets]
  simp only [View.ld_unit_zero (S := S4096x64) zero_offsets, View.ld_unit_zero (S := S4096x65) zero_offsets,
    View.ld_unit_zero (S := S64x128) zero_offsets, View.ld_unit_zero (S := S65x128) zero_offsets,
    View.ld_unit_zero (S := S1x128) zero_offsets]
  refine funext fun (j : S4096x128.Idx) => ?_
  obtain ⟨p, q, rfl⟩ : ∃ (p : Fin 4096) (q : Fin 128), j = ix2 p q := ⟨j 0, j 1, eq_ix2 j⟩
  show k0_pay1 (F := Ideal) (iblk0 V c 0 t) (iblk0 V c 2 t) (iblk0 V c 1 t) (iblk0 V c 3 t) (iblk0 V c 4 t) (ix2 p q)
    = Cert.Spec.lin (V c (Pipeline.arrRef spec0 0)) (V c (Pipeline.arrRef spec0 1)) (V c (Pipeline.arrRef spec0 2))
        (V c (Pipeline.arrRef spec0 3)) (V c (Pipeline.arrRef spec0 4)) (((cfg0.win 5).blk t).view.emb (ix2 p q))
  rw [emb_out, block_entry]

/-- An index of the output array is in point `t`'s block iff each coordinate is in the block's range on its axis. -/
theorem mem_block (t : Fin cfg0.N) (i : S851968x128.Idx) :
    i ∈ ((cfg0.win 5).blk t).view.set ↔ ∀ a : Fin 2, win0_5.index t a * S4096x128.size a ≤ (i a).val ∧ (i a).val < win0_5.index t a * S4096x128.size a + S4096x128.size a := by
  show i ∈ ((View.whole main_v23).slice (win0_5.rect t)).set ↔ _
  rw [View.set_slice_whole, Rect.mem_set_unit]
  exact Iff.rfl

/-- Every row is in some point's block: row `r` in that of point `r / 4096` (`851968 = 208 × 4096`). -/
theorem rows_covered (i : S851968x128.Idx) :
    ∃ t : Fin cfg0.N, (cfg0.win 5).flush t = true ∧ i ∈ ((cfg0.win 5).blk t).view.set := by
  have hi0 : (i 0).val < 851968 := idx2_lt0 i
  have hi1 : (i 1).val < 128 := idx2_lt1 i
  obtain ⟨t, ht⟩ : ∃ t : Fin cfg0.N, t.val = (i 0).val / 4096 :=
    ⟨⟨(i 0).val / 4096, lt_of_lt_of_eq (by omega : (i 0).val / 4096 < 208) N_0.symm⟩, rfl⟩
  obtain ⟨-, -, -, -, -, -, -, -, -, -, e0, e1⟩ := index_facts t
  refine ⟨t, flush0_5 t, ?_⟩
  rw [mem_block]
  intro a
  match a with
  | ⟨0, _⟩ => show win0_5.index t (0 : Fin 2) * 4096 ≤ (i 0).val ∧ (i 0).val < win0_5.index t (0 : Fin 2) * 4096 + 4096; omega
  | ⟨1, _⟩ => show win0_5.index t (1 : Fin 2) * 128 ≤ (i 1).val ∧ (i 1).val < win0_5.index t (1 : Fin 2) * 128 + 128; omega

/-- The output array after the region's last point. -/
theorem arrAt_out (c : Dev nD) :
    (dat0 (F := Ideal) V c).arrAt 5 cfg0.N
      = Cert.Spec.lin (V c (Pipeline.arrRef spec0 0)) (V c (Pipeline.arrRef spec0 1)) (V c (Pipeline.arrRef spec0 2))
          (V c (Pipeline.arrRef spec0 3)) (V c (Pipeline.arrRef spec0 4)) :=
  (dat0 (F := Ideal) V c).arrAt_eq_of_cover 5 _ (fun t _ => block_written V c t) rows_covered

end Cert.KernelIdeal.Region0

end
-- ==== Proof.Region1.lean ====
/- What the accelerator leaves in layer 2's output array: the messages as one function of the five arrays it read.
   The array is written back in 208 blocks of 4096 rows; block `t` holds rows `4096 t … 4096 t + 4095`, and each entry of a
   block is the row's inner product with the first weight block's column, plus the second array's row with the second
   weight block's column, plus the bias entry — the same function of the whole arrays at every block, so the blocks
   together are that function on the whole array. -/
import proofs.«415574_j15994458211317_1_alg».proof.Proof.Gen.KernelIdeal.Frame
import proofs.«415574_j15994458211317_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The two inner products at an index

Each product contracts the left operand's columns against the right operand's rows; the operand indices at output index
`(p, q)` and contraction index `k` are `(p, k)` and `(k, q)`, coordinate by coordinate. -/

theorem lhsA_row (i : S4096x64.Idx) (q : dot_S4096x128_S128x64_S4096x64_1_0_0_1_n_n.contr.Idx) :
    (dot_S4096x128_S128x64_S4096x64_1_0_0_1_n_n.lhsIdx i q 0).val = (i 0).val := by
  unfold DotDims.lhsIdx
  rw [dif_neg (show ¬(0 : Fin S4096x128.rank) ∈ dot_S4096x128_S128x64_S4096x64_1_0_0_1_n_n.lhsBatch by decide), dif_pos (show (0 : Fin S4096x128.rank) ∈ dot_S4096x128_S128x64_S4096x64_1_0_0_1_n_n.lhsNonContracting by decide)]
  rfl
theorem lhsA_col (i : S4096x64.Idx) (q : dot_S4096x128_S128x64_S4096x64_1_0_0_1_n_n.contr.Idx) :
    (dot_S4096x128_S128x64_S4096x64_1_0_0_1_n_n.lhsIdx i q 1).val = (q ⟨0, by decide⟩).val :=
  dot_S4096x128_S128x64_S4096x64_1_0_0_1_n_n.lhsIdx_val_of_single rfl i q
theorem rhsA_row (i : S4096x64.Idx) (q : dot_S4096x128_S128x64_S4096x64_1_0_0_1_n_n.contr.Idx) :
    (dot_S4096x128_S128x64_S4096x64_1_0_0_1_n_n.rhsIdx i q 0).val = (q ⟨0, by decide⟩).val :=
  dot_S4096x128_S128x64_S4096x64_1_0_0_1_n_n.rhsIdx_val_of_single rfl i q
theorem rhsA_col (i : S4096x64.Idx) (q : dot_S4096x128_S128x64_S4096x64_1_0_0_1_n_n.contr.Idx) :
    (dot_S4096x128_S128x64_S4096x64_1_0_0_1_n_n.rhsIdx i q 1).val = (i 1).val := by
  unfold DotDims.rhsIdx
  rw [dif_neg (show ¬(1 : Fin S128x64.rank) ∈ dot_S4096x128_S128x64_S4096x64_1_0_0_1_n_n.rhsBatch by decide), dif_pos (show (1 : Fin S128x64.rank) ∈ dot_S4096x128_S128x64_S4096x64_1_0_0_1_n_n.rhsNonContracting by decide)]
  rfl

/-- The first product into the zero accumulator, entry `(p, q)`: row `p` of the left block against column `q` of the
    first weight block. -/
theorem prodA_apply (x : FVec Ideal S4096x128 .bf16) (w : FVec Ideal S128x64 .bf16) (p : Fin 4096) (q : Fin 64) :
    matmul (F := Ideal) dot_S4096x128_S128x64_S4096x64_1_0_0_1_n_n none x w (constant (F := Ideal) S4096x64 .f32 0x00000000#32) (ix2 p q)
      = ∑ k : Fin 128, x (ix2 p k) * w (ix2 k q) := by
  show FloatOps.matmul dot_S4096x128_S128x64_S4096x64_1_0_0_1_n_n none x w (constant (F := Ideal) S4096x64 .f32 0x00000000#32) (ix2 p q) = _
  rw [Ideal.matmul_constant_zero_apply, ← Equiv.sum_comp (ValueIdx.contrEquiv1 dot_S4096x128_S128x64_S4096x64_1_0_0_1_n_n 128 rfl rfl).symm]
  refine Finset.sum_congr rfl fun k _ => ?_
  have hk := ValueIdx.contrEquiv1_symm_val dot_S4096x128_S128x64_S4096x64_1_0_0_1_n_n 128 rfl rfl k
  have el : dot_S4096x128_S128x64_S4096x64_1_0_0_1_n_n.lhsIdx (ix2 p q) ((ValueIdx.contrEquiv1 dot_S4096x128_S128x64_S4096x64_1_0_0_1_n_n 128 rfl rfl).symm k) = ix2 p k := funext fun a => Fin.ext (by
    match a with
    | ⟨0, _⟩ => exact lhsA_row _ _
    | ⟨1, _⟩ => exact (lhsA_col _ _).trans hk)
  have er : dot_S4096x128_S128x64_S4096x64_1_0_0_1_n_n.rhsIdx (ix2 p q) ((ValueIdx.contrEquiv1 dot_S4096x128_S128x64_S4096x64_1_0_0_1_n_n 128 rfl rfl).symm k) = ix2 k q := funext fun a => Fin.ext (by
    match a with
    | ⟨0, _⟩ => exact (rhsA_row _ _).trans hk
    | ⟨1, _⟩ => exact rhsA_col _ _)
  rw [el, er]

theorem lhsB_row (i : S4096x64.Idx) (q : dot_S4096x129_S129x64_S4096x64_1_0_0_1_n_n.contr.Idx) :
    (dot_S4096x129_S129x64_S4096x64_1_0_0_1_n_n.lhsIdx i q 0).val = (i 0).val := by
  unfold DotDims.lhsIdx
  rw [dif_neg (show ¬(0 : Fin S4096x129.rank) ∈ dot_S4096x129_S129x64_S4096x64_1_0_0_1_n_n.lhsBatch by decide), dif_pos (show (0 : Fin S4096x129.rank) ∈ dot_S4096x129_S129x64_S4096x64_1_0_0_1_n_n.lhsNonContracting by decide)]
  rfl
theorem lhsB_col (i : S4096x64.Idx) (q : dot_S4096x129_S129x64_S4096x64_1_0_0_1_n_n.contr.Idx) :
    (dot_S4096x129_S129x64_S4096x64_1_0_0_1_n_n.lhsIdx i q 1).val = (q ⟨0, by decide⟩).val :=
  dot_S4096x129_S129x64_S4096x64_1_0_0_1_n_n.lhsIdx_val_of_single rfl i q
theorem rhsB_row (i : S4096x64.Idx) (q : dot_S4096x129_S129x64_S4096x64_1_0_0_1_n_n.contr.Idx) :
    (dot_S4096x129_S129x64_S4096x64_1_0_0_1_n_n.rhsIdx i q 0).val = (q ⟨0, by decide⟩).val :=
  dot_S4096x129_S129x64_S4096x64_1_0_0_1_n_n.rhsIdx_val_of_single rfl i q
theorem rhsB_col (i : S4096x64.Idx) (q : dot_S4096x129_S129x64_S4096x64_1_0_0_1_n_n.contr.Idx) :
    (dot_S4096x129_S129x64_S4096x64_1_0_0_1_n_n.rhsIdx i q 1).val = (i 1).val := by
  unfold DotDims.rhsIdx
  rw [dif_neg (show ¬(1 : Fin S129x64.rank) ∈ dot_S4096x129_S129x64_S4096x64_1_0_0_1_n_n.rhsBatch by decide), dif_pos (show (1 : Fin S129x64.rank) ∈ dot_S4096x129_S129x64_S4096x64_1_0_0_1_n_n.rhsNonContracting by decide)]
  rfl

/-- The second product into the zero accumulator, entry `(p, q)`: row `p` of the second block against column `q` of the
    second weight block. -/
theorem prodB_apply (x : FVec Ideal S4096x129 .bf16) (w : FVec Ideal S129x64 .bf16) (p : Fin 4096) (q : Fin 64) :
    matmul (F := Ideal) dot_S4096x129_S129x64_S4096x64_1_0_0_1_n_n none x w (constant (F := Ideal) S4096x64 .f32 0x00000000#32) (ix2 p q)
      = ∑ k : Fin 129, x (ix2 p k) * w (ix2 k q) := by
  show FloatOps.matmul dot_S4096x129_S129x64_S4096x64_1_0_0_1_n_n none x w (constant (F := Ideal) S4096x64 .f32 0x00000000#32) (ix2 p q) = _
  rw [Ideal.matmul_constant_zero_apply, ← Equiv.sum_comp (ValueIdx.contrEquiv1 dot_S4096x129_S129x64_S4096x64_1_0_0_1_n_n 129 rfl rfl).symm]
  refine Finset.sum_congr rfl fun k _ => ?_
  have hk := ValueIdx.contrEquiv1_symm_val dot_S4096x129_S129x64_S4096x64_1_0_0_1_n_n 129 rfl rfl k
  have el : dot_S4096x129_S129x64_S4096x64_1_0_0_1_n_n.lhsIdx (ix2 p q) ((ValueIdx.contrEquiv1 dot_S4096x129_S129x64_S4096x64_1_0_0_1_n_n 129 rfl rfl).symm k) = ix2 p k := funext fun a => Fin.ext (by
    match a with
    | ⟨0, _⟩ => exact lhsB_row _ _
    | ⟨1, _⟩ => exact (lhsB_col _ _).trans hk)
  have er : dot_S4096x129_S129x64_S4096x64_1_0_0_1_n_n.rhsIdx (ix2 p q) ((ValueIdx.contrEquiv1 dot_S4096x129_S129x64_S4096x64_1_0_0_1_n_n 129 rfl rfl).symm k) = ix2 k q := funext fun a => Fin.ext (by
    match a with
    | ⟨0, _⟩ => exact (rhsB_row _ _).trans hk
    | ⟨1, _⟩ => exact rhsB_col _ _)
  rw [el, er]

/-! ## What the body stores, at an index -/

/-- The bias row copied down the rows: entry `(p, q)` is the bias entry `q`. -/
theorem bias_rows (b : FVec Ideal S1x64 .f32) (p : Fin 4096) (q : Fin 64) :
    broadcastTo S4096x64 b broadcasts_S1x64_S4096x64 (ix2 p q) = b (ix2 (0 : Fin 1) q) :=
  broadcastTo_apply b broadcasts_S1x64_S4096x64 (ix2 p q) (ix2 (0 : Fin 1) q) (fun a => match a with
    | ⟨0, _⟩ => by show (0 : Nat) = if (1 : Nat) = 1 then 0 else _; rw [if_pos rfl]
    | ⟨1, _⟩ => by show q.val = if (64 : Nat) = 1 then 0 else q.val; rw [if_neg (by decide)])

/-- Entry `(p, q)` of what the body stores: the two inner products and the bias entry. -/
theorem payload_apply (x0 : Vec Ideal S4096x128 .bf16) (w0 : Vec Ideal S128x64 .bf16) (x1 : Vec Ideal S4096x129 .bf16)
    (w1 : Vec Ideal S129x64 .bf16) (b : Vec Ideal S1x64 .f32) (p : Fin 4096) (q : Fin 64) :
    k1_pay1 (F := Ideal) x0 w0 x1 w1 b (ix2 p q)
      = ((∑ k : Fin 128, x0 (ix2 p k) * w0 (ix2 k q)) + ∑ k : Fin 129, x1 (ix2 p k) * w1 (ix2 k q)) + b (ix2 (0 : Fin 1) q) := by
  unfold k1_pay1
  simp only [shapeCast_self]
  rw [addf_apply, addf_apply, prodA_apply, prodB_apply, bias_rows]

/-! ## The blocks, as parts of the arrays -/

/-- Both offsets of a whole-buffer access are zero. -/
theorem zero_offsets : (![0, 0] : Fin 2 → Nat) = fun _ => 0 := funext fun a => by fin_cases a <;> rfl

/-- The index maps over the grid: at point `t` the two row-blocked inputs and the output are at block `(t, 0)`, the two
    weight blocks and the bias row at block `(0, 0)`. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of block `t` is row `4096 t + p` of the whole array. -/
def row (t : Fin cfg1.N) (p : Fin 4096) : Fin 851968 :=
  ⟨4096 * t.val + p.val, by have ht : t.val < 208 := lt_of_lt_of_eq t.isLt N_1; have hp := p.isLt; omega⟩

/-- Where block `t` of the first input sits in its array: a block's coordinate is the block index times the block's
    extent plus the coordinate inside the block. -/
theorem emb_left (t : Fin cfg1.N) (p : Fin 4096) (k : Fin 128) :
    ((cfg1.win 0).blk t).view.emb (ix2 p k) = (ix2 (row t p) k : S851968x128.Idx) := by
  obtain ⟨e0, e1, -⟩ := index_facts t
  funext a; apply Fin.ext
  match a with
  | ⟨0, _⟩ => show win1_0.index t (0 : Fin 2) * 4096 + 1 * p.val = 4096 * t.val + p.val; omega
  | ⟨1, _⟩ => show win1_0.index t (1 : Fin 2) * 128 + 1 * k.val = k.val; omega

/-- Where block `t` of the second input sits in its array. -/
theorem emb_right (t : Fin cfg1.N) (p : Fin 4096) (k : Fin 129) :
    ((cfg1.win 1).blk t).view.emb (ix2 p k) = (ix2 (row t p) k : S851968x129.Idx) := by
  obtain ⟨-, -, e0, e1, -⟩ := index_facts t
  funext a; apply Fin.ext
  match a with
  | ⟨0, _⟩ => show win1_1.index t (0 : Fin 2) * 4096 + 1 * p.val = 4096 * t.val + p.val; omega
  | ⟨1, _⟩ => show win1_1.index t (1 : Fin 2) * 129 + 1 * k.val = k.val; omega

/-- The first weight block is the whole of its array at every point. -/
theorem emb_weightA (t : Fin cfg1.N) (k : Fin 128) (q : Fin 64) :
    ((cfg1.win 2).blk t).view.emb (ix2 k q) = (ix2 k q : S128x64.Idx) := by
  obtain ⟨-, -, -, -, e0, e1, -⟩ := index_facts t
  funext a; apply Fin.ext
  match a with
  | ⟨0, _⟩ => show win1_2.index t (0 : Fin 2) * 128 + 1 * k.val = k.val; omega
  | ⟨1, _⟩ => show win1_2.index t (1 : Fin 2) * 64 + 1 * q.val = q.val; omega

/-- The second weight block is the whole of its array at every point. -/
theorem emb_weightB (t : Fin cfg1.N) (k : Fin 129) (q : Fin 64) :
    ((cfg1.win 3).blk t).view.emb (ix2 k q) = (ix2 k q : S129x64.Idx) := by
  obtain ⟨-, -, -, -, -, -, e0, e1, -⟩ := index_facts t
  funext a; apply Fin.ext
  match a with
  | ⟨0, _⟩ => show win1_3.index t (0 : Fin 2) * 129 + 1 * k.val = k.val; omega
  | ⟨1, _⟩ => show win1_3.index t (1 : Fin 2) * 64 + 1 * q.val = q.val; omega

/-- The bias row is the whole of its array at every point. -/
theorem emb_bias (t : Fin cfg1.N) (z : Fin 1) (q : Fin 64) :
    ((cfg1.win 4).blk t).view.emb (ix2 z q) = (ix2 z q : S1x64.Idx) := by
  obtain ⟨-, -, -, -, -, -, -, -, e0, e1, -⟩ := index_facts t
  funext a; apply Fin.ext
  match a with
  | ⟨0, _⟩ => show win1_4.index t (0 : Fin 2) * 1 + 1 * z.val = z.val; omega
  | ⟨1, _⟩ => show win1_4.index t (1 : Fin 2) * 64 + 1 * q.val = q.val; omega

/-- Where block `t` of the output sits in its array. -/
theorem emb_out (t : Fin cfg1.N) (p : Fin 4096) (q : Fin 64) :
    ((cfg1.win 5).blk t).view.emb (ix2 p q) = (ix2 (row t p) q : S851968x64.Idx) := by
  obtain ⟨-, -, -, -, -, -, -, -, -, -, e0, e1⟩ := index_facts t
  funext a; apply Fin.ext
  match a with
  | ⟨0, _⟩ => show win1_5.index t (0 : Fin 2) * 4096 + 1 * p.val = 4096 * t.val + p.val; omega
  | ⟨1, _⟩ => show win1_5.index t (1 : Fin 2) * 64 + 1 * q.val = q.val; omega

/-- The blocks the body reads at point `t`, entry by entry, as entries of the arrays the region finds. -/
theorem left_rows (c : Dev nD) (t : Fin cfg1.N) (p : Fin 4096) (k : Fin 128) :
    iblk1 V c 0 t (ix2 p k) = V c (Pipeline.arrRef spec1 0) (ix2 (row t p) k) :=
  congrArg (V c (Pipeline.arrRef spec1 0)) (emb_left t p k)
theorem right_rows (c : Dev nD) (t : Fin cfg1.N) (p : Fin 4096) (k : Fin 129) :
    iblk1 V c 1 t (ix2 p k) = V c (Pipeline.arrRef spec1 1) (ix2 (row t p) k) :=
  congrArg (V c (Pipeline.arrRef spec1 1)) (emb_right t p k)
theorem weightA_whole (c : Dev nD) (t : Fin cfg1.N) (k : Fin 128) (q : Fin 64) :
    iblk1 V c 2 t (ix2 k q) = V c (Pipeline.arrRef spec1 2) (ix2 k q) :=
  congrArg (V c (Pipeline.arrRef spec1 2)) (emb_weightA t k q)
theorem weightB_whole (c : Dev nD) (t : Fin cfg1.N) (k : Fin 129) (q : Fin 64) :
    iblk1 V c 3 t (ix2 k q) = V c (Pipeline.arrRef spec1 3) (ix2 k q) :=
  congrArg (V c (Pipeline.arrRef spec1 3)) (emb_weightB t k q)
theorem bias_whole (c : Dev nD) (t : Fin cfg1.N) (z : Fin 1) (q : Fin 64) :
    iblk1 V c 4 t (ix2 z q) = V c (Pipeline.arrRef spec1 4) (ix2 z q) :=
  congrArg (V c (Pipeline.arrRef spec1 4)) (emb_bias t z q)

/-! ## From the blocks to the array -/

/-- Entry `(p, q)` of what the body stores at point `t` is entry `(4096 t + p, q)` of the layer's messages. -/
theorem block_entry (c : Dev nD) (t : Fin cfg1.N) (p : Fin 4096) (q : Fin 64) :
    k1_pay1 (F := Ideal) (iblk1 V c 0 t) (iblk1 V c 2 t) (iblk1 V c 1 t) (iblk1 V c 3 t) (iblk1 V c 4 t) (ix2 p q)
      = Cert.Spec.lin (V c (Pipeline.arrRef spec1 0)) (V c (Pipeline.arrRef spec1 1)) (V c (Pipeline.arrRef spec1 2))
          (V c (Pipeline.arrRef spec1 3)) (V c (Pipeline.arrRef spec1 4)) (ix2 (row t p) q) := by
  rw [payload_apply, Cert.Spec.lin_apply, bias_whole V c t]
  refine congrArg₂ (· + ·) (congrArg₂ (· + ·) (Finset.sum_congr rfl fun k _ => ?_) (Finset.sum_congr rfl fun k _ => ?_)) rfl
  · rw [left_rows V c t, weightA_whole V c t]
  · rw [right_rows V c t, weightB_whole V c t]

/-- What point `t` writes back is block `t` of the layer's messages. -/
theorem block_written (c : Dev nD) (t : Fin cfg1.N) :
    (dat1 (F := Ideal) V c).flushed 5 t = ((cfg1.win 5).blk t).view.read (Elt Ideal)
      (Cert.Spec.lin (V c (Pipeline.arrRef spec1 0)) (V c (Pipeline.arrRef spec1 1)) (V c (Pipeline.arrRef spec1 2))
        (V c (Pipeline.arrRef spec1 3)) (V c (Pipeline.arrRef spec1 4))) := by
  show (cfg1.win 5).cut (grid1.coords t) ((dat1 (F := Ideal) V c).after 5 t) = _
  rw [after1_5]
  unfold out1_5
  rw [View.canon_unit_zero zero_offsets]
  simp only [View.ld_unit_zero (S := S4096x128) zero_offsets, View.ld_unit_zero (S := S4096x129) zero_offsets,
    View.ld_unit_zero (S := S128x64) zero_offsets, View.ld_unit_zero (S := S129x64) zero_offsets,
    View.ld_unit_zero (S := S1x64) zero_offsets]
  refine funext fun (j : S4096x64.Idx) => ?_
  obtain ⟨p, q, rfl⟩ : ∃ (p : Fin 4096) (q : Fin 64), j = ix2 p q := ⟨j 0, j 1, eq_ix2 j⟩
  show k1_pay1 (F := Ideal) (iblk1 V c 0 t) (iblk1 V c 2 t) (iblk1 V c 1 t) (iblk1 V c 3 t) (iblk1 V c 4 t) (ix2 p q)
    = Cert.Spec.lin (V c (Pipeline.arrRef spec1 0)) (V c (Pipeline.arrRef spec1 1)) (V c (Pipeline.arrRef spec1 2))
        (V c (Pipeline.arrRef spec1 3)) (V c (Pipeline.arrRef spec1 4)) (((cfg1.win 5).blk t).view.emb (ix2 p q))
  rw [emb_out, block_entry]

/-- An index of the output array is in point `t`'s block iff each coordinate is in the block's range on its axis. -/
theorem mem_block (t : Fin cfg1.N) (i : S851968x64.Idx) :
    i ∈ ((cfg1.win 5).blk t).view.set ↔ ∀ a : Fin 2, win1_5.index t a * S4096x64.size a ≤ (i a).val ∧ (i a).val < win1_5.index t a * S4096x64.size a + S4096x64.size a := by
  show i ∈ ((View.whole main_v44).slice (win1_5.rect t)).set ↔ _
  rw [View.set_slice_whole, Rect.mem_set_unit]
  exact Iff.rfl

/-- Every row is in some point's block: row `r` in that of point `r / 4096` (`851968 = 208 × 4096`). -/
theorem rows_covered (i : S851968x64.Idx) :
    ∃ t : Fin cfg1.N, (cfg1.win 5).flush t = true ∧ i ∈ ((cfg1.win 5).blk t).view.set := by
  have hi0 : (i 0).val < 851968 := idx2_lt0 i
  have hi1 : (i 1).val < 64 := idx2_lt1 i
  obtain ⟨t, ht⟩ : ∃ t : Fin cfg1.N, t.val = (i 0).val / 4096 :=
    ⟨⟨(i 0).val / 4096, lt_of_lt_of_eq (by omega : (i 0).val / 4096 < 208) N_1.symm⟩, rfl⟩
  obtain ⟨-, -, -, -, -, -, -, -, -, -, e0, e1⟩ := index_facts t
  refine ⟨t, flush1_5 t, ?_⟩
  rw [mem_block]
  intro a
  match a with
  | ⟨0, _⟩ => show win1_5.index t (0 : Fin 2) * 4096 ≤ (i 0).val ∧ (i 0).val < win1_5.index t (0 : Fin 2) * 4096 + 4096; omega
  | ⟨1, _⟩ => show win1_5.index t (1 : Fin 2) * 64 ≤ (i 1).val ∧ (i 1).val < win1_5.index t (1 : Fin 2) * 64 + 64; omega

/-- The output array after the region's last point. -/
theorem arrAt_out (c : Dev nD) :
    (dat1 (F := Ideal) V c).arrAt 5 cfg1.N
      = Cert.Spec.lin (V c (Pipeline.arrRef spec1 0)) (V c (Pipeline.arrRef spec1 1)) (V c (Pipeline.arrRef spec1 2))
          (V c (Pipeline.arrRef spec1 3)) (V c (Pipeline.arrRef spec1 4)) :=
  (dat1 (F := Ideal) V c).arrAt_eq_of_cover 5 _ (fun t _ => block_written V c t) rows_covered

end Cert.KernelIdeal.Region1

end
-- ==== Proof.KernelHost.lean ====
/- The kernel program's result as a function of its arguments. @main alternates stretches of host operations with the two
   accelerator calls; reading the result buffer back through the stretches gives: the log-softmax of layer 2's aggregated
   messages, those messages the accelerator's function of five arrays prepared from layer 1's node features, and those
   features the aggregated messages of layer 1, prepared the same way from the argument arrays. -/
import proofs.«415574_j15994458211317_1_alg».proof.Proof.Gen.KernelIdeal.Frame
import proofs.«415574_j15994458211317_1_alg».proof.Proof.KStages
import proofs.«415574_j15994458211317_1_alg».proof.Proof.KResult
import proofs.«415574_j15994458211317_1_alg».proof.Proof.Spec
import proofs.«415574_j15994458211317_1_alg».proof.Proof.Region0
import proofs.«415574_j15994458211317_1_alg».proof.Proof.Region1
import Idealize.ShloMosaic.Lib.StableHlo.Run

set_option maxRecDepth 16384

noncomputable section

namespace Cert.KernelIdeal.KernelHost

open Cert.KernelIdeal Cert.KernelIdeal.Gen Cert.KernelIdeal.Stages
open Idealize.ShloMosaic Idealize.ShloMosaic.TcCoe Idealize.SL.Sem Idealize.ShloMosaic.StableHlo

variable {F : FTy → Type} [FloatOps F]

/-! ## A buffer's contents at its own type

A called function's operations read and write the caller's buffers through a change of type that, at each of these buffers,
changes nothing: the buffer's type IS the tensor's. Two such changes in a row undo each other whatever the buffer. -/

/-- Two changes of type that undo each other change nothing. -/
theorem cast_cast_cancel {α β : Type} (h1 : β = α) (h2 : α = β) (a : α) : cast h1 (cast h2 a) = a := by
  subst h2; rfl

theorem read_main_arg0 (h) (v : (main_arg0 : Ref sig .tc).ty.Contents (Elt F)) :
    @cast ((main_arg0 : Ref sig .tc).ty.Contents (Elt F)) ((⟨S50000x64, .f32⟩ : BufTy).Contents (Elt F)) h v = v := rfl
theorem read_main_v6 (h) (v : (main_v6 : Ref sig .tc).ty.Contents (Elt F)) :
    @cast ((main_v6 : Ref sig .tc).ty.Contents (Elt F)) ((⟨S850000, .i32⟩ : BufTy).Contents (Elt F)) h v = v := rfl
theorem read_main_v5 (h) (v : (main_v5 : Ref sig .tc).ty.Contents (Elt F)) :
    @cast ((main_v5 : Ref sig .tc).ty.Contents (Elt F)) ((⟨S850000, .i32⟩ : BufTy).Contents (Elt F)) h v = v := rfl
theorem read_main_c (h) (v : (main_c : Ref sig .tc).ty.Contents (Elt F)) :
    @cast ((main_c : Ref sig .tc).ty.Contents (Elt F)) ((⟨S_, .i32⟩ : BufTy).Contents (Elt F)) h v = v := rfl
theorem read_main_c_0 (h) (v : (main_c_0 : Ref sig .tc).ty.Contents (Elt F)) :
    @cast ((main_c_0 : Ref sig .tc).ty.Contents (Elt F)) ((⟨S_, .i32⟩ : BufTy).Contents (Elt F)) h v = v := rfl
theorem read_main_c_2 (h) (v : (main_c_2 : Ref sig .tc).ty.Contents (Elt F)) :
    @cast ((main_c_2 : Ref sig .tc).ty.Contents (Elt F)) ((⟨S_, .i32⟩ : BufTy).Contents (Elt F)) h v = v := rfl
theorem read_main_c_3 (h) (v : (main_c_3 : Ref sig .tc).ty.Contents (Elt F)) :
    @cast ((main_c_3 : Ref sig .tc).ty.Contents (Elt F)) ((⟨S_, .i32⟩ : BufTy).Contents (Elt F)) h v = v := rfl
theorem read_main_v11 (h) (v : (main_v11 : Ref sig .tc).ty.Contents (Elt F)) :
    @cast ((main_v11 : Ref sig .tc).ty.Contents (Elt F)) ((⟨S850000x65, .f32⟩ : BufTy).Contents (Elt F)) h v = v := rfl
theorem read_main_v27 (h) (v : (main_v27 : Ref sig .tc).ty.Contents (Elt F)) :
    @cast ((main_v27 : Ref sig .tc).ty.Contents (Elt F)) ((⟨S50000x128, .f32⟩ : BufTy).Contents (Elt F)) h v = v := rfl
theorem read_main_v32 (h) (v : (main_v32 : Ref sig .tc).ty.Contents (Elt F)) :
    @cast ((main_v32 : Ref sig .tc).ty.Contents (Elt F)) ((⟨S850000x129, .f32⟩ : BufTy).Contents (Elt F)) h v = v := rfl
theorem read_main_v48 (h) (v : (main_v48 : Ref sig .tc).ty.Contents (Elt F)) :
    @cast ((main_v48 : Ref sig .tc).ty.Contents (Elt F)) ((⟨S50000x64, .f32⟩ : BufTy).Contents (Elt F)) h v = v := rfl
theorem read_main_v9 (h) (v : (main_v9 : Ref sig .tc).ty.Contents (Elt F)) :
    @cast ((main_v9 : Ref sig .tc).ty.Contents (Elt F)) ((⟨S850000x64, .f32⟩ : BufTy).Contents (Elt F)) h v = v := rfl
theorem read_main_v29 (h) (v : (main_v29 : Ref sig .tc).ty.Contents (Elt F)) :
    @cast ((main_v29 : Ref sig .tc).ty.Contents (Elt F)) ((⟨S50000x128, .f32⟩ : BufTy).Contents (Elt F)) h v = v := rfl
theorem read_main_v30 (h) (v : (main_v30 : Ref sig .tc).ty.Contents (Elt F)) :
    @cast ((main_v30 : Ref sig .tc).ty.Contents (Elt F)) ((⟨S850000x128, .f32⟩ : BufTy).Contents (Elt F)) h v = v := rfl
theorem write_main_v10 (h) (v : (⟨S850000x64, .f32⟩ : BufTy).Contents (Elt F)) :
    @cast ((⟨S850000x64, .f32⟩ : BufTy).Contents (Elt F)) ((main_v10 : Ref sig .tc).ty.Contents (Elt F)) h v = v := rfl
theorem write_main_v16 (h) (v : (⟨S851968x64, .f32⟩ : BufTy).Contents (Elt F)) :
    @cast ((⟨S851968x64, .f32⟩ : BufTy).Contents (Elt F)) ((main_v16 : Ref sig .tc).ty.Contents (Elt F)) h v = v := rfl
theorem write_main_v17 (h) (v : (⟨S851968x65, .f32⟩ : BufTy).Contents (Elt F)) :
    @cast ((⟨S851968x65, .f32⟩ : BufTy).Contents (Elt F)) ((main_v17 : Ref sig .tc).ty.Contents (Elt F)) h v = v := rfl
theorem write_main_v31 (h) (v : (⟨S850000x128, .f32⟩ : BufTy).Contents (Elt F)) :
    @cast ((⟨S850000x128, .f32⟩ : BufTy).Contents (Elt F)) ((main_v31 : Ref sig .tc).ty.Contents (Elt F)) h v = v := rfl
theorem write_main_v37 (h) (v : (⟨S851968x128, .f32⟩ : BufTy).Contents (Elt F)) :
    @cast ((⟨S851968x128, .f32⟩ : BufTy).Contents (Elt F)) ((main_v37 : Ref sig .tc).ty.Contents (Elt F)) h v = v := rfl
theorem write_main_v38 (h) (v : (⟨S851968x129, .f32⟩ : BufTy).Contents (Elt F)) :
    @cast ((⟨S851968x129, .f32⟩ : BufTy).Contents (Elt F)) ((main_v38 : Ref sig .tc).ty.Contents (Elt F)) h v = v := rfl
theorem write_main_v50 (h) (v : (⟨S50000x64, .f32⟩ : BufTy).Contents (Elt F)) :
    @cast ((⟨S50000x64, .f32⟩ : BufTy).Contents (Elt F)) ((main_v50 : Ref sig .tc).ty.Contents (Elt F)) h v = v := rfl
theorem write_main_v9 (h) (v : (⟨S850000x64, .f32⟩ : BufTy).Contents (Elt F)) :
    @cast ((⟨S850000x64, .f32⟩ : BufTy).Contents (Elt F)) ((main_v9 : Ref sig .tc).ty.Contents (Elt F)) h v = v := rfl
theorem write_main_v29 (h) (v : (⟨S50000x128, .f32⟩ : BufTy).Contents (Elt F)) :
    @cast ((⟨S50000x128, .f32⟩ : BufTy).Contents (Elt F)) ((main_v29 : Ref sig .tc).ty.Contents (Elt F)) h v = v := rfl
theorem write_main_v30 (h) (v : (⟨S850000x128, .f32⟩ : BufTy).Contents (Elt F)) :
    @cast ((⟨S850000x128, .f32⟩ : BufTy).Contents (Elt F)) ((main_v30 : Ref sig .tc).ty.Contents (Elt F)) h v = v := rfl

/-- Reads a buffer back through a run of host operations: each operation's result at its own buffer, every other buffer kept;
    then the changes of type dropped; what is left is the named value, by unfolding its definition. -/
macro "host_read" : tactic =>
  `(tactic| (after_results_simp
             all_goals (try simp only [TRef.toBuf, TRef.ofBuf, cast_cast_cancel, read_main_arg0, read_main_v6, read_main_v5, read_main_c, read_main_c_0, read_main_c_2, read_main_c_3, read_main_v11, read_main_v27, read_main_v32, read_main_v48, read_main_v9, read_main_v29, read_main_v30, write_main_v10, write_main_v16, write_main_v17, write_main_v31, write_main_v37, write_main_v38, write_main_v50, write_main_v9, write_main_v29, write_main_v30])
             all_goals (try rfl)))

/-! ## The three runs of host operations, from any contents `X` -/

section Stretches

-- a reduction, a row lookup and a scatter are compared operand by operand, never opened
attribute [local irreducible] Host.reduce Host.reduceAdd Host.gather Host.scatterAdd

variable (X : Valuation τ sig (Elt F))

/-- The contents after the host operations that come before the first accelerator call. -/
abbrev before0 : Valuation τ sig (Elt F) :=
  after hostOps0_7 (after hostOps0_6 (after hostOps0_5 (after hostOps0_4 (after hostOps0_3 (after hostOps0_2
    (after hostOps0_1 (after hostOps0 X)))))))

/-- The contents after the host operations between the two accelerator calls. -/
abbrev between : Valuation τ sig (Elt F) :=
  after hostOps1_9 (after hostOps1_8 (after hostOps1_7 (after hostOps1_6 (after hostOps1_5 (after hostOps1_4
    (after hostOps1_3 (after hostOps1_2 (after hostOps1_1 (after hostOps1 X)))))))))

/-- The contents after the host operations that follow the second accelerator call. -/
abbrev after1 : Valuation τ sig (Elt F) := after hostOps2_2 (after hostOps2_1 (after hostOps2 X))

/-! ### Before the first call, in three stages: the lists; the two row lookups; the arrays the call reads -/

theorem s0a_dst : after hostOps0 X (Proc.devRef .tc main_v6)
    = dstIdx (X (Proc.devRef .tc main_arg1)) := by
  host_read
theorem s0a_src : after hostOps0 X (Proc.devRef .tc main_v5)
    = srcIdx (X (Proc.devRef .tc main_arg1)) := by
  host_read
theorem s0a_attr : after hostOps0 X (Proc.devRef .tc main_v8)
    = attr2 (F := F) (X (Proc.devRef .tc main_arg2)) := by
  host_read
theorem s0a_keep_main_arg0 : after hostOps0 X (Proc.devRef .tc main_arg0) = X (Proc.devRef .tc main_arg0) := by
  host_read
theorem s0a_keep_main_arg3 : after hostOps0 X (Proc.devRef .tc main_arg3) = X (Proc.devRef .tc main_arg3) := by
  host_read
theorem s0a_keep_main_arg4 : after hostOps0 X (Proc.devRef .tc main_arg4) = X (Proc.devRef .tc main_arg4) := by
  host_read
theorem s0a_keep_main_arg5 : after hostOps0 X (Proc.devRef .tc main_arg5) = X (Proc.devRef .tc main_arg5) := by
  host_read
theorem s0a_keep_main_arg6 : after hostOps0 X (Proc.devRef .tc main_arg6) = X (Proc.devRef .tc main_arg6) := by
  host_read

set_option maxHeartbeats 1000000 in
theorem s0b_xi : after hostOps0_2 (after hostOps0_1 X) (Proc.devRef .tc main_v9)
    = take64 (F := F) (X (Proc.devRef .tc main_arg0)) (X (Proc.devRef .tc main_v6)) := by
  host_read
set_option maxHeartbeats 1000000 in
theorem s0b_xj : after hostOps0_2 (after hostOps0_1 X) (Proc.devRef .tc main_v10)
    = take64 (F := F) (X (Proc.devRef .tc main_arg0)) (X (Proc.devRef .tc main_v5)) := by
  host_read
theorem s0b_keep_main_v6 : after hostOps0_2 (after hostOps0_1 X) (Proc.devRef .tc main_v6) = X (Proc.devRef .tc main_v6) := by
  host_read
theorem s0b_keep_main_v5 : after hostOps0_2 (after hostOps0_1 X) (Proc.devRef .tc main_v5) = X (Proc.devRef .tc main_v5) := by
  host_read
theorem s0b_keep_main_v8 : after hostOps0_2 (after hostOps0_1 X) (Proc.devRef .tc main_v8) = X (Proc.devRef .tc main_v8) := by
  host_read
theorem s0b_keep_main_arg3 : after hostOps0_2 (after hostOps0_1 X) (Proc.devRef .tc main_arg3) = X (Proc.devRef .tc main_arg3) := by
  host_read
theorem s0b_keep_main_arg4 : after hostOps0_2 (after hostOps0_1 X) (Proc.devRef .tc main_arg4) = X (Proc.devRef .tc main_arg4) := by
  host_read
theorem s0b_keep_main_arg5 : after hostOps0_2 (after hostOps0_1 X) (Proc.devRef .tc main_arg5) = X (Proc.devRef .tc main_arg5) := by
  host_read
theorem s0b_keep_main_arg6 : after hostOps0_2 (after hostOps0_1 X) (Proc.devRef .tc main_arg6) = X (Proc.devRef .tc main_arg6) := by
  host_read

theorem s0c_xi : after hostOps0_7 (after hostOps0_6 (after hostOps0_5 (after hostOps0_4 (after hostOps0_3 X)))) (Proc.devRef .tc main_v18)
    = truncf .bf16 (pad S851968x64 ![0, 0] ![1968, 0] ![0, 0] (X (Proc.devRef .tc main_v9)) (padZero (F := F)) Facts₀.pads_S850000x64_S851968x64_019680_000 Facts₀.h_S_) Facts₀.bitsLt_bf16_f32 := by
  host_read
theorem s0c_xj : after hostOps0_7 (after hostOps0_6 (after hostOps0_5 (after hostOps0_4 (after hostOps0_3 X)))) (Proc.devRef .tc main_v19)
    = truncf .bf16 (pad S851968x65 ![0, 0] ![1968, 0] ![0, 0] (concatenate S850000x65 1 [⟨S850000x64, X (Proc.devRef .tc main_v10)⟩, ⟨S850000x1, X (Proc.devRef .tc main_v8)⟩] Facts₀.concatenates_S850000x64_S850000x1_S850000x65_d1) (padZero (F := F)) Facts₀.pads_S850000x65_S851968x65_019680_000 Facts₀.h_S_) Facts₀.bitsLt_bf16_f32 := by
  host_read
theorem s0c_wi : after hostOps0_7 (after hostOps0_6 (after hostOps0_5 (after hostOps0_4 (after hostOps0_3 X)))) (Proc.devRef .tc main_v20)
    = in1_wi (F := F) (X (Proc.devRef .tc main_arg3)) := by
  host_read
theorem s0c_wj : after hostOps0_7 (after hostOps0_6 (after hostOps0_5 (after hostOps0_4 (after hostOps0_3 X)))) (Proc.devRef .tc main_v21)
    = in1_wj (F := F) (X (Proc.devRef .tc main_arg3)) := by
  host_read
theorem s0c_b : after hostOps0_7 (after hostOps0_6 (after hostOps0_5 (after hostOps0_4 (after hostOps0_3 X)))) (Proc.devRef .tc main_v22)
    = in1_b (F := F) (X (Proc.devRef .tc main_arg4)) := by
  host_read
theorem s0c_keep_main_v6 : after hostOps0_7 (after hostOps0_6 (after hostOps0_5 (after hostOps0_4 (after hostOps0_3 X)))) (Proc.devRef .tc main_v6) = X (Proc.devRef .tc main_v6) := by
  host_read
theorem s0c_keep_main_v5 : after hostOps0_7 (after hostOps0_6 (after hostOps0_5 (after hostOps0_4 (after hostOps0_3 X)))) (Proc.devRef .tc main_v5) = X (Proc.devRef .tc main_v5) := by
  host_read
theorem s0c_keep_main_v8 : after hostOps0_7 (after hostOps0_6 (after hostOps0_5 (after hostOps0_4 (after hostOps0_3 X)))) (Proc.devRef .tc main_v8) = X (Proc.devRef .tc main_v8) := by
  host_read
theorem s0c_keep_main_arg5 : after hostOps0_7 (after hostOps0_6 (after hostOps0_5 (after hostOps0_4 (after hostOps0_3 X)))) (Proc.devRef .tc main_arg5) = X (Proc.devRef .tc main_arg5) := by
  host_read
theorem s0c_keep_main_arg6 : after hostOps0_7 (after hostOps0_6 (after hostOps0_5 (after hostOps0_4 (after hostOps0_3 X)))) (Proc.devRef .tc main_arg6) = X (Proc.devRef .tc main_arg6) := by
  host_read

/-! ### Between the calls, in three stages: the node features; the two row lookups; the arrays the second call reads -/

theorem s1a_h : after hostOps1_2 (after hostOps1_1 (after hostOps1 X)) (Proc.devRef .tc main_v29)
    = hidden (F := F) (X (Proc.devRef .tc main_v6)) (X (Proc.devRef .tc main_v23)) := by
  host_read
theorem s1a_keep_main_v6 : after hostOps1_2 (after hostOps1_1 (after hostOps1 X)) (Proc.devRef .tc main_v6) = X (Proc.devRef .tc main_v6) := by
  host_read
theorem s1a_keep_main_v5 : after hostOps1_2 (after hostOps1_1 (after hostOps1 X)) (Proc.devRef .tc main_v5) = X (Proc.devRef .tc main_v5) := by
  host_read
theorem s1a_keep_main_v8 : after hostOps1_2 (after hostOps1_1 (after hostOps1 X)) (Proc.devRef .tc main_v8) = X (Proc.devRef .tc main_v8) := by
  host_read
theorem s1a_keep_main_arg5 : after hostOps1_2 (after hostOps1_1 (after hostOps1 X)) (Proc.devRef .tc main_arg5) = X (Proc.devRef .tc main_arg5) := by
  host_read
theorem s1a_keep_main_arg6 : after hostOps1_2 (after hostOps1_1 (after hostOps1 X)) (Proc.devRef .tc main_arg6) = X (Proc.devRef .tc main_arg6) := by
  host_read

set_option maxHeartbeats 1000000 in
theorem s1b_xi : after hostOps1_4 (after hostOps1_3 X) (Proc.devRef .tc main_v30)
    = take128 (F := F) (X (Proc.devRef .tc main_v29)) (X (Proc.devRef .tc main_v6)) := by
  host_read
set_option maxHeartbeats 1000000 in
theorem s1b_xj : after hostOps1_4 (after hostOps1_3 X) (Proc.devRef .tc main_v31)
    = take128 (F := F) (X (Proc.devRef .tc main_v29)) (X (Proc.devRef .tc main_v5)) := by
  host_read
theorem s1b_keep_main_v6 : after hostOps1_4 (after hostOps1_3 X) (Proc.devRef .tc main_v6) = X (Proc.devRef .tc main_v6) := by
  host_read
theorem s1b_keep_main_v8 : after hostOps1_4 (after hostOps1_3 X) (Proc.devRef .tc main_v8) = X (Proc.devRef .tc main_v8) := by
  host_read
theorem s1b_keep_main_arg5 : after hostOps1_4 (after hostOps1_3 X) (Proc.devRef .tc main_arg5) = X (Proc.devRef .tc main_arg5) := by
  host_read
theorem s1b_keep_main_arg6 : after hostOps1_4 (after hostOps1_3 X) (Proc.devRef .tc main_arg6) = X (Proc.devRef .tc main_arg6) := by
  host_read

theorem s1c_xi : after hostOps1_9 (after hostOps1_8 (after hostOps1_7 (after hostOps1_6 (after hostOps1_5 X)))) (Proc.devRef .tc main_v39)
    = truncf .bf16 (pad S851968x128 ![0, 0] ![1968, 0] ![0, 0] (X (Proc.devRef .tc main_v30)) (padZero (F := F)) Facts₀.pads_S850000x128_S851968x128_019680_000 Facts₀.h_S_) Facts₀.bitsLt_bf16_f32 := by
  host_read
theorem s1c_xj : after hostOps1_9 (after hostOps1_8 (after hostOps1_7 (after hostOps1_6 (after hostOps1_5 X)))) (Proc.devRef .tc main_v40)
    = truncf .bf16 (pad S851968x129 ![0, 0] ![1968, 0] ![0, 0] (concatenate S850000x129 1 [⟨S850000x128, X (Proc.devRef .tc main_v31)⟩, ⟨S850000x1, X (Proc.devRef .tc main_v8)⟩] Facts₀.concatenates_S850000x128_S850000x1_S850000x129_d1) (padZero (F := F)) Facts₀.pads_S850000x129_S851968x129_019680_000 Facts₀.h_S_) Facts₀.bitsLt_bf16_f32 := by
  host_read
theorem s1c_wi : after hostOps1_9 (after hostOps1_8 (after hostOps1_7 (after hostOps1_6 (after hostOps1_5 X)))) (Proc.devRef .tc main_v41)
    = in2_wi (F := F) (X (Proc.devRef .tc main_arg5)) := by
  host_read
theorem s1c_wj : after hostOps1_9 (after hostOps1_8 (after hostOps1_7 (after hostOps1_6 (after hostOps1_5 X)))) (Proc.devRef .tc main_v42)
    = in2_wj (F := F) (X (Proc.devRef .tc main_arg5)) := by
  host_read
theorem s1c_b : after hostOps1_9 (after hostOps1_8 (after hostOps1_7 (after hostOps1_6 (after hostOps1_5 X)))) (Proc.devRef .tc main_v43)
    = in2_b (F := F) (X (Proc.devRef .tc main_arg6)) := by
  host_read
theorem s1c_keep_main_v6 : after hostOps1_9 (after hostOps1_8 (after hostOps1_7 (after hostOps1_6 (after hostOps1_5 X)))) (Proc.devRef .tc main_v6) = X (Proc.devRef .tc main_v6) := by
  host_read

/-! ### The runs whole, from their stages -/

theorem before0_dst : before0 X (Proc.devRef .tc main_v6)
    = dstIdx (X (Proc.devRef .tc main_arg1)) := by
  unfold before0
  rw [s0c_keep_main_v6, s0b_keep_main_v6, s0a_dst]
theorem before0_src : before0 X (Proc.devRef .tc main_v5)
    = srcIdx (X (Proc.devRef .tc main_arg1)) := by
  unfold before0
  rw [s0c_keep_main_v5, s0b_keep_main_v5, s0a_src]
theorem before0_attr : before0 X (Proc.devRef .tc main_v8)
    = attr2 (F := F) (X (Proc.devRef .tc main_arg2)) := by
  unfold before0
  rw [s0c_keep_main_v8, s0b_keep_main_v8, s0a_attr]
theorem before0_xi : before0 X (Proc.devRef .tc main_v18)
    = in1_xi (F := F) (X (Proc.devRef .tc main_arg0)) (dstIdx (X (Proc.devRef .tc main_arg1))) := by
  unfold before0
  rw [s0c_xi, s0b_xi, s0a_keep_main_arg0, s0a_dst]
  rfl
theorem before0_xj : before0 X (Proc.devRef .tc main_v19)
    = in1_xj (F := F) (X (Proc.devRef .tc main_arg0)) (srcIdx (X (Proc.devRef .tc main_arg1)))
        (attr2 (X (Proc.devRef .tc main_arg2))) := by
  unfold before0
  rw [s0c_xj, s0b_xj, s0b_keep_main_v8, s0a_keep_main_arg0, s0a_src, s0a_attr]
  rfl
theorem before0_wi : before0 X (Proc.devRef .tc main_v20)
    = in1_wi (F := F) (X (Proc.devRef .tc main_arg3)) := by
  unfold before0
  rw [s0c_wi, s0b_keep_main_arg3, s0a_keep_main_arg3]
theorem before0_wj : before0 X (Proc.devRef .tc main_v21)
    = in1_wj (F := F) (X (Proc.devRef .tc main_arg3)) := by
  unfold before0
  rw [s0c_wj, s0b_keep_main_arg3, s0a_keep_main_arg3]
theorem before0_b : before0 X (Proc.devRef .tc main_v22)
    = in1_b (F := F) (X (Proc.devRef .tc main_arg4)) := by
  unfold before0
  rw [s0c_b, s0b_keep_main_arg4, s0a_keep_main_arg4]
theorem before0_w2 : before0 X (Proc.devRef .tc main_arg5)
    = X (Proc.devRef .tc main_arg5) := by
  unfold before0
  rw [s0c_keep_main_arg5, s0b_keep_main_arg5, s0a_keep_main_arg5]
theorem before0_b2 : before0 X (Proc.devRef .tc main_arg6)
    = X (Proc.devRef .tc main_arg6) := by
  unfold before0
  rw [s0c_keep_main_arg6, s0b_keep_main_arg6, s0a_keep_main_arg6]

theorem between_xi : between X (Proc.devRef .tc main_v39)
    = in2_xi (F := F) (hidden (X (Proc.devRef .tc main_v6)) (X (Proc.devRef .tc main_v23))) (X (Proc.devRef .tc main_v6)) := by
  unfold between
  rw [s1c_xi, s1b_xi, s1a_h, s1a_keep_main_v6]
  rfl
theorem between_xj : between X (Proc.devRef .tc main_v40)
    = in2_xj (F := F) (hidden (X (Proc.devRef .tc main_v6)) (X (Proc.devRef .tc main_v23))) (X (Proc.devRef .tc main_v5))
        (X (Proc.devRef .tc main_v8)) := by
  unfold between
  rw [s1c_xj, s1b_xj, s1b_keep_main_v8, s1a_h, s1a_keep_main_v5, s1a_keep_main_v8]
  rfl
theorem between_wi : between X (Proc.devRef .tc main_v41)
    = in2_wi (F := F) (X (Proc.devRef .tc main_arg5)) := by
  unfold between
  rw [s1c_wi, s1b_keep_main_arg5, s1a_keep_main_arg5]
theorem between_wj : between X (Proc.devRef .tc main_v42)
    = in2_wj (F := F) (X (Proc.devRef .tc main_arg5)) := by
  unfold between
  rw [s1c_wj, s1b_keep_main_arg5, s1a_keep_main_arg5]
theorem between_b : between X (Proc.devRef .tc main_v43)
    = in2_b (F := F) (X (Proc.devRef .tc main_arg6)) := by
  unfold between
  rw [s1c_b, s1b_keep_main_arg6, s1a_keep_main_arg6]
theorem between_dst : between X (Proc.devRef .tc main_v6)
    = X (Proc.devRef .tc main_v6) := by
  unfold between
  rw [s1c_keep_main_v6, s1b_keep_main_v6, s1a_keep_main_v6]

/-! After the second call: its messages aggregated, then the log-softmax. -/
set_option maxHeartbeats 2000000 in
theorem after1_result : after1 X (Proc.devRef .tc main_v50)
    = logSoftmax (F := F) (agg2 (X (Proc.devRef .tc main_v6)) (X (Proc.devRef .tc main_v44))) := by
  host_read

end Stretches

/-! ## The result buffer at the last boundary -/

variable (m : (ℓ : Loc nD τ sig) → Buf (Elt Ideal) ℓ) (ρ : Dev nD → PrngReg)

/-- No window of the first call is one of the buffers kept across it. -/
theorem kept0 (b : Ref sig .tc) (hb : b = main_v6 ∨ b = main_v5 ∨ b = main_v8 ∨ b = main_arg5 ∨ b = main_arg6) :
    ∀ w, Pipeline.arrRef spec0 w ≠ b := by
  intro w
  rcases hb with rfl | rfl | rfl | rfl | rfl <;> fin_cases w <;> decide

/-- No window of the second call is the target list's buffer. -/
theorem kept1 : ∀ w, Pipeline.arrRef spec1 w ≠ main_v6 := by
  intro w; fin_cases w <;> decide

/-- The first call's output array: the layer's messages from the argument arrays. -/
theorem W9_msg (c : Dev nD) : W9 m ρ c (Proc.devRef .tc main_v23)
    = Cert.Spec.lin (in1_xi (F := Ideal) (m ((c : Thread nD τ).loc main_arg0)) (dstIdx (m ((c : Thread nD τ).loc main_arg1))))
        (in1_xj (F := Ideal) (m ((c : Thread nD τ).loc main_arg0)) (srcIdx (m ((c : Thread nD τ).loc main_arg1))) (attr2 (F := Ideal) (m ((c : Thread nD τ).loc main_arg2))))
        (in1_wi (F := Ideal) (m ((c : Thread nD τ).loc main_arg3))) (in1_wj (F := Ideal) (m ((c : Thread nD τ).loc main_arg3))) (in1_b (F := Ideal) (m ((c : Thread nD τ).loc main_arg4))) := by
  have h := (W9_arr m ρ c 5).trans (Region0.arrAt_out (V8 m ρ) c)
  have e0 : V8 m ρ c (Pipeline.arrRef spec0 0) = _ := before0_xi (F := Ideal) (W0 m ρ c)
  have e1 : V8 m ρ c (Pipeline.arrRef spec0 1) = _ := before0_xj (F := Ideal) (W0 m ρ c)
  have e2 : V8 m ρ c (Pipeline.arrRef spec0 2) = _ := before0_wi (F := Ideal) (W0 m ρ c)
  have e3 : V8 m ρ c (Pipeline.arrRef spec0 3) = _ := before0_wj (F := Ideal) (W0 m ρ c)
  have e4 : V8 m ρ c (Pipeline.arrRef spec0 4) = _ := before0_b (F := Ideal) (W0 m ρ c)
  rw [e0, e1, e2, e3, e4] at h
  exact h

/-- THE RESULT: the buffer @main returns, at the last boundary, is the kernel's result function of the arguments. -/
theorem W23_result (c : Dev nD) : W23 m ρ c (Proc.devRef .tc main_v50)
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  -- what the first call's exit holds of the buffers the later stretches read
  have k6 : W9 m ρ c (Proc.devRef .tc main_v6) = dstIdx (m ((c : Thread nD τ).loc main_arg1)) :=
    (W9_of_ne m ρ c main_v6 (kept0 _ (.inl rfl))).trans (before0_dst (F := Ideal) (W0 m ρ c))
  have k5 : W9 m ρ c (Proc.devRef .tc main_v5) = srcIdx (m ((c : Thread nD τ).loc main_arg1)) :=
    (W9_of_ne m ρ c main_v5 (kept0 _ (.inr (.inl rfl)))).trans (before0_src (F := Ideal) (W0 m ρ c))
  have k8 : W9 m ρ c (Proc.devRef .tc main_v8) = attr2 (F := Ideal) (m ((c : Thread nD τ).loc main_arg2)) :=
    (W9_of_ne m ρ c main_v8 (kept0 _ (.inr (.inr (.inl rfl))))).trans (before0_attr (F := Ideal) (W0 m ρ c))
  have kw : W9 m ρ c (Proc.devRef .tc main_arg5) = m ((c : Thread nD τ).loc main_arg5) :=
    (W9_of_ne m ρ c main_arg5 (kept0 _ (.inr (.inr (.inr (.inl rfl)))))).trans (before0_w2 (F := Ideal) (W0 m ρ c))
  have kb : W9 m ρ c (Proc.devRef .tc main_arg6) = m ((c : Thread nD τ).loc main_arg6) :=
    (W9_of_ne m ρ c main_arg6 (kept0 _ (.inr (.inr (.inr (.inr rfl)))))).trans (before0_b2 (F := Ideal) (W0 m ρ c))
  -- the second call's output array
  have h1 := (W20_arr m ρ c 5).trans (Region1.arrAt_out (V19 m ρ) c)
  have e0 : V19 m ρ c (Pipeline.arrRef spec1 0) = _ := between_xi (F := Ideal) (W9 m ρ c)
  have e1 : V19 m ρ c (Pipeline.arrRef spec1 1) = _ := between_xj (F := Ideal) (W9 m ρ c)
  have e2 : V19 m ρ c (Pipeline.arrRef spec1 2) = _ := between_wi (F := Ideal) (W9 m ρ c)
  have e3 : V19 m ρ c (Pipeline.arrRef spec1 3) = _ := between_wj (F := Ideal) (W9 m ρ c)
  have e4 : V19 m ρ c (Pipeline.arrRef spec1 4) = _ := between_b (F := Ideal) (W9 m ρ c)
  rw [e0, e1, e2, e3, e4, k6, k5, k8, kw, kb, W9_msg m ρ c] at h1
  -- the target list at the second call's exit
  have d20 : W20 m ρ c (Proc.devRef .tc main_v6) = dstIdx (m ((c : Thread nD τ).loc main_arg1)) :=
    ((W20_of_ne m ρ c main_v6 kept1).trans (between_dst (F := Ideal) (W9 m ρ c))).trans k6
  have h := after1_result (F := Ideal) (W20 m ρ c)
  rw [d20] at h
  refine h.trans ?_
  unfold result hidden1
  exact congrArg (fun z => logSoftmax (F := Ideal) (agg2 (dstIdx (m ((c : Thread nD τ).loc main_arg1))) z)) h1

end Cert.KernelIdeal.KernelHost

end
-- ==== Proof.IndexRange.lean ====
/- The precondition's last conjunct says every entry of the edge list is a node number, `0 ≤ e < 50000`. The messages'
   source and target lists are a row of the edge list followed by the node numbers `0 … 49999` themselves, so they too hold
   node numbers only. -/
import proofs.«415574_j15994458211317_1_alg».proof.Proof.KStages
import proofs.«415574_j15994458211317_1_alg».proof.Pre_finite_inputs
import Idealize.ShloMosaic.Lib.ValueIdx
import Idealize.ShloMosaic.Lib.Pipeline.Value
import Idealize.ShloMosaic.Lib.StableHlo.Predicate
import Idealize.ShloMosaic.Lib.ReduceAll

noncomputable section

namespace Cert.KernelIdeal.Stages

open Cert.KernelIdeal Idealize.ShloMosaic Idealize.ShloMosaic.ValueIdx

variable [Facts] [Cert.Pre_finite_inputs.Facts]

/-- Under the precondition every entry of the edge list is a node number: the precondition's last conjunct is the AND, over
    all entries `e`, of `0 ≤ e` and `e < 50000` read as signed words. -/
theorem entry_of_pre (x0 : FVec Ideal S50000x64 .f32) (ei : IVec S2x800000 32) (x2 : FVec Ideal S800000x1 .f32)
    (x3 : FVec Ideal S129x128 .f32) (x4 : FVec Ideal S128 .f32) (x5 : FVec Ideal S257x64 .f32) (x6 : FVec Ideal S64 .f32)
    (h : Cert.Pre_finite_inputs.fn (F := Ideal) x0 ei x2 x3 x4 x5 x6 = fun _ => 1#1) (k : S2x800000.Idx) :
    0 ≤ (ei k).toInt ∧ (ei k).toInt < 50000 := by
  haveI : Subsingleton Cert.Pre_finite_inputs.S_.Idx := ⟨fun a b => funext fun d => d.elim0⟩
  have h0 := congrFun h ValueIdx.ix0
  dsimp only [Cert.Pre_finite_inputs.fn, Cert.Pre_finite_inputs.fn_part1, Cert.Pre_finite_inputs.fn_part2] at h0
  have h1 := (IntOp.andi_eq_one.1 h0).2
  have h2 := Host.reduce_andi_all _ _ _ _ _ h1 k
  have h3 : IntOp.andi (IntOp.cmpi .sge (ei k) 0#32) (IntOp.cmpi .slt (ei k) 50000#32) = 1#1 := h2
  obtain ⟨ha, hb⟩ := IntOp.andi_eq_one.1 h3
  have ha' := IntOp.cmpi_sge.1 ha
  have hb' := IntOp.cmpi_slt.1 hb
  have e0 : (0#32 : BitVec 32).toInt = 0 := by decide
  have e1 : (50000#32 : BitVec 32).toInt = 50000 := by decide
  omega

/-- A list made of a row of the edge list followed by the numbers `0 … 49999` holds node numbers only, when every entry of
    the edge list is one. -/
theorem inRange_concat (row : IVec S800000 32) (hrow : ∀ j, 0 ≤ (row j).toInt ∧ (row j).toInt < 50000) :
    InRange (concatenate S850000 0 [⟨S800000, row⟩, ⟨S50000, iotaInDim S50000 32 0⟩] Facts₀.concatenates_S800000_S50000_S850000_d0) := by
  intro i
  have hlt : (i 0).val < 850000 := (i 0).isLt
  by_cases hc : (i 0).val < 800000
  · -- an edge's entry
    rw [concatenate_pair_apply_left (0 : Fin 1) row (iotaInDim S50000 32 0) _ i rfl (Shape.Idx.ofFin ⟨(i 0).val, hc⟩)
      (fun b => by have hb : b = 0 := Subsingleton.elim _ _; subst hb; rfl)]
    exact hrow _
  · -- a self loop's node number
    have hn : (i 0).val - 800000 < 50000 := by omega
    rw [concatenate_pair_apply_right (0 : Fin 1) row (iotaInDim S50000 32 0) _ i rfl rfl (Shape.Idx.ofFin ⟨(i 0).val - 800000, hn⟩)
      (fun b hb => absurd (Subsingleton.elim _ _) hb)
      (by show ((i 0).val - 800000) + 800000 = (i 0).val; omega)]
    show 0 ≤ (BitVec.ofNat 32 ((i 0).val - 800000)).toInt ∧ (BitVec.ofNat 32 ((i 0).val - 800000)).toInt < 50000
    rw [StableHlo.Predicate.toInt_ofNat_small _ (by omega)]
    omega

/-- Under the precondition the messages' target list and source list hold node numbers only. -/
theorem inRange_of_pre (x0 : FVec Ideal S50000x64 .f32) (ei : IVec S2x800000 32) (x2 : FVec Ideal S800000x1 .f32)
    (x3 : FVec Ideal S129x128 .f32) (x4 : FVec Ideal S128 .f32) (x5 : FVec Ideal S257x64 .f32) (x6 : FVec Ideal S64 .f32)
    (h : Cert.Pre_finite_inputs.fn (F := Ideal) x0 ei x2 x3 x4 x5 x6 = fun _ => 1#1) :
    InRange (dstIdx ei) ∧ InRange (srcIdx ei) := by
  have he := entry_of_pre x0 ei x2 x3 x4 x5 x6 h
  exact ⟨inRange_concat _ (fun j => he _), inRange_concat _ (fun j => he _)⟩

end Cert.KernelIdeal.Stages

end
-- ==== Proof.TakeGather.lean ====
/- A row lookup that fills the rows whose number is no row of the table is the plain lookup when every number IS a row:
   a node number `0 ≤ v < 50000` is not negative, so it is not moved, and it passes both range tests, so no row is filled. -/
import proofs.«415574_j15994458211317_1_alg».proof.Proof.KStages
import Idealize.ShloMosaic.Lib.ValueIdx
import Idealize.ShloMosaic.Lib.StableHlo.Predicate
import Idealize.ShloMosaic.Lib.ReduceAll

noncomputable section

namespace Cert.KernelIdeal.Stages

open Cert.KernelIdeal Idealize.ShloMosaic Idealize.ShloMosaic.ValueIdx

variable {F : FTy → Type} [FloatOps F] [Facts]
open Facts₀ Facts

/-- A left fold by `and` from 1 over one-bit words that are all 1 is 1. -/
theorem foldl_andi_all_one {ι : Type} (f : ι → BitVec 1) (hf : ∀ n, f n = 1#1) :
    ∀ l : List ι, l.foldl (fun r n => IntOp.andi r (f n)) 1#1 = 1#1
  | [] => rfl
  | a :: l => by
    have e : IntOp.andi 1#1 (f a) = 1#1 := by rw [hf a]; decide
    rw [List.foldl_cons, e]
    exact foldl_andi_all_one f hf l

/-- A word that is a node number is not negative, so the wrap leaves it as it is. -/
theorem wrap_word (a : BitVec 32) (h0 : 0 ≤ a.toInt) :
    Scalar.select (IntOp.cmpi .slt a 0#32) (IntOp.addi a 50000#32) a = a := by
  have hc : IntOp.cmpi .slt a 0#32 = 0#1 := by
    apply eq_zero_of_ne_one
    rw [IntOp.cmpi_slt]
    have : (0#32 : BitVec 32).toInt = 0 := by decide
    omega
  rw [hc, select_zero]

/-- A word that is a node number passes both range tests. -/
theorem range_word (a : BitVec 32) (h0 : 0 ≤ a.toInt) (h1 : a.toInt < 50000) :
    IntOp.andi (IntOp.cmpi .sge a 0#32) (IntOp.cmpi .sle a 49999#32) = 1#1 := by
  rw [IntOp.andi_eq_one, IntOp.cmpi_sge, IntOp.cmpi_sle]
  have e0 : (0#32 : BitVec 32).toInt = 0 := by decide
  have e1 : (49999#32 : BitVec 32).toInt = 49999 := by decide
  omega

/-- A vector kept as a one-column matrix reads, at row `r`, the vector at `r`. -/
theorem col_apply {α : Type} (h : S850000.BroadcastsInDim S850000x1 (![0] : Fin 1 → Fin S850000x1.rank))
    (x : S850000.Idx → α) (i : S850000x1.Idx) :
    broadcastInDim S850000x1 ![0] h x i = x (Shape.Idx.ofFin (i 0)) := by
  unfold broadcastInDim
  congr 1
  funext a
  have ha : a = 0 := Subsingleton.elim _ _
  subst ha
  apply Fin.ext
  split
  · next h1 => exact absurd h1 (by decide)
  · rfl

/-- The wrapped column at row `r` is the wrap of the word at `r`. -/
theorem wrapIdx_apply (v : IVec S850000 32) (i : S850000x1.Idx) :
    wrapIdx v i = Scalar.select (IntOp.cmpi .slt (v (Shape.Idx.ofFin (i 0))) 0#32)
      (IntOp.addi (v (Shape.Idx.ofFin (i 0))) 50000#32) (v (Shape.Idx.ofFin (i 0))) := by
  unfold wrapIdx
  rw [col_apply]
  rfl

/-- For node numbers the wrapped column at row `r` is the word at `r`. -/
theorem wrapIdx_of_inRange (v : IVec S850000 32) (hv : InRange v) (i : S850000x1.Idx) :
    wrapIdx v i = v (Shape.Idx.ofFin (i 0)) := by
  rw [wrapIdx_apply, wrap_word _ (hv _).1]

/-- Node numbers that are nodes pass the row test, every one. -/
theorem rowOk_of_inRange (v : IVec S850000 32) (hv : InRange v) : rowOk (wrapIdx v) = fun _ => 1#1 := by
  funext r
  unfold rowOk
  rw [Host.reduce_eq_foldl]
  refine foldl_andi_all_one _ (fun i => ?_) _
  show IntOp.andi (IntOp.cmpi .sge (wrapIdx v i) 0#32) (IntOp.cmpi .sle (wrapIdx v i) 49999#32) = 1#1
  rw [wrapIdx_of_inRange v hv i]
  exact range_word _ (hv _).1 (hv _).2

/-- With every number a row, no row is filled (64 columns). -/
theorem take64_eq_gather (x : FVec F S50000x64 .f32) (v : IVec S850000 32) (hv : InRange v) :
    take64 x v = Host.gather gather_S50000x64_S850000x1_S850000x64_1_0_n_n_0_1_164 x (wrapIdx v) := by
  funext i
  unfold take64
  rw [select_apply, rowOk_of_inRange v hv]
  exact select_one _ _

/-- With every number a row, no row is filled (128 columns). -/
theorem take128_eq_gather (x : FVec F S50000x128 .f32) (v : IVec S850000 32) (hv : InRange v) :
    take128 x v = Host.gather gather_S50000x128_S850000x1_S850000x128_1_0_n_n_0_1_1128 x (wrapIdx v) := by
  funext i
  unfold take128
  rw [select_apply, rowOk_of_inRange v hv]
  exact select_one _ _

end Cert.KernelIdeal.Stages

end
-- ==== Proof.LayerK1.lean ====
/- Layer 1's messages as the accelerator computes them are the layer's messages written out over the weight's three row
   blocks. The accelerator reads the target rows and the source-and-attribute rows padded with zero rows (the padding rows'
   messages are cut off again), in a narrower float format (the same extended real), and the weight as its first 64 rows and
   its last 65; the 65-term inner product is the source block's 64 terms and the attribute's one. -/
import proofs.«415574_j15994458211317_1_alg».proof.Proof.KStages
import proofs.«415574_j15994458211317_1_alg».proof.Proof.Spec
import Idealize.ShloMosaic.Lib.ValueIdx
import Idealize.ShloMosaic.Lib.ValueLayout
import Idealize.ShloMosaic.Lib.Pipeline.Value
import Idealize.ShloMosaic.Lib.KernelVsHost

noncomputable section

open scoped BigOperators

namespace Cert.KernelIdeal.Stages

open Cert.KernelIdeal Idealize.ShloMosaic Idealize.ShloMosaic.ValueIdx

variable [Facts]
open Facts₀ Facts

/-! ## The arrays read entry by entry -/

/-- Row `r` of the padded target rows is row `r` of the target rows: the padding lies behind them. -/
theorem l1_xi_read (xi : FVec Ideal S850000x64 .f32) (r : Fin 850000) (k : Fin 64) (r' : Fin 851968) (hr : r'.val = r.val) :
    truncf .bf16 (pad S851968x64 ![0, 0] ![1968, 0] ![0, 0] xi (padZero (F := Ideal)) pads_S850000x64_S851968x64_019680_000 h_S_)
      bitsLt_bf16_f32 (ix2 r' k) = xi (ix2 r k) :=
  (truncf_apply (ψ := .bf16) _ bitsLt_bf16_f32 _).trans (pad_apply_of_inside _ _ _ _ _ _ _ _ (ix2 r k) (fun a => by
    match a with
    | ⟨0, _⟩ => show r'.val = 0 + r.val * (0 + 1); omega
    | ⟨1, _⟩ => show k.val = 0 + k.val * (0 + 1); omega))

/-- Row `r` of the padded source-and-attribute rows, at one of its first 64 columns, is the source row's entry. -/
theorem l1_xje_read_left (xj : FVec Ideal S850000x64 .f32) (e : FVec Ideal S850000x1 .f32) (r : Fin 850000) (k : Fin 64)
    (r' : Fin 851968) (hr : r'.val = r.val) :
    truncf .bf16 (pad S851968x65 ![0, 0] ![1968, 0] ![0, 0]
        (concatenate S850000x65 1 [⟨S850000x64, xj⟩, ⟨S850000x1, e⟩] concatenates_S850000x64_S850000x1_S850000x65_d1)
        (padZero (F := Ideal)) pads_S850000x65_S851968x65_019680_000 h_S_) bitsLt_bf16_f32 (ix2 r' k.castSucc)
      = xj (ix2 r k) := by
  refine (truncf_apply (ψ := .bf16) _ bitsLt_bf16_f32 _).trans
    ((pad_apply_of_inside _ _ _ _ _ _ _ _ (ix2 r k.castSucc) (fun a => by
      match a with
      | ⟨0, _⟩ => show r'.val = 0 + r.val * (0 + 1); omega
      | ⟨1, _⟩ => show k.val = 0 + k.val * (0 + 1); omega)).trans ?_)
  exact concatenate_pair_apply_left (t := S850000x65) (s₁ := S850000x64) (s₂ := S850000x1) (1 : Fin 2) xj e
    concatenates_S850000x64_S850000x1_S850000x65_d1 _ rfl (ix2 r k) (fun b => by
      match b with
      | ⟨0, _⟩ => rfl
      | ⟨1, _⟩ => rfl)

/-- Row `r` of the padded source-and-attribute rows, at its last column, is the attribute. -/
theorem l1_xje_read_right (xj : FVec Ideal S850000x64 .f32) (e : FVec Ideal S850000x1 .f32) (r : Fin 850000)
    (r' : Fin 851968) (hr : r'.val = r.val) :
    truncf .bf16 (pad S851968x65 ![0, 0] ![1968, 0] ![0, 0]
        (concatenate S850000x65 1 [⟨S850000x64, xj⟩, ⟨S850000x1, e⟩] concatenates_S850000x64_S850000x1_S850000x65_d1)
        (padZero (F := Ideal)) pads_S850000x65_S851968x65_019680_000 h_S_) bitsLt_bf16_f32 (ix2 r' (Fin.last 64))
      = e (ix2 r (0 : Fin 1)) := by
  refine (truncf_apply (ψ := .bf16) _ bitsLt_bf16_f32 _).trans
    ((pad_apply_of_inside _ _ _ _ _ _ _ _ (ix2 r (Fin.last 64)) (fun a => by
      match a with
      | ⟨0, _⟩ => show r'.val = 0 + r.val * (0 + 1); omega
      | ⟨1, _⟩ => show 64 = 0 + 64 * (0 + 1); omega)).trans ?_)
  exact concatenate_pair_apply_right (t := S850000x65) (s₁ := S850000x64) (s₂ := S850000x1) (1 : Fin 2) xj e
    concatenates_S850000x64_S850000x1_S850000x65_d1 _ rfl rfl (ix2 r (0 : Fin 1)) (fun b hb => by
      match b, hb with
      | ⟨0, _⟩, _ => rfl
      | ⟨1, _⟩, hb => exact absurd rfl hb) rfl

/-- The first weight block is the weight's rows `0 … 63`. -/
theorem l1_wi_read (w : FVec Ideal S129x128 .f32) (k : Fin 64) (j : Fin 128) (k' : Fin 129) (hk : k'.val = k.val) :
    in1_wi w (ix2 k j) = w (ix2 k' j) :=
  (truncf_apply (ψ := .bf16) _ bitsLt_bf16_f32 _).trans
    (slice2_axis0_apply 0 w slices_S129x128_S64x128_0_0 k j k' (by omega))

/-- The second weight block's first 64 rows are the weight's rows `64 … 127`. -/
theorem l1_wj_read_left (w : FVec Ideal S129x128 .f32) (k : Fin 64) (j : Fin 128) (k' : Fin 129) (hk : k'.val = 64 + k.val) :
    in1_wj w (ix2 k.castSucc j) = w (ix2 k' j) := by
  refine (truncf_apply (ψ := .bf16) _ bitsLt_bf16_f32 _).trans
    ((concatenate_pair_apply_left (t := S65x128) (s₁ := S64x128) (s₂ := S1x128) (0 : Fin 2) _ _
      concatenates_S64x128_S1x128_S65x128_d0 _ rfl (ix2 k j) (fun b => by
        match b with
        | ⟨0, _⟩ => rfl
        | ⟨1, _⟩ => rfl)).trans ?_)
  exact slice2_axis0_apply 64 w slices_S129x128_S64x128_64_0 k j k' hk

/-- The second weight block's last row is the weight's row `128`. -/
theorem l1_wj_read_right (w : FVec Ideal S129x128 .f32) (j : Fin 128) (k' : Fin 129) (hk : k'.val = 128) :
    in1_wj w (ix2 (Fin.last 64) j) = w (ix2 k' j) := by
  refine (truncf_apply (ψ := .bf16) _ bitsLt_bf16_f32 _).trans
    ((concatenate_pair_apply_right (t := S65x128) (s₁ := S64x128) (s₂ := S1x128) (0 : Fin 2) _ _
      concatenates_S64x128_S1x128_S65x128_d0 _ rfl rfl (ix2 (0 : Fin 1) j) (fun b hb => by
        match b, hb with
        | ⟨0, _⟩, hb => exact absurd rfl hb
        | ⟨1, _⟩, _ => rfl) rfl).trans ?_)
  exact slice2_axis0_apply 128 w slices_S129x128_S1x128_128_0 (0 : Fin 1) j k' (by show k'.val = 128 + 0; omega)

/-- The bias row's entry `j` is the bias's entry `j`. -/
theorem l1_b_read (b : FVec Ideal S128 .f32) (j : Fin 128) : in1_b b (ix2 (0 : Fin 1) j) = b (ix1 j) :=
  shapeCast_a_1a_apply b shapeCasts_S128_S1x128 (0 : Fin 1) j

/-! ## The inner product over the last block: its first terms and its last -/

/-- A sum of `n + 1` terms whose first `n` are `g` and whose last is `c`. -/
theorem l1_sum_split {n : Nat} (f : Fin (n + 1) → EReal) (g : Fin n → EReal) (c : EReal)
    (hg : ∀ k : Fin n, f k.castSucc = g k) (hc : f (Fin.last n) = c) : ∑ k, f k = (∑ k, g k) + c := by
  rw [Fin.sum_univ_castSucc, hc, Finset.sum_congr rfl fun k _ => hg k]

/-- The layer's messages at an index given by its coordinates. -/
theorem l1_msgs_apply (xi xj : FVec Ideal S850000x64 .f32) (e : FVec Ideal S850000x1 .f32) (w : FVec Ideal S129x128 .f32)
    (b : FVec Ideal S128 .f32) (r : Fin 850000) (j : Fin 128) :
    Cert.Spec.msgs (K := 129) rfl xi xj e w b (ix2 r j)
      = (((∑ k : Fin 64, xi (ix2 r k) * w (ix2 (⟨k.val, by omega⟩ : Fin 129) j))
          + ∑ k : Fin 64, xj (ix2 r k) * w (ix2 (⟨64 + k.val, by omega⟩ : Fin 129) j))
        + e (ix2 r (0 : Fin 1)) * w (ix2 (⟨64 + 64, by omega⟩ : Fin 129) j)) + b (ix1 j) := rfl

theorem layer1_kernel (xi xj : FVec Ideal S850000x64 .f32) (e : FVec Ideal S850000x1 .f32) (w : FVec Ideal S129x128 .f32)
    (b : FVec Ideal S128 .f32) :
    extractStridedSlice S850000x128 ![0, 0]
      (Cert.Spec.lin
        (truncf .bf16 (pad S851968x64 ![0, 0] ![1968, 0] ![0, 0] xi (padZero (F := Ideal)) pads_S850000x64_S851968x64_019680_000 h_S_) bitsLt_bf16_f32)
        (truncf .bf16 (pad S851968x65 ![0, 0] ![1968, 0] ![0, 0]
          (concatenate S850000x65 1 [⟨S850000x64, xj⟩, ⟨S850000x1, e⟩] concatenates_S850000x64_S850000x1_S850000x65_d1)
          (padZero (F := Ideal)) pads_S850000x65_S851968x65_019680_000 h_S_) bitsLt_bf16_f32)
        (in1_wi w) (in1_wj w) (in1_b b)) slices_S851968x128_S850000x128_0_0
      = Cert.Spec.msgs (K := 129) rfl xi xj e w b := by
  funext i
  obtain ⟨r, j, rfl⟩ : ∃ (r : Fin 850000) (j : Fin 128), i = ix2 r j := ⟨i 0, i 1, eq_ix2 i⟩
  have hr' : r.val < 851968 := by omega
  -- the cut keeps row `r` of the padded result
  refine (slice2_axis0_apply 0 _ slices_S851968x128_S850000x128_0_0 r j (⟨r.val, hr'⟩ : Fin 851968)
    (Nat.zero_add _).symm).trans ?_
  rw [Cert.Spec.lin_apply, l1_msgs_apply]
  -- the first inner product: the target's features against the weight's rows `0 … 63`
  have h0 : ∀ k : Fin 64,
      truncf .bf16 (pad S851968x64 ![0, 0] ![1968, 0] ![0, 0] xi (padZero (F := Ideal)) pads_S850000x64_S851968x64_019680_000 h_S_)
          bitsLt_bf16_f32 (ix2 (⟨r.val, hr'⟩ : Fin 851968) k) * in1_wi w (ix2 k j)
        = xi (ix2 r k) * w (ix2 (⟨k.val, by omega⟩ : Fin 129) j) := fun k => by
    rw [l1_xi_read xi r k ⟨r.val, hr'⟩ rfl, l1_wi_read w k j ⟨k.val, by omega⟩ rfl]
  -- the second: its first 64 terms are the source's features against rows `64 … 127`, its last the attribute against row `128`
  have h1 := l1_sum_split
    (fun k : Fin 65 =>
      truncf .bf16 (pad S851968x65 ![0, 0] ![1968, 0] ![0, 0]
          (concatenate S850000x65 1 [⟨S850000x64, xj⟩, ⟨S850000x1, e⟩] concatenates_S850000x64_S850000x1_S850000x65_d1)
          (padZero (F := Ideal)) pads_S850000x65_S851968x65_019680_000 h_S_) bitsLt_bf16_f32 (ix2 (⟨r.val, hr'⟩ : Fin 851968) k)
        * in1_wj w (ix2 k j))
    (fun k : Fin 64 => xj (ix2 r k) * w (ix2 (⟨64 + k.val, by omega⟩ : Fin 129) j))
    (e (ix2 r (0 : Fin 1)) * w (ix2 (⟨64 + 64, by omega⟩ : Fin 129) j))
    (fun k => by
      show _ * _ = _ * _
      rw [l1_xje_read_left xj e r k ⟨r.val, hr'⟩ rfl, l1_wj_read_left w k j ⟨64 + k.val, by omega⟩ rfl])
    (by
      show _ * _ = _ * _
      rw [l1_xje_read_right xj e r ⟨r.val, hr'⟩ rfl, l1_wj_read_right w j ⟨64 + 64, by omega⟩ rfl])
  rw [Finset.sum_congr rfl fun k _ => h0 k, h1, l1_b_read, ← add_assoc]

end Cert.KernelIdeal.Stages

end
-- ==== Proof.LayerK2.lean ====
/- Layer 2's messages as the accelerator computes them are the layer's messages written out over the weight's three row
   blocks. The accelerator reads the target rows and the source-and-attribute rows padded with zero rows (the padding rows'
   messages are cut off again), in a narrower float format (the same extended real), and the weight as its first 128 rows and
   its last 129; the 129-term inner product is the source block's 128 terms and the attribute's one. -/
import proofs.«415574_j15994458211317_1_alg».proof.Proof.KStages
import proofs.«415574_j15994458211317_1_alg».proof.Proof.Spec
import Idealize.ShloMosaic.Lib.ValueIdx
import Idealize.ShloMosaic.Lib.ValueLayout
import Idealize.ShloMosaic.Lib.Pipeline.Value
import Idealize.ShloMosaic.Lib.KernelVsHost

noncomputable section

open scoped BigOperators

namespace Cert.KernelIdeal.Stages

open Cert.KernelIdeal Idealize.ShloMosaic Idealize.ShloMosaic.ValueIdx

variable [Facts]
open Facts₀ Facts

/-! ## The arrays read entry by entry -/

/-- Row `r` of the padded target rows is row `r` of the target rows: the padding lies behind them. -/
theorem l2_xi_read (xi : FVec Ideal S850000x128 .f32) (r : Fin 850000) (k : Fin 128) (r' : Fin 851968) (hr : r'.val = r.val) :
    truncf .bf16 (pad S851968x128 ![0, 0] ![1968, 0] ![0, 0] xi (padZero (F := Ideal)) pads_S850000x128_S851968x128_019680_000 h_S_)
      bitsLt_bf16_f32 (ix2 r' k) = xi (ix2 r k) :=
  (truncf_apply (ψ := .bf16) _ bitsLt_bf16_f32 _).trans (pad_apply_of_inside _ _ _ _ _ _ _ _ (ix2 r k) (fun a => by
    match a with
    | ⟨0, _⟩ => show r'.val = 0 + r.val * (0 + 1); omega
    | ⟨1, _⟩ => show k.val = 0 + k.val * (0 + 1); omega))

/-- Row `r` of the padded source-and-attribute rows, at one of its first 128 columns, is the source row's entry. -/
theorem l2_xje_read_left (xj : FVec Ideal S850000x128 .f32) (e : FVec Ideal S850000x1 .f32) (r : Fin 850000) (k : Fin 128)
    (r' : Fin 851968) (hr : r'.val = r.val) :
    truncf .bf16 (pad S851968x129 ![0, 0] ![1968, 0] ![0, 0]
        (concatenate S850000x129 1 [⟨S850000x128, xj⟩, ⟨S850000x1, e⟩] concatenates_S850000x128_S850000x1_S850000x129_d1)
        (padZero (F := Ideal)) pads_S850000x129_S851968x129_019680_000 h_S_) bitsLt_bf16_f32 (ix2 r' k.castSucc)
      = xj (ix2 r k) := by
  refine (truncf_apply (ψ := .bf16) _ bitsLt_bf16_f32 _).trans
    ((pad_apply_of_inside _ _ _ _ _ _ _ _ (ix2 r k.castSucc) (fun a => by
      match a with
      | ⟨0, _⟩ => show r'.val = 0 + r.val * (0 + 1); omega
      | ⟨1, _⟩ => show k.val = 0 + k.val * (0 + 1); omega)).trans ?_)
  exact concatenate_pair_apply_left (t := S850000x129) (s₁ := S850000x128) (s₂ := S850000x1) (1 : Fin 2) xj e
    concatenates_S850000x128_S850000x1_S850000x129_d1 _ rfl (ix2 r k) (fun b => by
      match b with
      | ⟨0, _⟩ => rfl
      | ⟨1, _⟩ => rfl)

/-- Row `r` of the padded source-and-attribute rows, at its last column, is the attribute. -/
theorem l2_xje_read_right (xj : FVec Ideal S850000x128 .f32) (e : FVec Ideal S850000x1 .f32) (r : Fin 850000)
    (r' : Fin 851968) (hr : r'.val = r.val) :
    truncf .bf16 (pad S851968x129 ![0, 0] ![1968, 0] ![0, 0]
        (concatenate S850000x129 1 [⟨S850000x128, xj⟩, ⟨S850000x1, e⟩] concatenates_S850000x128_S850000x1_S850000x129_d1)
        (padZero (F := Ideal)) pads_S850000x129_S851968x129_019680_000 h_S_) bitsLt_bf16_f32 (ix2 r' (Fin.last 128))
      = e (ix2 r (0 : Fin 1)) := by
  refine (truncf_apply (ψ := .bf16) _ bitsLt_bf16_f32 _).trans
    ((pad_apply_of_inside _ _ _ _ _ _ _ _ (ix2 r (Fin.last 128)) (fun a => by
      match a with
      | ⟨0, _⟩ => show r'.val = 0 + r.val * (0 + 1); omega
      | ⟨1, _⟩ => show 128 = 0 + 128 * (0 + 1); omega)).trans ?_)
  exact concatenate_pair_apply_right (t := S850000x129) (s₁ := S850000x128) (s₂ := S850000x1) (1 : Fin 2) xj e
    concatenates_S850000x128_S850000x1_S850000x129_d1 _ rfl rfl (ix2 r (0 : Fin 1)) (fun b hb => by
      match b, hb with
      | ⟨0, _⟩, _ => rfl
      | ⟨1, _⟩, hb => exact absurd rfl hb) rfl

/-- The first weight block is the weight's rows `0 … 127`. -/
theorem l2_wi_read (w : FVec Ideal S257x64 .f32) (k : Fin 128) (j : Fin 64) (k' : Fin 257) (hk : k'.val = k.val) :
    in2_wi w (ix2 k j) = w (ix2 k' j) :=
  (truncf_apply (ψ := .bf16) _ bitsLt_bf16_f32 _).trans
    (slice2_axis0_apply 0 w slices_S257x64_S128x64_0_0 k j k' (by omega))

/-- The second weight block's first 128 rows are the weight's rows `128 … 255`. -/
theorem l2_wj_read_left (w : FVec Ideal S257x64 .f32) (k : Fin 128) (j : Fin 64) (k' : Fin 257) (hk : k'.val = 128 + k.val) :
    in2_wj w (ix2 k.castSucc j) = w (ix2 k' j) := by
  refine (truncf_apply (ψ := .bf16) _ bitsLt_bf16_f32 _).trans
    ((concatenate_pair_apply_left (t := S129x64) (s₁ := S128x64) (s₂ := S1x64) (0 : Fin 2) _ _
      concatenates_S128x64_S1x64_S129x64_d0 _ rfl (ix2 k j) (fun b => by
        match b with
        | ⟨0, _⟩ => rfl
        | ⟨1, _⟩ => rfl)).trans ?_)
  exact slice2_axis0_apply 128 w slices_S257x64_S128x64_128_0 k j k' hk

/-- The second weight block's last row is the weight's row `256`. -/
theorem l2_wj_read_right (w : FVec Ideal S257x64 .f32) (j : Fin 64) (k' : Fin 257) (hk : k'.val = 256) :
    in2_wj w (ix2 (Fin.last 128) j) = w (ix2 k' j) := by
  refine (truncf_apply (ψ := .bf16) _ bitsLt_bf16_f32 _).trans
    ((concatenate_pair_apply_right (t := S129x64) (s₁ := S128x64) (s₂ := S1x64) (0 : Fin 2) _ _
      concatenates_S128x64_S1x64_S129x64_d0 _ rfl rfl (ix2 (0 : Fin 1) j) (fun b hb => by
        match b, hb with
        | ⟨0, _⟩, hb => exact absurd rfl hb
        | ⟨1, _⟩, _ => rfl) rfl).trans ?_)
  exact slice2_axis0_apply 256 w slices_S257x64_S1x64_256_0 (0 : Fin 1) j k' (by show k'.val = 256 + 0; omega)

/-- The bias row's entry `j` is the bias's entry `j`. -/
theorem l2_b_read (b : FVec Ideal S64 .f32) (j : Fin 64) : in2_b b (ix2 (0 : Fin 1) j) = b (ix1 j) :=
  shapeCast_a_1a_apply b shapeCasts_S64_S1x64 (0 : Fin 1) j

/-! ## The inner product over the last block: its first terms and its last -/

/-- A sum of `n + 1` terms whose first `n` are `g` and whose last is `c`. -/
theorem l2_sum_split {n : Nat} (f : Fin (n + 1) → EReal) (g : Fin n → EReal) (c : EReal)
    (hg : ∀ k : Fin n, f k.castSucc = g k) (hc : f (Fin.last n) = c) : ∑ k, f k = (∑ k, g k) + c := by
  rw [Fin.sum_univ_castSucc, hc, Finset.sum_congr rfl fun k _ => hg k]

/-- The layer's messages at an index given by its coordinates. -/
theorem l2_msgs_apply (xi xj : FVec Ideal S850000x128 .f32) (e : FVec Ideal S850000x1 .f32) (w : FVec Ideal S257x64 .f32)
    (b : FVec Ideal S64 .f32) (r : Fin 850000) (j : Fin 64) :
    Cert.Spec.msgs (K := 257) rfl xi xj e w b (ix2 r j)
      = (((∑ k : Fin 128, xi (ix2 r k) * w (ix2 (⟨k.val, by omega⟩ : Fin 257) j))
          + ∑ k : Fin 128, xj (ix2 r k) * w (ix2 (⟨128 + k.val, by omega⟩ : Fin 257) j))
        + e (ix2 r (0 : Fin 1)) * w (ix2 (⟨128 + 128, by omega⟩ : Fin 257) j)) + b (ix1 j) := rfl

theorem layer2_kernel (xi xj : FVec Ideal S850000x128 .f32) (e : FVec Ideal S850000x1 .f32) (w : FVec Ideal S257x64 .f32)
    (b : FVec Ideal S64 .f32) :
    extractStridedSlice S850000x64 ![0, 0]
      (Cert.Spec.lin
        (truncf .bf16 (pad S851968x128 ![0, 0] ![1968, 0] ![0, 0] xi (padZero (F := Ideal)) pads_S850000x128_S851968x128_019680_000 h_S_) bitsLt_bf16_f32)
        (truncf .bf16 (pad S851968x129 ![0, 0] ![1968, 0] ![0, 0]
          (concatenate S850000x129 1 [⟨S850000x128, xj⟩, ⟨S850000x1, e⟩] concatenates_S850000x128_S850000x1_S850000x129_d1)
          (padZero (F := Ideal)) pads_S850000x129_S851968x129_019680_000 h_S_) bitsLt_bf16_f32)
        (in2_wi w) (in2_wj w) (in2_b b)) slices_S851968x64_S850000x64_0_0
      = Cert.Spec.msgs (K := 257) rfl xi xj e w b := by
  funext i
  obtain ⟨r, j, rfl⟩ : ∃ (r : Fin 850000) (j : Fin 64), i = ix2 r j := ⟨i 0, i 1, eq_ix2 i⟩
  have hr' : r.val < 851968 := by omega
  -- the cut keeps row `r` of the padded result
  refine (slice2_axis0_apply 0 _ slices_S851968x64_S850000x64_0_0 r j (⟨r.val, hr'⟩ : Fin 851968)
    (Nat.zero_add _).symm).trans ?_
  rw [Cert.Spec.lin_apply, l2_msgs_apply]
  -- the first inner product: the target's features against the weight's rows `0 … 127`
  have h0 : ∀ k : Fin 128,
      truncf .bf16 (pad S851968x128 ![0, 0] ![1968, 0] ![0, 0] xi (padZero (F := Ideal)) pads_S850000x128_S851968x128_019680_000 h_S_)
          bitsLt_bf16_f32 (ix2 (⟨r.val, hr'⟩ : Fin 851968) k) * in2_wi w (ix2 k j)
        = xi (ix2 r k) * w (ix2 (⟨k.val, by omega⟩ : Fin 257) j) := fun k => by
    rw [l2_xi_read xi r k ⟨r.val, hr'⟩ rfl, l2_wi_read w k j ⟨k.val, by omega⟩ rfl]
  -- the second: its first 128 terms are the source's features against rows `128 … 255`, its last the attribute against row `256`
  have h1 := l2_sum_split
    (fun k : Fin 129 =>
      truncf .bf16 (pad S851968x129 ![0, 0] ![1968, 0] ![0, 0]
          (concatenate S850000x129 1 [⟨S850000x128, xj⟩, ⟨S850000x1, e⟩] concatenates_S850000x128_S850000x1_S850000x129_d1)
          (padZero (F := Ideal)) pads_S850000x129_S851968x129_019680_000 h_S_) bitsLt_bf16_f32 (ix2 (⟨r.val, hr'⟩ : Fin 851968) k)
        * in2_wj w (ix2 k j))
    (fun k : Fin 128 => xj (ix2 r k) * w (ix2 (⟨128 + k.val, by omega⟩ : Fin 257) j))
    (e (ix2 r (0 : Fin 1)) * w (ix2 (⟨128 + 128, by omega⟩ : Fin 257) j))
    (fun k => by
      show _ * _ = _ * _
      rw [l2_xje_read_left xj e r k ⟨r.val, hr'⟩ rfl, l2_wj_read_left w k j ⟨128 + k.val, by omega⟩ rfl])
    (by
      show _ * _ = _ * _
      rw [l2_xje_read_right xj e r ⟨r.val, hr'⟩ rfl, l2_wj_read_right w j ⟨128 + 128, by omega⟩ rfl])
  rw [Finset.sum_congr rfl fun k _ => h0 k, h1, l2_b_read, ← add_assoc]

end Cert.KernelIdeal.Stages

end
-- ==== Proof.LayerR.lean ====
/- The reference's messages of each layer are the layer's messages written out over the weight's three row blocks: its one
   long inner product, over the row [target features | source features | attribute], splits at the block borders. -/
import proofs.«415574_j15994458211317_1_alg».proof.Proof.RefRead
import proofs.«415574_j15994458211317_1_alg».proof.Proof.Spec
import Idealize.ShloMosaic.Lib.ValueIdx
import Idealize.ShloMosaic.Lib.Pipeline.Value

noncomputable section

open scoped BigOperators

namespace Cert.ReferenceIdeal.LayerR

open Cert.ReferenceIdeal Cert.ReferenceIdeal.ReadP Idealize.ShloMosaic Idealize.ShloMosaic.ValueIdx

/-- A sum over `C + C + 1` terms is the sum of the first `C`, the sum of the next `C`, and the last term. -/
theorem sum_split {C : Nat} (f : Fin (C + C + 1) → EReal) :
    ∑ k : Fin (C + C + 1), f k
      = ((∑ k : Fin C, f ⟨k.val, by omega⟩) + ∑ k : Fin C, f ⟨C + k.val, by omega⟩) + f ⟨C + C, by omega⟩ := by
  rw [Fin.sum_univ_castSucc, Fin.sum_univ_add]
  rfl

section Cat3

variable {R C K : Nat} (xi xj : (⟨2, ![R, C]⟩ : Shape).Idx → EReal) (e : (⟨2, ![R, 1]⟩ : Shape).Idx → EReal)
  (hc : Shape.Concatenates [(⟨2, ![R, C]⟩ : Shape), ⟨2, ![R, C]⟩, ⟨2, ![R, 1]⟩] ⟨2, ![R, K]⟩ 1)

/-- The row `[xi | xj | e]` at a column of the first block is `xi` there. -/
theorem cat3_first (r : Fin R) (k : Fin C) (hk : k.val < K) :
    concatenate (⟨2, ![R, K]⟩ : Shape) 1 [⟨⟨2, ![R, C]⟩, xi⟩, ⟨⟨2, ![R, C]⟩, xj⟩, ⟨⟨2, ![R, 1]⟩, e⟩] hc (ix2 r ⟨k.val, hk⟩)
      = xi (ix2 r k) :=
  concatenate_apply_piece (t := ⟨2, ![R, K]⟩) 1 [⟨⟨2, ![R, C]⟩, xi⟩, ⟨⟨2, ![R, C]⟩, xj⟩, ⟨⟨2, ![R, 1]⟩, e⟩] hc _ 0 (Nat.zero_lt_succ _) _ xi rfl rfl 0 rfl (ix2 r k)
    (fun b hb => match b with
      | ⟨0, _⟩ => rfl
      | ⟨1, _⟩ => absurd rfl hb)
    (Nat.zero_add _)

/-- The row `[xi | xj | e]` at a column of the second block is `xj` at the column less `C`. -/
theorem cat3_second (r : Fin R) (k : Fin C) (hk : C + k.val < K) :
    concatenate (⟨2, ![R, K]⟩ : Shape) 1 [⟨⟨2, ![R, C]⟩, xi⟩, ⟨⟨2, ![R, C]⟩, xj⟩, ⟨⟨2, ![R, 1]⟩, e⟩] hc (ix2 r ⟨C + k.val, hk⟩)
      = xj (ix2 r k) :=
  concatenate_apply_piece (t := ⟨2, ![R, K]⟩) 1 [⟨⟨2, ![R, C]⟩, xi⟩, ⟨⟨2, ![R, C]⟩, xj⟩, ⟨⟨2, ![R, 1]⟩, e⟩] hc _ 1 (Nat.succ_lt_succ (Nat.zero_lt_succ _)) _ xj rfl rfl C rfl (ix2 r k)
    (fun b hb => match b with
      | ⟨0, _⟩ => rfl
      | ⟨1, _⟩ => absurd rfl hb)
    rfl

/-- The row `[xi | xj | e]` at its last column, `C + C`, is `e`. -/
theorem cat3_third (r : Fin R) (hk : C + C < K) :
    concatenate (⟨2, ![R, K]⟩ : Shape) 1 [⟨⟨2, ![R, C]⟩, xi⟩, ⟨⟨2, ![R, C]⟩, xj⟩, ⟨⟨2, ![R, 1]⟩, e⟩] hc (ix2 r ⟨C + C, hk⟩)
      = e (ix2 r (0 : Fin 1)) :=
  concatenate_apply_piece (t := ⟨2, ![R, K]⟩) 1 [⟨⟨2, ![R, C]⟩, xi⟩, ⟨⟨2, ![R, C]⟩, xj⟩, ⟨⟨2, ![R, 1]⟩, e⟩] hc _ 2 (Nat.succ_lt_succ (Nat.succ_lt_succ (Nat.zero_lt_succ _))) _ e rfl rfl (C + C) rfl (ix2 r (0 : Fin 1))
    (fun b hb => match b with
      | ⟨0, _⟩ => rfl
      | ⟨1, _⟩ => absurd rfl hb)
    (Nat.add_zero _)

end Cat3

/-- The layer's messages at an index given by its coordinates. -/
theorem msgs_apply {R C H K : Nat} (hK : K = C + C + 1) (xi xj : (⟨2, ![R, C]⟩ : Shape).Idx → EReal)
    (e : (⟨2, ![R, 1]⟩ : Shape).Idx → EReal) (w : (⟨2, ![K, H]⟩ : Shape).Idx → EReal)
    (b : (⟨1, ![H]⟩ : Shape).Idx → EReal) (r : Fin R) (j : Fin H) :
    Cert.Spec.msgs hK xi xj e w b (ix2 r j)
      = (((∑ k : Fin C, xi (ix2 r k) * w (ix2 ⟨k.val, by omega⟩ j)) + ∑ k : Fin C, xj (ix2 r k) * w (ix2 ⟨C + k.val, by omega⟩ j))
          + e (ix2 r (0 : Fin 1)) * w (ix2 ⟨C + C, by omega⟩ j)) + b (ix1 j) := rfl

/-- One long inner product of the row `[xi | xj | e]` with a column of the weight, plus the bias, is the layer's message:
    the sum splits at the two block borders, and in each block the row is the block's own array. -/
theorem dot_cat3_eq_msgs {R C H K : Nat} (hK : K = C + C + 1) (xi xj : (⟨2, ![R, C]⟩ : Shape).Idx → EReal)
    (e : (⟨2, ![R, 1]⟩ : Shape).Idx → EReal) (w : (⟨2, ![K, H]⟩ : Shape).Idx → EReal)
    (b : (⟨1, ![H]⟩ : Shape).Idx → EReal)
    (hc : Shape.Concatenates [(⟨2, ![R, C]⟩ : Shape), ⟨2, ![R, C]⟩, ⟨2, ![R, 1]⟩] ⟨2, ![R, K]⟩ 1) (r : Fin R) (j : Fin H) :
    (∑ k : Fin K, concatenate (⟨2, ![R, K]⟩ : Shape) 1 [⟨⟨2, ![R, C]⟩, xi⟩, ⟨⟨2, ![R, C]⟩, xj⟩, ⟨⟨2, ![R, 1]⟩, e⟩] hc (ix2 r k)
        * w (ix2 k j)) + b (ix1 j)
      = Cert.Spec.msgs hK xi xj e w b (ix2 r j) := by
  subst hK
  rw [msgs_apply, sum_split]
  simp only [cat3_first, cat3_second, cat3_third]

/-! ## The generated index functions at an index given by its coordinates -/

theorem lidx24 (r : Fin 850000) (j : Fin 128) (k : Fin 129) : lidx_main_v24 (ix2 r j) k = ix2 r k := by
  funext a; match a with | ⟨0, _⟩ => rfl | ⟨1, _⟩ => rfl
theorem ridx24 (r : Fin 850000) (j : Fin 128) (k : Fin 129) : ridx_main_v24 (ix2 r j) k = ix2 k j := by
  funext a; match a with | ⟨0, _⟩ => rfl | ⟨1, _⟩ => rfl
theorem bidx26 (r : Fin 850000) (j : Fin 128) : idx_main_v25 (idx_main_v26 (ix2 r j)) = ix1 j := by
  funext a; match a with | ⟨0, _⟩ => rfl
/-- Layer 1's inner product at message `r`, column `j`, over the row's and the weight column's entries. -/
theorem dot_reindex24 (y : S850000x129.Idx → EReal) (w : S129x128.Idx → EReal) (r : Fin 850000) (j : Fin 128) :
    (∑ k : Fin 129, y (lidx_main_v24 (ix2 r j) k) * w (ridx_main_v24 (ix2 r j) k)) = ∑ k : Fin 129, y (ix2 r k) * w (ix2 k j) :=
  Finset.sum_congr rfl (fun k _ => by rw [lidx24, ridx24])

theorem lidx53 (r : Fin 850000) (j : Fin 64) (k : Fin 257) : lidx_main_v53 (ix2 r j) k = ix2 r k := by
  funext a; match a with | ⟨0, _⟩ => rfl | ⟨1, _⟩ => rfl
theorem ridx53 (r : Fin 850000) (j : Fin 64) (k : Fin 257) : ridx_main_v53 (ix2 r j) k = ix2 k j := by
  funext a; match a with | ⟨0, _⟩ => rfl | ⟨1, _⟩ => rfl
theorem bidx55 (r : Fin 850000) (j : Fin 64) : idx_main_v54 (idx_main_v55 (ix2 r j)) = ix1 j := by
  funext a; match a with | ⟨0, _⟩ => rfl
/-- Layer 2's inner product at message `r`, column `j`, over the row's and the weight column's entries. -/
theorem dot_reindex53 (y : S850000x257.Idx → EReal) (w : S257x64.Idx → EReal) (r : Fin 850000) (j : Fin 64) :
    (∑ k : Fin 257, y (lidx_main_v53 (ix2 r j) k) * w (ridx_main_v53 (ix2 r j) k)) = ∑ k : Fin 257, y (ix2 r k) * w (ix2 k j) :=
  Finset.sum_congr rfl (fun k _ => by rw [lidx53, ridx53])

/-- Layer 1. -/
theorem layer1_reference (x0 : FVec Ideal S50000x64 .f32) (x1 : IVec S2x800000 32) (x2 : FVec Ideal S800000x1 .f32)
    (x3 : FVec Ideal S129x128 .f32) (x4 : FVec Ideal S128 .f32) :
    val_main_v27 (F := Ideal) x0 x1 x2 x3 x4
      = Cert.Spec.msgs (K := 129) rfl (val_main_v15 (F := Ideal) x0 x1) (val_main_v22 (F := Ideal) x0 x1) (val_main_v8 (F := Ideal) x2) x3 x4 := by
  funext i
  obtain ⟨r, j, rfl⟩ : ∃ (r : Fin 850000) (j : Fin 128), i = ix2 r j := ⟨i 0, i 1, eq_ix2 i⟩
  rw [val_main_v27_apply, val_main_v24_apply, dot_reindex24 (val_main_v23 (F := Ideal) x0 x1 x2) x3 r j, val_main_v26_apply,
    val_main_v25_apply, bidx26]
  unfold val_main_v23
  generalize val_main_v15 (F := Ideal) x0 x1 = A
  generalize val_main_v22 (F := Ideal) x0 x1 = B
  generalize val_main_v8 (F := Ideal) x2 = E
  exact dot_cat3_eq_msgs (K := 129) rfl A B E x3 x4 _ r j

/-- Layer 2. -/
theorem layer2_reference (x0 : FVec Ideal S50000x64 .f32) (x1 : IVec S2x800000 32) (x2 : FVec Ideal S800000x1 .f32)
    (x3 : FVec Ideal S129x128 .f32) (x4 : FVec Ideal S128 .f32) (x5 : FVec Ideal S257x64 .f32) (x6 : FVec Ideal S64 .f32) :
    val_main_v56 (F := Ideal) x0 x1 x2 x3 x4 x5 x6
      = Cert.Spec.msgs (K := 257) rfl (val_main_v44 (F := Ideal) x0 x1 x2 x3 x4) (val_main_v51 (F := Ideal) x0 x1 x2 x3 x4)
          (val_main_v37 (F := Ideal) x2) x5 x6 := by
  funext i
  obtain ⟨r, j, rfl⟩ : ∃ (r : Fin 850000) (j : Fin 64), i = ix2 r j := ⟨i 0, i 1, eq_ix2 i⟩
  rw [val_main_v56_apply, val_main_v53_apply, dot_reindex53 (val_main_v52 (F := Ideal) x0 x1 x2 x3 x4) x5 r j, val_main_v55_apply,
    val_main_v54_apply, bidx55]
  unfold val_main_v52
  generalize val_main_v44 (F := Ideal) x0 x1 x2 x3 x4 = A
  generalize val_main_v51 (F := Ideal) x0 x1 x2 x3 x4 = B
  generalize val_main_v37 (F := Ideal) x2 = E
  exact dot_cat3_eq_msgs (K := 257) rfl A B E x5 x6 _ r j

end Cert.ReferenceIdeal.LayerR

end
-- ==== Proof.Bridge.lean ====
/- The two programs compute one function. Under the range facts the kernel's filled row lookups are the plain lookups the
   reference makes; each layer's messages are then, in both programs, the layer's messages written out over the weight's
   three row blocks; and everything after the messages (the sum at every target node, the cut at zero, the log-softmax) is the
   same chain of operations applied to equal arrays. -/
import proofs.«415574_j15994458211317_1_alg».proof.Proof.Gen.KernelIdeal
import proofs.«415574_j15994458211317_1_alg».proof.Proof.KStages
import proofs.«415574_j15994458211317_1_alg».proof.Proof.KResult
import proofs.«415574_j15994458211317_1_alg».proof.Proof.Spec
import proofs.«415574_j15994458211317_1_alg».proof.Proof.TakeGather
import proofs.«415574_j15994458211317_1_alg».proof.Proof.LayerK1
import proofs.«415574_j15994458211317_1_alg».proof.Proof.LayerK2
import proofs.«415574_j15994458211317_1_alg».proof.Proof.LayerR

noncomputable section

namespace Cert.Bridge

open Idealize.ShloMosaic Cert.KernelIdeal.Stages
open Cert.ReferenceIdeal (ReadP.val_main_v8 ReadP.val_main_v15 ReadP.val_main_v22 ReadP.val_main_v27 ReadP.val_main_v32 ReadP.val_main_v37
  ReadP.val_main_v44 ReadP.val_main_v51 ReadP.val_main_v56 ReadP.val_main_v61)

-- a reduction, a row lookup and a scatter are compared operand by operand, never opened
attribute [local irreducible] Host.reduce Host.reduceAdd Host.gather Host.scatterAdd

theorem result_eq (x : FVec Ideal Cert.KernelIdeal.S50000x64 .f32) (ei : IVec Cert.KernelIdeal.S2x800000 32) (ea : FVec Ideal Cert.KernelIdeal.S800000x1 .f32)
    (w1 : FVec Ideal Cert.KernelIdeal.S129x128 .f32) (b1 : FVec Ideal Cert.KernelIdeal.S128 .f32) (w2 : FVec Ideal Cert.KernelIdeal.S257x64 .f32)
    (b2 : FVec Ideal Cert.KernelIdeal.S64 .f32) (hd : InRange (dstIdx ei)) (hs : InRange (srcIdx ei)) :
    result x ei ea w1 b1 w2 b2 = ReadP.val_main_v61 (F := Ideal) x ei ea w1 b1 w2 b2 := by
  -- layer 1: the rows both programs look up, and the attribute column
  have gi : Host.gather Cert.KernelIdeal.gather_S50000x64_S850000x1_S850000x64_1_0_n_n_0_1_164 x (wrapIdx (dstIdx ei))
      = ReadP.val_main_v15 (F := Ideal) x ei := rfl
  have gj : Host.gather Cert.KernelIdeal.gather_S50000x64_S850000x1_S850000x64_1_0_n_n_0_1_164 x (wrapIdx (srcIdx ei))
      = ReadP.val_main_v22 (F := Ideal) x ei := rfl
  have ge : attr2 (F := Ideal) ea = ReadP.val_main_v8 (F := Ideal) ea := rfl
  -- layer 1's messages
  have m1 : extractStridedSlice Cert.KernelIdeal.S850000x128 ![0, 0]
      (Cert.Spec.lin (in1_xi (F := Ideal) x (dstIdx ei)) (in1_xj (F := Ideal) x (srcIdx ei) (attr2 ea)) (in1_wi w1) (in1_wj w1) (in1_b b1))
      Cert.KernelIdeal.Facts₀.slices_S851968x128_S850000x128_0_0 = ReadP.val_main_v27 (F := Ideal) x ei ea w1 b1 := by
    unfold in1_xi in1_xj
    rw [take64_eq_gather x _ hd, take64_eq_gather x _ hs, layer1_kernel, gi, gj, ge]
    exact (Cert.ReferenceIdeal.LayerR.layer1_reference x ei ea w1 b1).symm
  -- node features after layer 1
  have hh : hidden1 x ei ea w1 b1 = ReadP.val_main_v32 (F := Ideal) x ei ea w1 b1 := by
    unfold hidden1 Cert.KernelIdeal.Stages.hidden
    rw [m1]
    rfl
  -- layer 2: the same, from those features
  have gi2 : Host.gather Cert.KernelIdeal.gather_S50000x128_S850000x1_S850000x128_1_0_n_n_0_1_1128 (ReadP.val_main_v32 (F := Ideal) x ei ea w1 b1)
      (wrapIdx (dstIdx ei)) = ReadP.val_main_v44 (F := Ideal) x ei ea w1 b1 := rfl
  have gj2 : Host.gather Cert.KernelIdeal.gather_S50000x128_S850000x1_S850000x128_1_0_n_n_0_1_1128 (ReadP.val_main_v32 (F := Ideal) x ei ea w1 b1)
      (wrapIdx (srcIdx ei)) = ReadP.val_main_v51 (F := Ideal) x ei ea w1 b1 := rfl
  have ge2 : attr2 (F := Ideal) ea = ReadP.val_main_v37 (F := Ideal) ea := rfl
  have m2 : extractStridedSlice Cert.KernelIdeal.S850000x64 ![0, 0]
      (Cert.Spec.lin (in2_xi (F := Ideal) (hidden1 x ei ea w1 b1) (dstIdx ei)) (in2_xj (F := Ideal) (hidden1 x ei ea w1 b1) (srcIdx ei) (attr2 ea))
        (in2_wi w2) (in2_wj w2) (in2_b b2))
      Cert.KernelIdeal.Facts₀.slices_S851968x64_S850000x64_0_0 = ReadP.val_main_v56 (F := Ideal) x ei ea w1 b1 w2 b2 := by
    rw [hh]
    unfold in2_xi in2_xj
    rw [take128_eq_gather _ _ hd, take128_eq_gather _ _ hs, layer2_kernel, gi2, gj2, ge2]
    exact (Cert.ReferenceIdeal.LayerR.layer2_reference x ei ea w1 b1 w2 b2).symm
  -- the sum at every target, the cut at zero and the log-softmax are the same operations on both sides
  unfold result agg2
  rw [m2]
  rfl

end Cert.Bridge

end
-- ==== Proof.lean ====
/- Two graph-neural-network layers and a log-softmax, computed two ways. The reference forms every message as one inner
   product over the row [target features | source features | edge attribute]; the kernel program computes the messages on the
   accelerator as two inner products (the target block; the source block with the attribute), from rows padded to whole
   blocks, and looks the node rows up with a lookup that fills rows whose number is no node. Where every entry of the edge
   list IS a node number (the precondition's last conjunct) nothing is filled, the one inner product is the sum of the two,
   and the padding rows are cut off again: over the extended reals the two programs give the same result, by associativity
   of addition alone. The three frames are the generated frame proofs (the reference's is its run with the result
   dropped); the ideal pass rewrote nothing, so there is nothing to preserve. -/
import proofs.«415574_j15994458211317_1_alg».proof.Defs
import proofs.«415574_j15994458211317_1_alg».proof.Proof.Gen.Kernel
import proofs.«415574_j15994458211317_1_alg».proof.Proof.Gen.Kernel.Skeleton
import proofs.«415574_j15994458211317_1_alg».proof.Proof.Gen.Kernel.Launch
import proofs.«415574_j15994458211317_1_alg».proof.Proof.Gen.Kernel.Points
import proofs.«415574_j15994458211317_1_alg».proof.Proof.Gen.Kernel.Frame
import proofs.«415574_j15994458211317_1_alg».proof.Proof.Gen.KernelIdeal
import proofs.«415574_j15994458211317_1_alg».proof.Proof.Gen.KernelIdeal.Skeleton
import proofs.«415574_j15994458211317_1_alg».proof.Proof.Gen.KernelIdeal.Launch
import proofs.«415574_j15994458211317_1_alg».proof.Proof.Gen.KernelIdeal.Points
import proofs.«415574_j15994458211317_1_alg».proof.Proof.Gen.KernelIdeal.Frame
import proofs.«415574_j15994458211317_1_alg».proof.Proof.Gen.ReferenceIdeal
import proofs.«415574_j15994458211317_1_alg».proof.Proof.RefRun
import proofs.«415574_j15994458211317_1_alg».proof.Proof.RefRead
import proofs.«415574_j15994458211317_1_alg».proof.Proof.RefHost
import proofs.«415574_j15994458211317_1_alg».proof.Proof.Gen.Pre_finite_inputs
import proofs.«415574_j15994458211317_1_alg».proof.Proof.KernelRun
import proofs.«415574_j15994458211317_1_alg».proof.Proof.KernelHost
import proofs.«415574_j15994458211317_1_alg».proof.Proof.IndexRange
import proofs.«415574_j15994458211317_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's generated run, its result dropped. -/
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both runs end at the kernel's result function of the (shared) arguments. -/
theorem algebraic : Cert.algebraic_KernelIdeal_ReferenceIdeal := by
  intro m ρ m' ρ' hpre hagree
  refine ⟨fun c => Cert.KernelIdeal.Stages.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.KernelHost.W23_result m ρ c), (h c).2⟩)
      (Cert.KernelIdeal.KernelRun.run_result (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.RefHost.read_result_launch, (hagree c).1, (hagree c).2.1, (hagree c).2.2.1, (hagree c).2.2.2.1,
      (hagree c).2.2.2.2.1, (hagree c).2.2.2.2.2.1, (hagree c).2.2.2.2.2.2]
    obtain ⟨hd, hs⟩ := Cert.KernelIdeal.Stages.inRange_of_pre _ _ _ _ _ _ _ (hpre c)
    exact (Cert.Bridge.result_eq _ _ _ _ _ _ _ hd hs).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
